-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x32x128x128 : Shape := ⟨5, ![4, 64, 32, 128, 128]⟩
abbrev S64x256 : Shape := ⟨2, ![64, 256]⟩
abbrev S_ : Shape := ⟨0, ![]⟩

class Facts : Prop where
  bcast_S_S4x64x32x128x128 : S_.BroadcastsInDim S4x64x32x128x128 (![] : Fin 0 → Fin S4x64x32x128x128.rank)
  reducesTo_S4x64x32x128x128_S_d0_1_2_3_4 : S4x64x32x128x128.ReducesTo [0, 1, 2, 3, 4] S_
  h_S_ : 0 < S_.numel
  bcast_S_S64x256 : S_.BroadcastsInDim S64x256 (![] : Fin 0 → Fin S64x256.rank)
  reducesTo_S64x256_S_d0_1 : S64x256.ReducesTo [0, 1] S_

variable [Facts]

def fn {F : FTy → Type} [FloatOps F] (main_arg0 : FVec F S4x64x32x128x128 .f32) (main_arg1 : FVec F S64x256 .f32) : IVec S_ 1 :=
  let main_v0 : FVec F S4x64x32x128x128 .f32 := Host.absf main_arg0
  let main_cst : FVec F S_ .f32 := constant S_ .f32 0x7F800000#32
  let main_v1 : FVec F S4x64x32x128x128 .f32 := broadcastInDim S4x64x32x128x128 ![] bcast_S_S4x64x32x128x128 main_cst
  let main_v2 : IVec S4x64x32x128x128 1 := cmpf .olt main_v0 main_v1
  let main_c : IVec S_ 1 := constantI S_ 1 1#1
  let main_v3 : IVec S_ 1 := (fun x v => Host.reduce IntOp.andi x v reducesTo_S4x64x32x128x128_S_d0_1_2_3_4 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  main_v8
-- ==== Kernel.lean ====
abbrev S4x64x32x128x128 : Shape := ⟨5, ![4, 64, 32, 128, 128]⟩
abbrev S64x256 : Shape := ⟨2, ![64, 256]⟩
abbrev S64x4 : Shape := ⟨2, ![64, 4]⟩
abbrev S4x8x4x128x128 : Shape := ⟨5, ![4, 8, 4, 128, 128]⟩
abbrev S8x4 : Shape := ⟨2, ![8, 4]⟩
abbrev S4x8x128x128 : Shape := ⟨4, ![4, 8, 128, 128]⟩
abbrev S4x8 : Shape := ⟨2, ![4, 8]⟩
abbrev S4x8x128 : Shape := ⟨3, ![4, 8, 128]⟩
abbrev S4x8x1x1 : Shape := ⟨4, ![4, 8, 1, 1]⟩
abbrev S4x8x1x128 : Shape := ⟨4, ![4, 8, 1, 128]⟩
abbrev S4x8x128x1 : Shape := ⟨4, ![4, 8, 128, 1]⟩
abbrev S4x64 : Shape := ⟨2, ![4, 64]⟩
abbrev S4x256 : Shape := ⟨2, ![4, 256]⟩

abbrev nBuf : Space → Nat
  | .hbm => 5
  | .vmem => 10
  | .smem => 0
  | _ => 0

abbrev bufTy : (tb : Table) → Fin (tcTables nBuf tb) → BufTy
  | .hbm, ⟨0, _⟩ => ⟨S4x64x32x128x128, .f32⟩
  | .hbm, ⟨1, _⟩ => ⟨S64x256, .f32⟩
  | .hbm, ⟨2, _⟩ => ⟨S64x4, .f32⟩
  | .hbm, ⟨3, _⟩ => ⟨S4x64, .f32⟩
  | .hbm, ⟨4, _⟩ => ⟨S4x256, .f32⟩
  | .local _ .vmem, ⟨0, _⟩ => ⟨S4x8x4x128x128, .f32⟩
  | .local _ .vmem, ⟨1, _⟩ => ⟨S4x8x4x128x128, .f32⟩
  | .local _ .vmem, ⟨2, _⟩ => ⟨S8x4, .f32⟩
  | .local _ .vmem, ⟨3, _⟩ => ⟨S8x4, .f32⟩
  | .local _ .vmem, ⟨4, _⟩ => ⟨S4x8x128x128, .f32⟩
  | .local _ .vmem, ⟨5, _⟩ => ⟨S4x8, .f32⟩
  | .local _ .vmem, ⟨6, _⟩ => ⟨S4x8, .f32⟩
  | .local _ .vmem, ⟨7, _⟩ => ⟨S4x64, .f32⟩
  | .local _ .vmem, ⟨8, _⟩ => ⟨S64x256, .f32⟩
  | .local _ .vmem, ⟨9, _⟩ => ⟨S4x256, .f32⟩
  | _, _ => ⟨S4x64x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_26 : BitVec 32 := 0#32
  let v28 : BitVec 1 := Scalar.cmpi .ne v27 c0_i32_26
  v28

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4x8x4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S4x8x128x128_S4x8x128x128_0_0_0_0 : ∀ a, (![0, 0, 0, 0] : Fin 4 → Nat) a + S4x8x128x128.size a ≤ S4x8x128x128.size a
  h_S4x8x128x128 : 0 < S4x8x128x128.numel
  shapeCasts_S4x8x128x128_S4x8x128x128 : S4x8x128x128.ShapeCasts S4x8x128x128
  inb_S4x8_S4x8_0_0 : ∀ a, (![0, 0] : Fin 2 → Nat) a + S4x8.size a ≤ S4x8.size a
  h_S4x8 : 0 < S4x8.numel
  shapeCasts_S4x8_S4x8 : S4x8.ShapeCasts S4x8
  inb_S4x8x4x128x128_S4x8x4x128x128_0_0_0_0_0 : ∀ a, (![0, 0, 0, 0, 0] : Fin 5 → Nat) a + S4x8x4x128x128.size a ≤ S4x8x4x128x128.size a
  h_S4x8x4x128x128 : 0 < S4x8x4x128x128.numel
  reduces_S4x8x4x128x128_S4x8x128x128 : S4x8x4x128x128.Reduces [2] S4x8x128x128
  reduces_S4x8x128x128_S4x8x128 : S4x8x128x128.Reduces [3] S4x8x128
  reduces_S4x8x128_S4x8 : S4x8x128.Reduces [2] S4x8
  shapeCasts_S4x8_S4x8x1x1 : S4x8.ShapeCasts S4x8x1x1
  broadcasts_S4x8x1x1_S4x8x128x128 : S4x8x1x1.Broadcasts S4x8x128x128
  slices_S4x8x128x128_o0_0_1_0_S4x8x1x128 : S4x8x128x128.Slices ![0, 0, 1, 0] S4x8x1x128
  shapeCasts_S4x8x1x128_S4x8x128 : S4x8x1x128.ShapeCasts S4x8x128
  slices_S4x8x128x128_o0_0_126_0_S4x8x1x128 : S4x8x128x128.Slices ![0, 0, 126, 0] S4x8x1x128
  slices_S4x8x128x128_o0_0_0_1_S4x8x128x1 : S4x8x128x128.Slices ![0, 0, 0, 1] S4x8x128x1
  shapeCasts_S4x8x128x1_S4x8x128 : S4x8x128x1.ShapeCasts S4x8x128
  slices_S4x8x128x128_o0_0_0_126_S4x8x128x1 : S4x8x128x128.Slices ![0, 0, 0, 126] S4x8x128x1
  slices_S4x8x128x128_o0_0_1_1_S4x8x1x1 : S4x8x128x128.Slices ![0, 0, 1, 1] S4x8x1x1
  shapeCasts_S4x8x1x1_S4x8 : S4x8x1x1.ShapeCasts S4x8
  slices_S4x8x128x128_o0_0_1_126_S4x8x1x1 : S4x8x128x128.Slices ![0, 0, 1, 126] S4x8x1x1
  slices_S4x8x128x128_o0_0_126_1_S4x8x1x1 : S4x8x128x128.Slices ![0, 0, 126, 1] S4x8x1x1
  slices_S4x8x128x128_o0_0_126_126_S4x8x1x1 : S4x8x128x128.Slices ![0, 0, 126, 126] S4x8x1x1
  transposes_S4x8_p1_0_S8x4 : S4x8.Transposes [1, 0] S8x4
  inb_S8x4_S8x4_0_0 : ∀ a, (![0, 0] : Fin 2 → Nat) a + S8x4.size a ≤ S8x4.size a
  h_S8x4 : 0 < S8x4.numel
  transposes_S64x4_S4x64_1_0 : S64x4.Transposes [1, 0] S4x64
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S64x256_S64x256_0_0 : ∀ a, (![0, 0] : Fin 2 → Nat) a + S64x256.size a ≤ S64x256.size a
  h_S64x256 : 0 < S64x256.numel
  inb_S4x256_S4x256_0_0 : ∀ a, (![0, 0] : Fin 2 → Nat) a + S4x256.size a ≤ S4x256.size a
  h_S4x256 : 0 < S4x256.numel
  dot_S4x64_S64x256_S4x256_1_0_0_1_n_n_wf : DotDims.WF S4x64 S64x256 S4x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x4x128x128.size a ≤ S4x64x32x128x128.size a
  hwx0_0 : ∀ i : grid0.Coords, EltTy.bits .f32 = 32 ∨ (Rect.block (s := S4x64x32x128x128) S4x8x4x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4.size a ≤ S64x4.size a
  hwx0_1 : ∀ i : grid0.Coords, EltTy.bits .f32 = 32 ∨ (Rect.block (s := S64x4) S8x4.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4x64.size a ≤ S4x64.size a
  hwx1_0 : ∀ i : grid1.Coords, EltTy.bits .f32 = 32 ∨ (Rect.block (s := S4x64) S4x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x256.size a ≤ S4x256.size a
  hwx1_2 : ∀ i : grid1.Coords, EltTy.bits .f32 = 32 ∨ (Rect.block (s := S4x256) S4x256.size (cc1_transform_2 i) (hinb1_2 i)).WholeWords (EltTy.packing .f32)

variable [Facts₀]

def dot_S4x64_S64x256_S4x256_1_0_0_1_n_n : DotDims S4x64 S64x256 S4x256 where
  lhsContracting := [1]
  rhsContracting := [0]
  lhsNonContracting := [0]
  rhsNonContracting := [1]
  lhsBatch := []
  rhsBatch := []
  wf := dot_S4x64_S64x256_S4x256_1_0_0_1_n_n_wf

abbrev win0_0 : Pipeline.Window sig grid0 :=
  Pipeline.Window.ofSpec (Memref.whole main_arg0) S4x8x4x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v1) S4x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S4x256.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x64x32x128x128 : Shape := ⟨5, ![4, 64, 32, 128, 128]⟩
abbrev S64x256 : Shape := ⟨2, ![64, 256]⟩
abbrev S_ : Shape := ⟨0, ![]⟩
abbrev S4x64 : Shape := ⟨2, ![4, 64]⟩
abbrev S4x64x1x1x1 : Shape := ⟨5, ![4, 64, 1, 1, 1]⟩
abbrev S4x64x128x128 : Shape := ⟨4, ![4, 64, 128, 128]⟩
abbrev S4x64x1x128 : Shape := ⟨4, ![4, 64, 1, 128]⟩
abbrev S4x64x129x128 : Shape := ⟨4, ![4, 64, 129, 128]⟩
abbrev S4x64x130x128 : Shape := ⟨4, ![4, 64, 130, 128]⟩
abbrev S4x64x130x1 : Shape := ⟨4, ![4, 64, 130, 1]⟩
abbrev S4x64x130x129 : Shape := ⟨4, ![4, 64, 130, 129]⟩
abbrev S4x64x130x130 : Shape := ⟨4, ![4, 64, 130, 130]⟩
abbrev S4x256 : Shape := ⟨2, ![4, 256]⟩

abbrev nBuf : Space → Nat
  | .hbm => 53
  | .vmem => 0
  | .smem => 0
  | _ => 0

abbrev bufTy : (tb : Table) → Fin (tcTables nBuf tb) → BufTy
  | .hbm, ⟨0, _⟩ => ⟨S4x64x32x128x128, .f32⟩
  | .hbm, ⟨1, _⟩ => ⟨S64x256, .f32⟩
  | .hbm, ⟨2, _⟩ => ⟨S_, .f32⟩
  | .hbm, ⟨3, _⟩ => ⟨S4x64, .f32⟩
  | .hbm, ⟨4, _⟩ => ⟨S4x64x1x1x1, .f32⟩
  | .hbm, ⟨5, _⟩ => ⟨S_, .f32⟩
  | .hbm, ⟨6, _⟩ => ⟨S4x64x1x1x1, .f32⟩
  | .hbm, ⟨7, _⟩ => ⟨S4x64x1x1x1, .f32⟩
  | .hbm, ⟨8, _⟩ => ⟨S4x64x32x128x128, .f32⟩
  | .hbm, ⟨9, _⟩ => ⟨S4x64x32x128x128, .f32⟩
  | .hbm, ⟨10, _⟩ => ⟨S4x64x32x128x128, .f32⟩
  | .hbm, ⟨11, _⟩ => ⟨S_, .f32⟩
  | .hbm, ⟨12, _⟩ => ⟨S4x64, .f32⟩
  | .hbm, ⟨13, _⟩ => ⟨S4x64x1x1x1, .f32⟩
  | .hbm, ⟨14, _⟩ => ⟨S_, .f32⟩
  | .hbm, ⟨15, _⟩ => ⟨S4x64x1x1x1, .f32⟩
  | .hbm, ⟨16, _⟩ => ⟨S4x64x1x1x1, .f32⟩
  | .hbm, ⟨17, _⟩ => ⟨S4x64x32x128x128, .f32⟩
  | .hbm, ⟨18, _⟩ => ⟨S4x64x32x128x128, .f32⟩
  | .hbm, ⟨19, _⟩ => ⟨S_, .f32⟩
  | .hbm, ⟨20, _⟩ => ⟨S4x64x1x1x1, .f32⟩
  | .hbm, ⟨21, _⟩ => ⟨S4x64x1x1x1, .f32⟩
  | .hbm, ⟨22, _⟩ => ⟨S4x64x1x1x1, .f32⟩
  | .hbm, ⟨23, _⟩ => ⟨S4x64x32x128x128, .f32⟩
  | .hbm, ⟨24, _⟩ => ⟨S4x64x32x128x128, .f32⟩
  | .hbm, ⟨25, _⟩ => ⟨S_, .f32⟩
  | .hbm, ⟨26, _⟩ => ⟨S4x64x128x128, .f32⟩
  | .hbm, ⟨27, _⟩ => ⟨S_, .f32⟩
  | .hbm, ⟨28, _⟩ => ⟨S4x64x128x128, .f32⟩
  | .hbm, ⟨29, _⟩ => ⟨S4x64x128x128, .f32⟩
  | .hbm, ⟨30, _⟩ => ⟨S_, .i32⟩
  | .hbm, ⟨31, _⟩ => ⟨S4x64x1x128, .f32⟩
  | .hbm, ⟨32, _⟩ => ⟨S4x64x1x128, .f32⟩
  | .hbm, ⟨33, _⟩ => ⟨S4x64x1x128, .f32⟩
  | .hbm, ⟨34, _⟩ => ⟨S4x64x129x128, .f32⟩
  | .hbm, ⟨35, _⟩ => ⟨S4x64x1x128, .f32⟩
  | .hbm, ⟨36, _⟩ => ⟨S4x64x1x128, .f32⟩
  | .hbm, ⟨37, _⟩ => ⟨S4x64x1x128, .f32⟩
  | .hbm, ⟨38, _⟩ => ⟨S4x64x130x128, .f32⟩
  | .hbm, ⟨39, _⟩ => ⟨S4x64x130x1, .f32⟩
  | .hbm, ⟨40, _⟩ => ⟨S4x64x130x1, .f32⟩
  | .hbm, ⟨41, _⟩ => ⟨S4x64x130x1, .f32⟩
  | .hbm, ⟨42, _⟩ => ⟨S4x64x130x129, .f32⟩
  | .hbm, ⟨43, _⟩ => ⟨S4x64x130x1, .f32⟩
  | .hbm, ⟨44, _⟩ => ⟨S4x64x130x1, .f32⟩
  | .hbm, ⟨45, _⟩ => ⟨S4x64x130x1, .f32⟩
  | .hbm, ⟨46, _⟩ => ⟨S4x64x130x130, .f32⟩
  | .hbm, ⟨47, _⟩ => ⟨S_, .f32⟩
  | .hbm, ⟨48, _⟩ => ⟨S4x64, .f32⟩
  | .hbm, ⟨49, _⟩ => ⟨S_, .f32⟩
  | .hbm, ⟨50, _⟩ => ⟨S4x64, .f32⟩
  | .hbm, ⟨51, _⟩ => ⟨S4x64, .f32⟩
  | .hbm, ⟨52, _⟩ => ⟨S4x256, .f32⟩
  | _, _ => ⟨S4x64x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_v21 : Ref sig .tc := ⟨.hbm, 46, rfl⟩
abbrev main_cst_6 : Ref sig .tc := ⟨.hbm, 47, rfl⟩
abbrev main_v22 : Ref sig .tc := ⟨.hbm, 48, rfl⟩
abbrev main_cst_7 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩

abbrev nD : Nat := 1
abbrev τ : Topo := Topo.v7x

variable {F : FTy → Type} [FloatOps F]

class Facts₀ : Prop where
  reducesTo_S4x64x32x128x128_S4x64_d2_3_4 : S4x64x32x128x128.ReducesTo [2, 3, 4] S4x64
  h_S_ : 0 < S_.numel
  bcast_S4x64_S4x64x1x1x1_0_1 : S4x64.BroadcastsInDim S4x64x1x1x1 (![0, 1] : Fin 2 → Fin S4x64x1x1x1.rank)
  bcast_S_S4x64x1x1x1 : S_.BroadcastsInDim S4x64x1x1x1 (![] : Fin 0 → Fin S4x64x1x1x1.rank)
  bcast_S4x64x1x1x1_S4x64x32x128x128_0_1_2_3_4 : S4x64x1x1x1.BroadcastsInDim S4x64x32x128x128 (![0, 1, 2, 3, 4] : Fin 5 → Fin S4x64x32x128x128.rank)
  reducesTo_S4x64x32x128x128_S4x64x128x128_d2 : S4x64x32x128x128.ReducesTo [2] S4x64x128x128
  bcast_S_S4x64x128x128 : S_.BroadcastsInDim S4x64x128x128 (![] : Fin 0 → Fin S4x64x128x128.rank)
  slices_S4x64x128x128_S4x64x1x128_0_0_0_0 : S4x64x128x128.Slices ![0, 0, 0, 0] S4x64x1x128
  slices_S4x64x128x128_S4x64x1x128_0_0_1_0 : S4x64x128x128.Slices ![0, 0, 1, 0] S4x64x1x128
  concatenates_S4x64x1x128_S4x64x128x128_S4x64x129x128_d2 : Shape.Concatenates [S4x64x1x128, S4x64x128x128] S4x64x129x128 2
  slices_S4x64x129x128_S4x64x1x128_0_0_128_0 : S4x64x129x128.Slices ![0, 0, 128, 0] S4x64x1x128
  slices_S4x64x129x128_S4x64x1x128_0_0_127_0 : S4x64x129x128.Slices ![0, 0, 127, 0] S4x64x1x128
  concatenates_S4x64x129x128_S4x64x1x128_S4x64x130x128_d2 : Shape.Concatenates [S4x64x129x128, S4x64x1x128] S4x64x130x128 2
  slices_S4x64x130x128_S4x64x130x1_0_0_0_0 : S4x64x130x128.Slices ![0, 0, 0, 0] S4x64x130x1
  slices_S4x64x130x128_S4x64x130x1_0_0_0_1 : S4x64x130x128.Slices ![0, 0, 0, 1] S4x64x130x1
  concatenates_S4x64x130x1_S4x64x130x128_S4x64x130x129_d3 : Shape.Concatenates [S4x64x130x1, S4x64x130x128] S4x64x130x129 3
  slices_S4x64x130x129_S4x64x130x1_0_0_0_128 : S4x64x130x129.Slices ![0, 0, 0, 128] S4x64x130x1
  slices_S4x64x130x129_S4x64x130x1_0_0_0_127 : S4x64x130x129.Slices ![0, 0, 0, 127] S4x64x130x1
  concatenates_S4x64x130x129_S4x64x130x1_S4x64x130x130_d3 : Shape.Concatenates [S4x64x130x129, S4x64x130x1] S4x64x130x130 3
  reducesTo_S4x64x130x130_S4x64_d2_3 : S4x64x130x130.ReducesTo [2, 3] S4x64
  bcast_S_S4x64 : S_.BroadcastsInDim S4x64 (![] : Fin 0 → Fin S4x64.rank)
  dot_S4x64_S64x256_S4x256_1_0_0_1_n_n_wf : DotDims.WF S4x64 S64x256 S4x256 [1] [0] [0] [1] [] []

variable [Facts₀]

def dot_S4x64_S64x256_S4x256_1_0_0_1_n_n : DotDims S4x64 S64x256 S4x256 where
  lhsContracting := [1]
  rhsContracting := [0]
  lhsNonContracting := [0]
  rhsNonContracting := [1]
  lhsBatch := []
  rhsBatch := []
  wf := dot_S4x64_S64x256_S4x256_1_0_0_1_n_n_wf

class Facts : Prop extends Facts₀ where

variable [Facts]
-- ==== Proof.KernelFrame.State.lean ====
/-
  The statistics kernel keeps three running sums between grid points: per (n, c, h, w) the sum of the
  input over the depth slices seen so far, per (n, c) the sum of the input over depth and the plane, and
  per (n, c) the sum of its squares. This module names that state, one point's update of it from the
  point's input block, the state a channel tile starts from (all zero), and the descriptor the last depth
  step of a channel tile computes from the state: the mean over the reflect-padded plane of the
  depth-mean of the normalized input, transposed to (channel, batch).
-/
import proofs.«100511_j11888469476170_1_alg».proof.Proof.Gen.Kernel.Skeleton

noncomputable section

namespace Cert.Kernel.Frame

open Idealize.ShloMosaic Cert.Kernel Cert.Kernel.Gen

variable {F : FTy → Type} [FloatOps F]

/-- The running sums: over depth per plane position, over everything, and of squares over everything. -/
abbrev Acc (F : FTy → Type) [FloatOps F] : Type :=
  Vec F S4x8x128x128 .f32 × Vec F S4x8 .f32 × Vec F S4x8 .f32

/-- What a channel tile's first depth step resets the sums to: zero everywhere. -/
def accZero : Acc F := (k0_pay12 (F := F), k0_pay13 (F := F), k0_pay14 (F := F))

/-- One depth step: each running sum plus the block's contribution (the block summed over its four depth
    slices; that summed over the plane; the block's squares summed over everything). -/
def accStep (x : Vec F S4x8x4x128x128 .f32) (a : Acc F) : Acc F :=
  (k0_pay16 x a.1, k0_pay17 x a.2.1, k0_pay18 x a.2.2)

/-- The descriptor block a channel tile's last depth step stores, from the completed sums. -/
def accDesc (a : Acc F) : Vec F S8x4 .f32 :=
  k0_pay1 (k0_pay3 a.2.1 a.2.2 a.1) (k0_pay4 a.2.1 a.2.2 a.1) (k0_pay5 a.2.1 a.2.2 a.1) (k0_pay6 a.2.1 a.2.2 a.1)
    (k0_pay7 a.2.1 a.2.2 a.1) (k0_pay8 a.2.1 a.2.2 a.1) (k0_pay9 a.2.1 a.2.2 a.1) (k0_pay10 a.2.1 a.2.2 a.1)
    (k0_pay11 a.2.1 a.2.2 a.1)

end Cert.Kernel.Frame

end
-- ==== Proof.KernelFrame.Body0.lean ====
/-
  The statistics kernel's body at one grid point, in its three control cases, as separation-logic triples over
  whole staging and scratch buffers: from the input block `x`, the output's staging buffer at `y` and the three
  running sums at `a`, the body runs to the sums updated by the block (`accStep`) — from zero at a channel tile's
  first depth step — and, at the tile's last depth step, the output's buffer at the descriptor of the completed
  sums (`accDesc`); elsewhere the output's buffer is untouched. Every store of the body writes a whole buffer, so
  what a buffer holds afterwards is the last store's value, and a load after a store reads that value.
-/
import proofs.«100511_j11888469476170_1_alg».proof.Proof.KernelFrame.State
import proofs.«100511_j11888469476170_1_alg».proof.Proof.Gen.Kernel.Launch
import proofs.«100511_j11888469476170_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch of the body: taken at a channel tile's first depth step (depth coordinate 0). -/
abbrev condFirst (i : grid0.Coords) : Prop := (Scalar.cmpi .ne (Scalar.extui (Scalar.cmpi .eq (BitVec.ofNat 32 (i 1).val) 0#32)) 0#32) = 1#1
/-- The second branch: taken at its last depth step (depth coordinate 7). -/
abbrev condLast (i : grid0.Coords) : Prop := k0_cond2 i = 1#1

theorem hz2 : (![0, 0] : Fin 2 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- A store through the whole buffer, the last of a list of stores, covers every index. -/
theorem cover_head {Val : EltTy → Type} {S : Shape} {e : EltTy} (off : Fin S.rank → Nat) (h : off = fun _ => 0)
    (inb : ∀ a, off a + S.size a ≤ S.size a) (w : S.Idx → Val e) (L : List (View.Piece Val S e)) (y : S.Idx) :
    ∃ pc ∈ ((⟨Rect.unit off S.size inb, w⟩ : View.Piece Val S e) :: L), y ∈ pc.1.set :=
  ⟨_, List.mem_cons_self, View.mem_set_unit_zero h inb y⟩

set_option maxHeartbeats 4000000 in
/-- A depth step that is neither the first nor the last of its channel tile: the three running sums each take the
    block's contribution; the input block and the output's staging buffer are left as found. -/
theorem body_mid (c : Dev nD) (E : Set ℕ) (i : grid0.Coords)
    (arg2 : Memref sig .tc .vmem S4x8x4x128x128 .f32) (harg2 : arg2.IsWhole) (arg3 : Memref sig .tc .vmem S8x4 .f32) (harg3 : arg3.IsWhole)
    (arg4 : Memref sig .tc .vmem S4x8x128x128 .f32) (harg4 : arg4.IsWhole) (arg5 : Memref sig .tc .vmem S4x8 .f32) (harg5 : arg5.IsWhole)
    (arg6 : Memref sig .tc .vmem S4x8 .f32) (harg6 : arg6.IsWhole)
    (hf : ¬condFirst i) (hl : ¬condLast i)
    (x : Vec F S4x8x4x128x128 .f32) (y : Vec F S8x4 .f32) (a : Acc F) (K : PUnit → sProp 𝕄) :
    iprop(owns (c : Thread nD τ) arg2 fullShare x ∗ owns (c : Thread nD τ) arg3 fullShare y
        ∗ owns (c : Thread nD τ) arg4 fullShare a.1 ∗ owns (c : Thread nD τ) arg5 fullShare a.2.1 ∗ owns (c : Thread nD τ) arg6 fullShare a.2.2
        ∗ (iprop(owns (c : Thread nD τ) arg2 fullShare x ∗ owns (c : Thread nD τ) arg3 fullShare (y)
            ∗ owns (c : Thread nD τ) arg4 fullShare (accStep x a).1 ∗ owns (c : Thread nD τ) arg5 fullShare (accStep x a).2.1
            ∗ owns (c : Thread nD τ) arg6 fullShare (accStep x a).2.2) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg4.eq_unread hf4; obtain rfl := harg5.eq_unread hf5; obtain rfl := harg6.eq_unread hf6
  sl_exec (disch := first | exact hf | exact hl)
  sl_step
  iapply Hk
  isplitl [H2]
  · iexists _; isplitr; · ipureintro; exact harg2.read_unread _
    iexact H2
  isplitl [H3]
  · iexists _; isplitr
    swap; · iexact H3
    ipureintro; exact hf3
  isplitl [H4]
  · iexists _; isplitr
    swap; · iexact H4
    ipureintro
    sl_unfold_words
    refine (View.read_writes_eq_canon _ _ _ (fun y => cover_head _ hz4 _ _ _ y)).trans ?_
    refine (View.canon_cons_unit_zero (S := S4x8x128x128) hz4 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]
  isplitl [H5]
  · iexists _; isplitr
    swap; · iexact H5
    ipureintro
    sl_unfold_words
    refine (View.read_writes_eq_canon _ _ _ (fun y => cover_head _ hz2 _ _ _ y)).trans ?_
    refine (View.canon_cons_unit_zero (S := S4x8) hz2 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]
  · iexists _; isplitr
    swap; · iexact H6
    ipureintro
    sl_unfold_words
    refine (View.read_writes_eq_canon _ _ _ (fun y => cover_head _ hz2 _ _ _ y)).trans ?_
    refine (View.canon_cons_unit_zero (S := S4x8) hz2 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]

set_option maxHeartbeats 4000000 in
/-- A channel tile's first depth step: whatever the sums held, they are reset to zero and then take the block's
    contribution; the input block and the output's staging buffer are left as found. -/
theorem body_first (c : Dev nD) (E : Set ℕ) (i : grid0.Coords)
    (arg2 : Memref sig .tc .vmem S4x8x4x128x128 .f32) (harg2 : arg2.IsWhole) (arg3 : Memref sig .tc .vmem S8x4 .f32) (harg3 : arg3.IsWhole)
    (arg4 : Memref sig .tc .vmem S4x8x128x128 .f32) (harg4 : arg4.IsWhole) (arg5 : Memref sig .tc .vmem S4x8 .f32) (harg5 : arg5.IsWhole)
    (arg6 : Memref sig .tc .vmem S4x8 .f32) (harg6 : arg6.IsWhole)
    (hf : condFirst i) (hl : ¬condLast i)
    (x : Vec F S4x8x4x128x128 .f32) (y : Vec F S8x4 .f32) (a : Acc F) (K : PUnit → sProp 𝕄) :
    iprop(owns (c : Thread nD τ) arg2 fullShare x ∗ owns (c : Thread nD τ) arg3 fullShare y
        ∗ owns (c : Thread nD τ) arg4 fullShare a.1 ∗ owns (c : Thread nD τ) arg5 fullShare a.2.1 ∗ owns (c : Thread nD τ) arg6 fullShare a.2.2
        ∗ (iprop(owns (c : Thread nD τ) arg2 fullShare x ∗ owns (c : Thread nD τ) arg3 fullShare (y)
            ∗ owns (c : Thread nD τ) arg4 fullShare (accStep x (accZero (F := F))).1 ∗ owns (c : Thread nD τ) arg5 fullShare (accStep x (accZero (F := F))).2.1
            ∗ owns (c : Thread nD τ) arg6 fullShare (accStep x (accZero (F := F))).2.2) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg4.eq_unread hf4; obtain rfl := harg5.eq_unread hf5; obtain rfl := harg6.eq_unread hf6
  sl_exec (disch := first | exact hf | exact hl)
  sl_step
  iapply Hk
  isplitl [H2]
  · iexists _; isplitr; · ipureintro; exact harg2.read_unread _
    iexact H2
  isplitl [H3]
  · iexists _; isplitr
    swap; · iexact H3
    ipureintro; exact hf3
  isplitl [H4]
  · iexists _; isplitr
    swap; · iexact H4
    ipureintro
    sl_unfold_words
    refine (View.read_writes_eq_canon _ _ _ (fun y => cover_head _ hz4 _ _ _ y)).trans ?_
    refine (View.canon_cons_unit_zero (S := S4x8x128x128) hz4 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]
  isplitl [H5]
  · iexists _; isplitr
    swap; · iexact H5
    ipureintro
    sl_unfold_words
    refine (View.read_writes_eq_canon _ _ _ (fun y => cover_head _ hz2 _ _ _ y)).trans ?_
    refine (View.canon_cons_unit_zero (S := S4x8) hz2 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]
  · iexists _; isplitr
    swap; · iexact H6
    ipureintro
    sl_unfold_words
    refine (View.read_writes_eq_canon _ _ _ (fun y => cover_head _ hz2 _ _ _ y)).trans ?_
    refine (View.canon_cons_unit_zero (S := S4x8) hz2 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]

set_option maxHeartbeats 4000000 in
/-- A channel tile's last depth step: the sums take the block's contribution, and the descriptor computed from the
    completed sums is stored into the output's staging buffer. -/
theorem body_last (c : Dev nD) (E : Set ℕ) (i : grid0.Coords)
    (arg2 : Memref sig .tc .vmem S4x8x4x128x128 .f32) (harg2 : arg2.IsWhole) (arg3 : Memref sig .tc .vmem S8x4 .f32) (harg3 : arg3.IsWhole)
    (arg4 : Memref sig .tc .vmem S4x8x128x128 .f32) (harg4 : arg4.IsWhole) (arg5 : Memref sig .tc .vmem S4x8 .f32) (harg5 : arg5.IsWhole)
    (arg6 : Memref sig .tc .vmem S4x8 .f32) (harg6 : arg6.IsWhole)
    (hf : ¬condFirst i) (hl : condLast i)
    (x : Vec F S4x8x4x128x128 .f32) (y : Vec F S8x4 .f32) (a : Acc F) (K : PUnit → sProp 𝕄) :
    iprop(owns (c : Thread nD τ) arg2 fullShare x ∗ owns (c : Thread nD τ) arg3 fullShare y
        ∗ owns (c : Thread nD τ) arg4 fullShare a.1 ∗ owns (c : Thread nD τ) arg5 fullShare a.2.1 ∗ owns (c : Thread nD τ) arg6 fullShare a.2.2
        ∗ (iprop(owns (c : Thread nD τ) arg2 fullShare x ∗ owns (c : Thread nD τ) arg3 fullShare (accDesc (accStep x a))
            ∗ owns (c : Thread nD τ) arg4 fullShare (accStep x a).1 ∗ owns (c : Thread nD τ) arg5 fullShare (accStep x a).2.1
            ∗ owns (c : Thread nD τ) arg6 fullShare (accStep x a).2.2) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg4.eq_unread hf4; obtain rfl := harg5.eq_unread hf5; obtain rfl := harg6.eq_unread hf6
  sl_exec (disch := first | exact hf | exact hl)
  sl_step
  iapply Hk
  isplitl [H2]
  · iexists _; isplitr; · ipureintro; exact harg2.read_unread _
    iexact H2
  isplitl [H3]
  · iexists _; isplitr
    swap; · iexact H3
    ipureintro
    sl_unfold_words
    refine (View.read_writes_eq_canon _ _ _ (fun y => cover_head _ hz2 _ _ _ y)).trans ?_
    refine (View.canon_cons_unit_zero (S := S8x4) hz2 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]
  isplitl [H4]
  · iexists _; isplitr
    swap; · iexact H4
    ipureintro
    sl_unfold_words
    refine (View.read_writes_eq_canon _ _ _ (fun y => cover_head _ hz4 _ _ _ y)).trans ?_
    refine (View.canon_cons_unit_zero (S := S4x8x128x128) hz4 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]
  isplitl [H5]
  · iexists _; isplitr
    swap; · iexact H5
    ipureintro
    sl_unfold_words
    refine (View.read_writes_eq_canon _ _ _ (fun y => cover_head _ hz2 _ _ _ y)).trans ?_
    refine (View.canon_cons_unit_zero (S := S4x8) hz2 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]
  · iexists _; isplitr
    swap; · iexact H6
    ipureintro
    sl_unfold_words
    refine (View.read_writes_eq_canon _ _ _ (fun y => cover_head _ hz2 _ _ _ y)).trans ?_
    refine (View.canon_cons_unit_zero (S := S4x8) hz2 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]

end Cert.Kernel.Frame

end
-- ==== Proof.KernelFrame.Data.lean ====
/-
  The proof data of the two pipelines and the buffer contents between @main's three items.

  Region 0 (the statistics kernel, grid 8 channel tiles × 8 depth steps, point t = 8·tile + step): its input window
  holds at point t the block of X of that tile and step; the three running sums after point t are a recursion
  over the points (`accAt0`): reset at a tile's first step, then each step's update. The invariant between points
  (`Phi0`) holds the three scratch buffers at those sums, beside the core's other scoped buffers at anything and
  its generator register. The output window's staging buffer holds the descriptor of the sums after a tile's
  last step, the only step that writes it back.
  Region 1 (the matrix product, one point): both inputs whole, the output the product.
  Between the items: the launch memory; after region 0 its output array at what the write-backs leave; after the
  host transpose; after region 1 its output array likewise.
-/
import proofs.«100511_j11888469476170_1_alg».proof.Proof.KernelFrame.State
import proofs.«100511_j11888469476170_1_alg».proof.Proof.Gen.Kernel.Launch
import proofs.«100511_j11888469476170_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block at point `t`, at its literal type. -/
abbrev xblk0 (c : Dev nD) (t : Fin cfg0.N) : Vec F S4x8x4x128x128 .f32 := iblk0 V c 0 t

/-- The running sums after the body at position `n`: a channel tile's first depth step (position ≡ 0 mod 8)
    starts from zero, every other step from what the position before left. -/
def accAt0 (c : Dev nD) : (n : ℕ) → n < cfg0.N → Acc F
  | 0, hn => accStep (xblk0 V c ⟨0, hn⟩) (accZero (F := F))
  | n + 1, hn => accStep (xblk0 V c ⟨n + 1, hn⟩) (if (n + 1) % 8 = 0 then accZero (F := F) else accAt0 c n (Nat.lt_of_succ_lt hn))

/-- The three scratch operands, whole scoped buffers of the kernel's own. -/
abbrev scM0 : Memref sig .tc .vmem S4x8x128x128 .f32 := Memref.whole cc0_scratch0
abbrev scM1 : Memref sig .tc .vmem S4x8 .f32 := Memref.whole cc0_scratch1
abbrev scM2 : Memref sig .tc .vmem S4x8 .f32 := Memref.whole cc0_scratch2

/-- The core's scoped buffers that region 0 neither stages through nor uses: region 1's staging buffers, at anything. -/
def otherScoped0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

/-- The region's invariant before position `n`: before the first point whatever the launch hands over (every scoped
    buffer no window stages at anything, the generator register); afterwards the three scratch buffers at the running
    sums the point before left, the other scoped buffers at anything, the generator register. -/
def Phi0 (c : Dev nD) : (n : ℕ) → n ≤ cfg0.N → sProp 𝕄
  | 0, _ => Pipeline.ΦA spec0 c
  | n + 1, hn => iprop(owns (c : Thread nD τ) scM0 fullShare (accAt0 V c n hn).1
      ∗ owns (c : Thread nD τ) scM1 fullShare (accAt0 V c n hn).2.1
      ∗ owns (c : Thread nD τ) scM2 fullShare (accAt0 V c n hn).2.2
      ∗ otherScoped0 c ∗ (∃ r, prngReg c r))

/-- Region 0's proof data on core `c`: the arrays as found; after the body the input's buffer at its block and the
    output's at the descriptor of the running sums (consulted only at a tile's last step, which alone stores it);
    the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accDesc (accAt0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = accDesc (accAt0 V c t.val t.isLt) := by dsimp only [dat0]

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1's proof data on core `c`: the arrays as found; after the body each input's buffer at its block and the
    output's at the product of the two; the invariant the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

end Regions

/-! ## The buffer contents between @main's items -/

variable (m : (ℓ : Loc nD τ sig) → Buf (Elt F) ℓ)

/-- Core `c`'s buffers at launch: region 0's entry (no host operation comes before it). -/
abbrev W1 : Dev nD → Valuation τ sig (Elt F) := fun c b => m ((c : Dev nD), b)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the host transpose: region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b

/-- No pipeline has a prefetched table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

end Cert.Kernel.Frame

end
-- ==== Proof.KernelFrame.Oblig0.lean ====
/-
  Region 0's body obligation. At a grid point t = 8·tile + step the statistics kernel's body finds the input
  window's buffer at the block of X of that tile and step, and the three scratch buffers at the running sums the
  point before left (at the very first point: at anything). Which of the body's three control cases the point is
  in is read off t mod 8: step 0 resets the sums before adding the block, step 7 also stores the descriptor of the
  completed sums into the output's buffer, every other step only adds. The output window is consulted by the
  pipeline only at step 7; at the other steps its buffer is handed back exactly as it was received.
-/
import proofs.«100511_j11888469476170_1_alg».proof.Proof.KernelFrame.Body0
import proofs.«100511_j11888469476170_1_alg».proof.Proof.KernelFrame.Data

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions and the output window's schedule, over the 64 grid points -/

/-- The reset branch is taken exactly at the points whose depth step is 0. -/
theorem hcondFirst : ∀ t : Fin cfg0.N, condFirst (grid0.coords t) ↔ t.val % 8 = 0 :=
  (by decide +kernel : ∀ t : Fin grid0.N, condFirst (grid0.coords t) ↔ t.val % 8 = 0)

/-- The descriptor branch is taken exactly at the points whose depth step is 7. -/
theorem hcondLast : ∀ t : Fin cfg0.N, condLast (grid0.coords t) ↔ t.val % 8 = 7 :=
  (by decide +kernel : ∀ t : Fin grid0.N, condLast (grid0.coords t) ↔ t.val % 8 = 7)

/-- The input window is live at every point. -/
theorem live0_in : ∀ t : Fin cfg0.N, cfg0.idle 0 (grid0.coords t) = false := by decide +kernel
/-- Off a tile's last step the output window is idle, -/
theorem idle0_out : ∀ t : Fin cfg0.N, ¬condLast (grid0.coords t) → cfg0.idle 1 (grid0.coords t) = true := by decide +kernel
/-- and its block is not written back there. -/
theorem noFlush0_out : ∀ t : Fin cfg0.N, ¬condLast (grid0.coords t) → (cfg0.win 1).flush t = false := by decide +kernel
/-- At a tile's last step it is live. -/
theorem live0_out : ∀ t : Fin cfg0.N, condLast (grid0.coords t) → cfg0.idle 1 (grid0.coords t) = false := by decide +kernel

variable (V : (c : Dev nD) → (b : Ref sig .tc) → Buf (Elt F) ((c : Thread nD τ).loc b))

/-! ## What the body finds in the input window -/

/-- The input window is fetched at every point and never stored into, so its current buffer holds the point's block of X. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The running sums, point by point -/

/-- At a tile's first step the sums restart from zero. -/
theorem accAt0_first (c : Dev nD) (t : Fin cfg0.N) (h0 : t.val % 8 = 0) :
    accAt0 V c t.val t.isLt = accStep (xblk0 V c t) (accZero (F := F)) := by
  obtain ⟨n, hn⟩ := t
  cases n with
  | zero => rfl
  | succ n => exact congrArg (accStep (xblk0 V c ⟨n + 1, hn⟩)) (if_pos h0)

/-- At every other step they continue from what the point before left. -/
theorem accAt0_next (c : Dev nD) (t : Fin cfg0.N) (h0 : ¬t.val % 8 = 0) :
    accAt0 V c t.val t.isLt
      = accStep (xblk0 V c t) (accAt0 V c (t.val - 1) (Nat.lt_of_le_of_lt (Nat.sub_le _ _) t.isLt)) := by
  obtain ⟨n, hn⟩ := t
  cases n with
  | zero => exact absurd (Nat.zero_mod _) h0
  | succ n => exact congrArg (accStep (xblk0 V c ⟨n + 1, hn⟩)) (if_neg h0)

/-! ## The invariant at a point's two ends -/

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scM0 fullShare (accAt0 V c n hn).1
      ∗ owns (c : Thread nD τ) scM1 fullShare (accAt0 V c n hn).2.1
      ∗ owns (c : Thread nD τ) scM2 fullShare (accAt0 V c n hn).2.2
      ∗ otherScoped0 c ∗ (∃ r, prngReg c r)) := rfl

theorem Phi0_pos (c : Dev nD) (n : ℕ) (h : n ≤ cfg0.N) (hz : n ≠ 0) :
    Phi0 V c n h = iprop(owns (c : Thread nD τ) scM0 fullShare (accAt0 V c (n - 1) (by omega)).1
      ∗ owns (c : Thread nD τ) scM1 fullShare (accAt0 V c (n - 1) (by omega)).2.1
      ∗ owns (c : Thread nD τ) scM2 fullShare (accAt0 V c (n - 1) (by omega)).2.2
      ∗ otherScoped0 c ∗ (∃ r, prngReg c r)) := by
  cases n with
  | zero => exact absurd rfl hz
  | succ n => rfl

theorem Phi0_castSucc (c : Dev nD) (t : Fin cfg0.N) :
    (dat0 V c).Φ t.castSucc = Phi0 V c t.val (Nat.le_of_lt t.isLt) := by
  dsimp only [dat0]; simp only [Fin.coe_castSucc]

/-- What the launch hands the region, spelled with the three scratch buffers as whole memrefs at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d)
          ∗ (∃ d, owns (c : Thread nD τ) scM2 fullShare d) ∗ otherScoped0 c) ∗ (∃ r, prngReg c r)) := by
  unfold Pipeline.ΦA otherScoped0; rw [scopedRest0_eq]; simp only [scM0, scM1, scM2, owns_whole]; try rfl

/-! ## The body at a generic point -/

/-- The windows' current staging memrefs at point `t`, as the pipeline passes them to the body. -/
abbrev ms0_0 (t : Fin cfg0.N) : Memref sig .tc .vmem S4x8x4x128x128 .f32 := win0_0.stage (cfg0.slots t 0)
abbrev ms0_1 (t : Fin cfg0.N) : Memref sig .tc .vmem S8x4 .f32 := win0_1.stage (cfg0.slots t 1)

/-- What the body is called with at point `t`: the invariant, nothing owed, each window's current buffer, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The depth step t mod 8 selects the control case; the invariant supplies the sums the
    case starts from (at the first point of all, whatever the scratch buffers hold, which the reset overwrites) and
    receives them back updated by the point's block; the input's buffer is returned at its block; the output's
    buffer is returned at the descriptor of the completed sums at a tile's last step and untouched elsewhere. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) t.isLt from rfl, Phi0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [live0_in t], after0_0]
  by_cases h7 : t.val % 8 = 7
  · -- a tile's last step
    have h0 : ¬t.val % 8 = 0 := by omega
    have hz : t.val ≠ 0 := by omega
    rw [show (dat0 V c).leavesExact 1 t = owns (c : Thread nD τ) (ms0_1 t) fullShare ((dat0 V c).after 1 t) from by
      unfold Dat.leavesExact; rw [live0_out t ((hcondLast t).mpr h7)], after0_1]
    rw [accAt0_next V c t h0, Phi0_castSucc V c t, Phi0_pos V c _ _ hz]
    iintro ⟨⟨HS0, HS1, HS2, Hrest, Hg⟩, Ho, ⟨%d0, H0⟩, ⟨%d1, H1⟩⟩
    iapply (body_last c Set.univ (grid0.coords t) _ _ _ _ _ _ _ _ _ _ (fun h => h0 ((hcondFirst t).mp h)) ((hcondLast t).mpr h7)
      (xblk0 V c t) _ (accAt0 V c (t.val - 1) _) _)
    isplitl [H0]; · iexact H0
    isplitl [H1]; · iexact H1
    isplitl [HS0]; · iexact HS0
    isplitl [HS1]; · iexact HS1
    isplitl [HS2]; · iexact HS2
    iintro ⟨H0, H1, HS0, HS1, HS2⟩
    isplitl [HS0 HS1 HS2 Hrest Hg]
    · isplitl [HS0]; · iexact HS0
      isplitl [HS1]; · iexact HS1
      isplitl [HS2]; · iexact HS2
      isplitl [Hrest]; · iexact Hrest
      iexact Hg
    isplitl [Ho]; · iexact Ho
    isplitl [H0]; · iexact H0
    iexact H1
  · have hnl : ¬condLast (grid0.coords t) := fun h => h7 ((hcondLast t).mp h)
    rw [Dat.leavesExact_idle (dat0 V c) 1 t (idle0_out t hnl) (noFlush0_out t hnl)]
    by_cases h0 : t.val % 8 = 0
    · -- a tile's first step
      rw [accAt0_first V c t h0]
      by_cases hz : t.val = 0
      · -- the very first point: the scratch buffers hold anything
        rw [Phi0_castSucc V c t, Phi0_zero V c _ _ hz, PhiA0_eq]
        iintro ⟨⟨⟨⟨%a0, HS0⟩, ⟨%a1, HS1⟩, ⟨%a2, HS2⟩, Hrest⟩, Hg⟩, Ho, ⟨%d0, H0⟩, ⟨%d1, H1⟩⟩
        iapply (body_first c Set.univ (grid0.coords t) _ _ _ _ _ _ _ _ _ _ ((hcondFirst t).mpr h0) hnl
          (xblk0 V c t) _ (a0, a1, a2) _)
        isplitl [H0]; · iexact H0
        isplitl [H1]; · iexact H1
        isplitl [HS0]; · iexact HS0
        isplitl [HS1]; · iexact HS1
        isplitl [HS2]; · iexact HS2
        iintro ⟨H0, H1, HS0, HS1, HS2⟩
        isplitl [HS0 HS1 HS2 Hrest Hg]
        · isplitl [HS0]; · iexact HS0
          isplitl [HS1]; · iexact HS1
          isplitl [HS2]; · iexact HS2
          isplitl [Hrest]; · iexact Hrest
          iexact Hg
        isplitl [Ho]; · iexact Ho
        isplitl [H0]; · iexact H0
        iexists _; iexact H1
      · -- the first step of a later tile: the scratch buffers hold the previous tile's completed sums
        rw [Phi0_castSucc V c t, Phi0_pos V c _ _ hz]
        iintro ⟨⟨HS0, HS1, HS2, Hrest, Hg⟩, Ho, ⟨%d0, H0⟩, ⟨%d1, H1⟩⟩
        iapply (body_first c Set.univ (grid0.coords t) _ _ _ _ _ _ _ _ _ _ ((hcondFirst t).mpr h0) hnl
          (xblk0 V c t) _ (accAt0 V c (t.val - 1) _) _)
        isplitl [H0]; · iexact H0
        isplitl [H1]; · iexact H1
        isplitl [HS0]; · iexact HS0
        isplitl [HS1]; · iexact HS1
        isplitl [HS2]; · iexact HS2
        iintro ⟨H0, H1, HS0, HS1, HS2⟩
        isplitl [HS0 HS1 HS2 Hrest Hg]
        · isplitl [HS0]; · iexact HS0
          isplitl [HS1]; · iexact HS1
          isplitl [HS2]; · iexact HS2
          isplitl [Hrest]; · iexact Hrest
          iexact Hg
        isplitl [Ho]; · iexact Ho
        isplitl [H0]; · iexact H0
        iexists _; iexact H1
    · -- a step strictly inside a tile
      have hz : t.val ≠ 0 := fun h => h0 (by rw [h])
      rw [accAt0_next V c t h0, Phi0_castSucc V c t, Phi0_pos V c _ _ hz]
      iintro ⟨⟨HS0, HS1, HS2, Hrest, Hg⟩, Ho, ⟨%d0, H0⟩, ⟨%d1, H1⟩⟩
      iapply (body_mid c Set.univ (grid0.coords t) _ _ _ _ _ _ _ _ _ _ (fun h => h0 ((hcondFirst t).mp h)) hnl
        (xblk0 V c t) _ (accAt0 V c (t.val - 1) _) _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hrest Hg]
      · isplitl [HS0]; · iexact HS0
        isplitl [HS1]; · iexact HS1
        isplitl [HS2]; · iexact HS2
        isplitl [Hrest]; · iexact Hrest
        iexact Hg
      isplitl [Ho]; · iexact Ho
      isplitl [H0]; · iexact H0
      iexists _; iexact H1

/-! ## The three facts the region's run takes -/

theorem hin0 (c : Dev nD) : (Pipeline.ΦA spec0 c : sProp 𝕄) ⊢ (dat0 (F := F) V c).Φ 0 := by
  rw [show (dat0 V c).Φ 0 = Phi0 V c 0 (Nat.zero_le _) from rfl, Phi0_zero V c 0 _ rfl]

/-- After any point the invariant gives the launch's form back: what the scratch buffers hold is forgotten. -/
theorem Phi0_out (c : Dev nD) (t : Fin (cfg0.N + 1)) (ht : t.val ≠ 0) :
    (dat0 (F := F) V c).Φ t ⊢ (Pipeline.ΦA spec0 c : sProp 𝕄) := by
  rw [show (dat0 V c).Φ t = Phi0 V c t.val (Nat.le_of_lt_succ t.isLt) from rfl, Phi0_pos V c _ _ ht, PhiA0_eq]
  iintro ⟨HS0, HS1, HS2, Hrest, Hg⟩
  isplitr [Hg]
  · isplitl [HS0]; · iexists _; iexact HS0
    isplitl [HS1]; · iexists _; iexact HS1
    isplitl [HS2]; · iexists _; iexact HS2
    iexact Hrest
  iexact Hg

theorem hout0 (c : Dev nD) : (dat0 (F := F) V c).Φ (Fin.last cfg0.N) ⊢ (Pipeline.ΦA spec0 c : sProp 𝕄) :=
  Phi0_out V c _ (by rw [Fin.val_last]; have : cfg0.N = 64 := N_0; omega)

theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KernelFrame.Oblig1.lean ====
/-
  The matrix-product kernel's body at its single grid point. Each of its three windows is a whole array staged in
  one whole buffer. The body reads the left factor (4 by 64) and the right factor (64 by 256) in full, forms their
  product, reads the output's buffer (the value read is not used) and then overwrites that buffer in full with the
  product. So from the two factors' blocks in their buffers and anything in the output's, the body leaves the
  factors' buffers as found and the output's at the product of the two blocks: what the region's proof data say.
-/
import proofs.«100511_j11888469476170_1_alg».proof.Proof.KernelFrame.Data
import proofs.«100511_j11888469476170_1_alg».proof.Proof.KernelFrame.Body0
import Idealize.ShloMosaic.Lib.Pipeline.Value

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The kernel on whole buffers: with the left factor's buffer reading x0, the right factor's reading x1 and the
    output's holding anything, it runs to a state where the factors' buffers read as before and the output's reads
    the product of x0 and x1. The final store covers the whole output buffer, so nothing of its earlier contents
    survives, and each load through a whole buffer returns exactly what the buffer reads. -/
theorem sound_kernel1 (c : Dev nD) (E : Set ℕ) (i : grid1.Coords)
    (arg1 : Memref sig .tc .vmem S4x64 .f32) (harg1 : arg1.IsWhole)
    (arg2 : Memref sig .tc .vmem S64x256 .f32) (harg2 : arg2.IsWhole)
    (arg3 : Memref sig .tc .vmem S4x256 .f32) (harg3 : arg3.IsWhole)
    (x0 : Vec F S4x64 .f32) (x1 : Vec F S64x256 .f32) (K : PUnit → sProp 𝕄) :
    iprop(owns (c : Thread nD τ) arg1 fullShare x0 ∗ owns (c : Thread nD τ) arg2 fullShare x1
        ∗ (∃ y, owns (c : Thread nD τ) arg3 fullShare y)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f1, %hf1, H1⟩, ⟨%f2, %hf2, H2⟩, ⟨%y, %f3, -, H3⟩, Hk⟩
  obtain rfl := harg1.eq_unread hf1; obtain rfl := harg2.eq_unread hf2
  sl_exec
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H3
  ipureintro
  sl_unfold_words
  refine (View.read_writes_eq_canon _ _ _ (fun y => cover_head _ hz2 _ _ _ y)).trans ?_
  refine (View.canon_cons_unit_zero (S := S4x256) hz2 _ _ _).trans ?_
  simp only [View.readAt_eq_ld, harg1.read_unread, harg2.read_unread,
    View.ld_unit_zero (S := S4x64) hz2, View.ld_unit_zero (S := S64x256) hz2]

section Point

variable (V : (c : Dev nD) → (b : Ref sig .tc) → Buf (Elt F) ((c : Thread nD τ).loc b))

/-- The left factor's buffer, when the body is handed it, holds the factor's block: the window is fetched at the point. -/
theorem before1_0 (c : Dev nD) (t : Fin cfg1.N) (d) : (dat1 V c).before 0 t d = iblk1 V c 0 t :=
  ((dat1 V c).before_fetched 0 t (fetch1_0 t) d).trans
    (by unfold Dat.fetched Dat.blockOf iblk1; rw [A_eq1]; try rfl)

/-- Likewise the right factor's. -/
theorem before1_1 (c : Dev nD) (t : Fin cfg1.N) (d) : (dat1 V c).before 1 t d = iblk1 V c 1 t :=
  ((dat1 V c).before_fetched 1 t (fetch1_1 t) d).trans
    (by unfold Dat.fetched Dat.blockOf iblk1; rw [A_eq1]; try rfl)

/-- What the body is entered with at the point: the region's invariant, the core's debt, and each window's buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it must return: the same invariant and debt, each buffer at what the proof data name. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at the point: the factors' buffers hold their blocks, so the kernel's triple applies; the invariant
    and the debt do not depend on the point and pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Point

end Cert.Kernel.Frame

end
-- ==== Proof.KernelFrame.Run.lean ====
/-
  The run of the whole program on a core: the statistics kernel's pipeline over its 64 grid points, the host
  transpose, the matrix-product kernel's pipeline at its one point. Between two of these three items the core holds
  every buffer that outlives a kernel at named contents: at launch the memory it was started from; after the first
  pipeline the same with the descriptor array at what the write-backs left; after the transpose; after the second
  pipeline the same with the result array at what its write-back left. Each pipeline takes its arrays out of those
  buffers on entry and puts them back on exit; the first also takes the core's scratch buffers in at anything and
  tracks the three running sums in them from point to point. Read at the end, the two arguments hold what they were
  launched with (no item writes them) and the result array holds what the second pipeline left.
-/
import proofs.«100511_j11888469476170_1_alg».proof.Proof.KernelFrame.Oblig0
import proofs.«100511_j11888469476170_1_alg».proof.Proof.KernelFrame.Oblig1

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

namespace Run

/-! ## The contents between the items, read at one buffer

Each of the four valuations differs from the one before it at few buffers: a region changes only its windows'
arrays, the transpose only its result. So a buffer's contents at the end are found by walking back item by
item, at each asking whether that item touches the buffer. -/

/-- After the statistics region each of its two arrays holds what the region's write-backs leave there, -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
/-- and a buffer that is neither of them what it held at launch. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

/-- The two facts in the shape the exit of the region asks for them: the arrays' final contents are the new
    valuation's at the arrays, and off the arrays the new valuation is the old one. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- The transpose writes `main_v1` and nothing else: every other buffer is after it what it was before. -/
theorem W3_of_ne (c : Dev nD) (b : Ref sig .tc) (hb : b ≠ main_v1) :
    W3 m c (Proc.devRef .tc b) = W2 m c (Proc.devRef .tc b) :=
  StableHlo.after_of_forall_not_mem (b := Proc.devRef .tc b) _ _ fun op hop => by
    rw [List.mem_singleton.mp hop, StableHlo.unary_writes, Finset.mem_singleton]
    exact StableHlo.devRef_ne_of_ne hb

/-- After the product region each of its three arrays holds what the region leaves there, -/
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
/-- and any other buffer what it held when the region was entered. -/
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

end Run

/-! ## What the last valuation holds at the arguments and at the result -/

/-- `X` ends as launched. The product region does not have it among its arrays and the transpose does not write
    it; the statistics region has it as an input window, whose array is at every point what it was at entry;
    and no item precedes that region. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := Run.W4_of_ne m c main_arg0 (by decide)
    _ = W2 m c (Proc.devRef .tc main_arg0) := Run.W3_of_ne m c main_arg0 (by decide)
    _ = W1 m c (Proc.devRef .tc main_arg0) :=
        (Run.W2_arr m c 0).trans (((dat0 (V1 m) c).arrAt_in 0 rfl _).trans (A_eq0 (V1 m) c 0))
    _ = m ((c : Thread nD τ).loc main_arg0) := rfl

/-- `W` ends as launched. It is an input window of the product region, so that region leaves it as entered; the
    transpose does not write it; the statistics region does not have it among its arrays. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) :=
        (Run.W4_arr m c 1).trans (((dat1 (V3 m) c).arrAt_in 1 rfl _).trans (A_eq1 (V3 m) c 1))
    _ = W2 m c (Proc.devRef .tc main_arg1) := Run.W3_of_ne m c main_arg1 (by decide)
    _ = W1 m c (Proc.devRef .tc main_arg1) := Run.W2_of_ne m c main_arg1 (by decide)
    _ = m ((c : Thread nD τ).loc main_arg1) := rfl

/-- The result is the product region's output array: it ends at what that region's one write-back leaves. -/
theorem W4_main_v2 (c : Dev nD) : W4 m c (Proc.devRef .tc main_v2) = (dat1 (V3 m) c).arrAt 2 cfg1.N :=
  Run.W4_arr m c 2

namespace Run

/-! ## What a core holds between the items -/

/-- No body has a variant to decrease, -/
abbrev 𝒱₀ : Variants := Variants.none
/-- no core owes another anything, so no level is assigned. -/
abbrev L : GSem nD τ sig → Finset Unit := fun _ => ∅
abbrev lv : GSem nD τ sig → Unit → ℕ := fun _ _ => 0

/-- Beside its unscoped buffers a core carries from item to item its generator register, at a state nobody
    names (a region takes it into its invariant and returns it), and the fact that it owes nothing. -/
abbrev R (c : Dev nD) : sProp 𝕄 :=
  iprop((∃ r, prngReg c r) ∗ ∃ W, owes (c : Thread nD τ) (0 : CellTallies nD τ sig Unit) W)

/-- Between two items: every unscoped buffer of the core at the valuation `W c`, and `R c`. -/
abbrev T (W : Dev nD → Valuation τ sig (Elt F)) (c : Dev nD) : sProp 𝕄 :=
  iprop(StableHlo.held (c : Thread nD τ) (Pipeline.ucRefs τ sig) (W c) ∗ R (F := F) c)

/-- At the return the owing is stated apart: the buffers at the last valuation and the register. -/
abbrev Tₙ (c : Dev nD) : sProp 𝕄 :=
  iprop(StableHlo.held (c : Thread nD τ) (Pipeline.ucRefs τ sig) (W4 m c) ∗ ∃ r, prngReg c r)

/-- The transpose allocates nothing. -/
theorem hostOps1_fresh : (hostOps1 : List (HloOp τ sig (Elt F))).Forall fun op => op.fresh = ∅ := by
  simp only [List.Forall]; repeat' constructor

/-- An unscoped reference of the TensorCore is one of those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The host stretch as an item: over the unscoped buffers at `W`, it leaves them at `W` rewritten by the
    stretch's operations, `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The two regions as items -/

set_option backward.isDefEq.respectTransparency.types false in
/-- The statistics region, entered from the launch contents and left at `W2`. At entry its two arrays are taken
    out of the unscoped buffers, the rest of them going round the region; the generator register goes into the
    invariant. The invariant is the class's only at the two ends: what the region is handed makes the invariant
    before the first point, and the invariant after the last point — the running sums of the last tile — gives
    the scoped buffers back at contents nobody names. At exit the arrays, at what the write-backs left, rejoin
    the rest as the unscoped buffers at `W2`. The kernel has no semaphore of its own and owes nothing. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre := T (W1 m)
  post := T (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hbufs, Hreg, Howes⟩, -, -⟩
    ihave Hsp := hsplit $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hrest
  hin c := by
    rw [show (pdats m 0 c).Φ 0 = (dat0 (V1 m) c).Φ 0 from rfl]
    refine .trans ?_ (hin0 (V1 m) c)
    unfold Pipeline.ΦA
    iintro ⟨Hreg, -, Hsc⟩
    isplitl [Hsc]; · iexact Hsc
    iexact Hreg
  hout c := by
    rw [Pipeline.ownSems0_none, show (pdats m 0 c).Φ (Fin.last _) = (dat0 (V1 m) c).Φ (Fin.last cfg0.N) from rfl]
    refine (hout0 (V1 m) c).trans ?_
    unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- The product region, entered from the contents after the transpose and left at `W4`, the last valuation. Its
    invariant is the class's at its one point: the scoped buffers it does not stage, at anything, and the
    generator register. Entry and exit sort the three arrays out of the unscoped buffers and back as for the
    statistics region; the exit states the owing apart, as the return wants it. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre := T (W3 m)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hbufs, Hreg, Howes⟩, -, -⟩
    ihave Hsp := hsplit $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hrest
  hin c := by
    rw [show (pdats m 1 c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]; unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Harr, Howes, Hreg, Hrest⟩
    imodintro
    isplitl [Harr Hrest Hreg]
    · isplitl [Harr Hrest]
      · iapply hjoin; isplitl [Harr] <;> iassumption
      iexact Hreg
    unfold Pipeline.Dat.owesAt Pipeline.owesWithin
    icases Howes with ⟨%W, -, Howes⟩; iexists W; iexact Howes

/-! ## @main as its three items -/

/-- The statistics region, the transpose from what that region left, the product region. -/
abbrev segs : List (Pipeline.Seg (pcfgs (F := F)) adm (pdats m) () defs₀ 𝒱₀ L lv) :=
  [ .region (reg0 m),
    .host (hseg hostOps1 hostOps1_sub hostOps1_fresh (W2 m)),
    .region (reg1 m) ]

/-- @main is the run of those three: it is the chain of its three items, and the run of the list unfolds to
    the same chain. -/
theorem main_run (c : Dev nD) : main (F := F) c = Pipeline.Seg.run (segs m) := (main_chain c).trans (by chain_rfl)

end Run

/-! ## The launch -/

set_option backward.isDefEq.respectTransparency.types false in
/-- From any launch memory with zero counters, every weakly fair execution of @main terminates, and in every
    final state each unscoped buffer of each core holds the last valuation's contents. The launch deals each
    core its unscoped buffers at the launch memory, its generator register and an empty debt: the first thread
    state. The three items chain because each is entered from exactly what the one before it left. At the return
    the buffers held at the last valuation, read against the final state, say what its memory holds. -/
theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ Run.𝒱₀ Run.L Run.lv m ρ main (Run.segs m)
    (fun c Q => by rw [Run.main_run m c])
    (by simp only [Run.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Run.T (W1 m)) (Tₙ := Run.Tₙ m)
    (hch := ⟨fun _ => .rfl, fun _ => .rfl, fun _ => .rfl, fun _ => .rfl⟩)
    (hinit := by
      refine Pipeline.initEach Run.L Run.lv fun c => ?_
      rw [show unscopedBufs c (fun b => m ((c : Thread nD τ).loc b)) = StableHlo.held (c : Thread nD τ) (Pipeline.ucRefs τ sig) (W1 m c)
        from Pipeline.unscopedBufs_held c (W1 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W4 m c b)
    (hfin := fun c s' => by
      iintro ⟨⟨Hbufs, -⟩, HSI⟩
      unfold StableHlo.held
      imodintro
      iapply (pointsTo_read_all (Pipeline.ucRefs τ sig) (fun b => (((c : Thread nD τ)).1, b)) (W4 m c) s')
      isplitl [Hbufs] <;> iassumption)
    (hQ := fun s h => h)

/-- The frame: both arguments end as launched. They are unscoped, so the run says what they hold at the end, and
    the last valuation holds the launch contents at each. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (Run.mem_uc main_arg0 (by decide))).trans (W4_main_arg0 m c),
       (h c _ (Run.mem_uc main_arg1 (by decide))).trans (W4_main_arg1 m c)⟩)
    (run_main m ρ)

/-- The run with the result named: the result array ends at what the product region's write-back leaves, and
    both arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v2) = (dat1 (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (Run.mem_uc main_v2 (by decide))).trans (W4_main_v2 m c),
       (h c _ (Run.mem_uc main_arg0 (by decide))).trans (W4_main_arg0 m c),
       (h c _ (Run.mem_uc main_arg1 (by decide))).trans (W4_main_arg1 m c)⟩)
    (run_main m ρ)

end Cert.Kernel.Frame

end
-- ==== Proof.KernelIdealFrame.State.lean ====
/-
  The statistics kernel keeps three running sums between grid points: per (n, c, h, w) the sum of the
  input over the depth slices seen so far, per (n, c) the sum of the input over depth and the plane, and
  per (n, c) the sum of its squares. This module names that state, one point's update of it from the
  point's input block, the state a channel tile starts from (all zero), and the descriptor the last depth
  step of a channel tile computes from the state: the mean over the reflect-padded plane of the
  depth-mean of the normalized input, transposed to (channel, batch).
-/
import proofs.«100511_j11888469476170_1_alg».proof.Proof.Gen.KernelIdeal.Skeleton

noncomputable section

namespace Cert.KernelIdeal.Frame

open Idealize.ShloMosaic Cert.KernelIdeal Cert.KernelIdeal.Gen

variable {F : FTy → Type} [FloatOps F]

/-- The running sums: over depth per plane position, over everything, and of squares over everything. -/
abbrev Acc (F : FTy → Type) [FloatOps F] : Type :=
  Vec F S4x8x128x128 .f32 × Vec F S4x8 .f32 × Vec F S4x8 .f32

/-- What a channel tile's first depth step resets the sums to: zero everywhere. -/
def accZero : Acc F := (k0_pay12 (F := F), k0_pay13 (F := F), k0_pay14 (F := F))

/-- One depth step: each running sum plus the block's contribution (the block summed over its four depth
    slices; that summed over the plane; the block's squares summed over everything). -/
def accStep (x : Vec F S4x8x4x128x128 .f32) (a : Acc F) : Acc F :=
  (k0_pay16 x a.1, k0_pay17 x a.2.1, k0_pay18 x a.2.2)

/-- The descriptor block a channel tile's last depth step stores, from the completed sums. -/
def accDesc (a : Acc F) : Vec F S8x4 .f32 :=
  k0_pay1 (k0_pay3 a.2.1 a.2.2 a.1) (k0_pay4 a.2.1 a.2.2 a.1) (k0_pay5 a.2.1 a.2.2 a.1) (k0_pay6 a.2.1 a.2.2 a.1)
    (k0_pay7 a.2.1 a.2.2 a.1) (k0_pay8 a.2.1 a.2.2 a.1) (k0_pay9 a.2.1 a.2.2 a.1) (k0_pay10 a.2.1 a.2.2 a.1)
    (k0_pay11 a.2.1 a.2.2 a.1)

end Cert.KernelIdeal.Frame

end
-- ==== Proof.KernelIdealFrame.Body0.lean ====
/-
  The statistics kernel's body at one grid point, in its three control cases, as separation-logic triples over
  whole staging and scratch buffers: from the input block `x`, the output's staging buffer at `y` and the three
  running sums at `a`, the body runs to the sums updated by the block (`accStep`) — from zero at a channel tile's
  first depth step — and, at the tile's last depth step, the output's buffer at the descriptor of the completed
  sums (`accDesc`); elsewhere the output's buffer is untouched. Every store of the body writes a whole buffer, so
  what a buffer holds afterwards is the last store's value, and a load after a store reads that value.
-/
import proofs.«100511_j11888469476170_1_alg».proof.Proof.KernelIdealFrame.State
import proofs.«100511_j11888469476170_1_alg».proof.Proof.Gen.KernelIdeal.Launch
import proofs.«100511_j11888469476170_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch of the body: taken at a channel tile's first depth step (depth coordinate 0). -/
abbrev condFirst (i : grid0.Coords) : Prop := (Scalar.cmpi .ne (Scalar.extui (Scalar.cmpi .eq (BitVec.ofNat 32 (i 1).val) 0#32)) 0#32) = 1#1
/-- The second branch: taken at its last depth step (depth coordinate 7). -/
abbrev condLast (i : grid0.Coords) : Prop := k0_cond2 i = 1#1

theorem hz2 : (![0, 0] : Fin 2 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- A store through the whole buffer, the last of a list of stores, covers every index. -/
theorem cover_head {Val : EltTy → Type} {S : Shape} {e : EltTy} (off : Fin S.rank → Nat) (h : off = fun _ => 0)
    (inb : ∀ a, off a + S.size a ≤ S.size a) (w : S.Idx → Val e) (L : List (View.Piece Val S e)) (y : S.Idx) :
    ∃ pc ∈ ((⟨Rect.unit off S.size inb, w⟩ : View.Piece Val S e) :: L), y ∈ pc.1.set :=
  ⟨_, List.mem_cons_self, View.mem_set_unit_zero h inb y⟩

set_option maxHeartbeats 4000000 in
/-- A depth step that is neither the first nor the last of its channel tile: the three running sums each take the
    block's contribution; the input block and the output's staging buffer are left as found. -/
theorem body_mid (c : Dev nD) (E : Set ℕ) (i : grid0.Coords)
    (arg2 : Memref sig .tc .vmem S4x8x4x128x128 .f32) (harg2 : arg2.IsWhole) (arg3 : Memref sig .tc .vmem S8x4 .f32) (harg3 : arg3.IsWhole)
    (arg4 : Memref sig .tc .vmem S4x8x128x128 .f32) (harg4 : arg4.IsWhole) (arg5 : Memref sig .tc .vmem S4x8 .f32) (harg5 : arg5.IsWhole)
    (arg6 : Memref sig .tc .vmem S4x8 .f32) (harg6 : arg6.IsWhole)
    (hf : ¬condFirst i) (hl : ¬condLast i)
    (x : Vec F S4x8x4x128x128 .f32) (y : Vec F S8x4 .f32) (a : Acc F) (K : PUnit → sProp 𝕄) :
    iprop(owns (c : Thread nD τ) arg2 fullShare x ∗ owns (c : Thread nD τ) arg3 fullShare y
        ∗ owns (c : Thread nD τ) arg4 fullShare a.1 ∗ owns (c : Thread nD τ) arg5 fullShare a.2.1 ∗ owns (c : Thread nD τ) arg6 fullShare a.2.2
        ∗ (iprop(owns (c : Thread nD τ) arg2 fullShare x ∗ owns (c : Thread nD τ) arg3 fullShare (y)
            ∗ owns (c : Thread nD τ) arg4 fullShare (accStep x a).1 ∗ owns (c : Thread nD τ) arg5 fullShare (accStep x a).2.1
            ∗ owns (c : Thread nD τ) arg6 fullShare (accStep x a).2.2) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg4.eq_unread hf4; obtain rfl := harg5.eq_unread hf5; obtain rfl := harg6.eq_unread hf6
  sl_exec (disch := first | exact hf | exact hl)
  sl_step
  iapply Hk
  isplitl [H2]
  · iexists _; isplitr; · ipureintro; exact harg2.read_unread _
    iexact H2
  isplitl [H3]
  · iexists _; isplitr
    swap; · iexact H3
    ipureintro; exact hf3
  isplitl [H4]
  · iexists _; isplitr
    swap; · iexact H4
    ipureintro
    sl_unfold_words
    refine (View.read_writes_eq_canon _ _ _ (fun y => cover_head _ hz4 _ _ _ y)).trans ?_
    refine (View.canon_cons_unit_zero (S := S4x8x128x128) hz4 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]
  isplitl [H5]
  · iexists _; isplitr
    swap; · iexact H5
    ipureintro
    sl_unfold_words
    refine (View.read_writes_eq_canon _ _ _ (fun y => cover_head _ hz2 _ _ _ y)).trans ?_
    refine (View.canon_cons_unit_zero (S := S4x8) hz2 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]
  · iexists _; isplitr
    swap; · iexact H6
    ipureintro
    sl_unfold_words
    refine (View.read_writes_eq_canon _ _ _ (fun y => cover_head _ hz2 _ _ _ y)).trans ?_
    refine (View.canon_cons_unit_zero (S := S4x8) hz2 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]

set_option maxHeartbeats 4000000 in
/-- A channel tile's first depth step: whatever the sums held, they are reset to zero and then take the block's
    contribution; the input block and the output's staging buffer are left as found. -/
theorem body_first (c : Dev nD) (E : Set ℕ) (i : grid0.Coords)
    (arg2 : Memref sig .tc .vmem S4x8x4x128x128 .f32) (harg2 : arg2.IsWhole) (arg3 : Memref sig .tc .vmem S8x4 .f32) (harg3 : arg3.IsWhole)
    (arg4 : Memref sig .tc .vmem S4x8x128x128 .f32) (harg4 : arg4.IsWhole) (arg5 : Memref sig .tc .vmem S4x8 .f32) (harg5 : arg5.IsWhole)
    (arg6 : Memref sig .tc .vmem S4x8 .f32) (harg6 : arg6.IsWhole)
    (hf : condFirst i) (hl : ¬condLast i)
    (x : Vec F S4x8x4x128x128 .f32) (y : Vec F S8x4 .f32) (a : Acc F) (K : PUnit → sProp 𝕄) :
    iprop(owns (c : Thread nD τ) arg2 fullShare x ∗ owns (c : Thread nD τ) arg3 fullShare y
        ∗ owns (c : Thread nD τ) arg4 fullShare a.1 ∗ owns (c : Thread nD τ) arg5 fullShare a.2.1 ∗ owns (c : Thread nD τ) arg6 fullShare a.2.2
        ∗ (iprop(owns (c : Thread nD τ) arg2 fullShare x ∗ owns (c : Thread nD τ) arg3 fullShare (y)
            ∗ owns (c : Thread nD τ) arg4 fullShare (accStep x (accZero (F := F))).1 ∗ owns (c : Thread nD τ) arg5 fullShare (accStep x (accZero (F := F))).2.1
            ∗ owns (c : Thread nD τ) arg6 fullShare (accStep x (accZero (F := F))).2.2) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg4.eq_unread hf4; obtain rfl := harg5.eq_unread hf5; obtain rfl := harg6.eq_unread hf6
  sl_exec (disch := first | exact hf | exact hl)
  sl_step
  iapply Hk
  isplitl [H2]
  · iexists _; isplitr; · ipureintro; exact harg2.read_unread _
    iexact H2
  isplitl [H3]
  · iexists _; isplitr
    swap; · iexact H3
    ipureintro; exact hf3
  isplitl [H4]
  · iexists _; isplitr
    swap; · iexact H4
    ipureintro
    sl_unfold_words
    refine (View.read_writes_eq_canon _ _ _ (fun y => cover_head _ hz4 _ _ _ y)).trans ?_
    refine (View.canon_cons_unit_zero (S := S4x8x128x128) hz4 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]
  isplitl [H5]
  · iexists _; isplitr
    swap; · iexact H5
    ipureintro
    sl_unfold_words
    refine (View.read_writes_eq_canon _ _ _ (fun y => cover_head _ hz2 _ _ _ y)).trans ?_
    refine (View.canon_cons_unit_zero (S := S4x8) hz2 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]
  · iexists _; isplitr
    swap; · iexact H6
    ipureintro
    sl_unfold_words
    refine (View.read_writes_eq_canon _ _ _ (fun y => cover_head _ hz2 _ _ _ y)).trans ?_
    refine (View.canon_cons_unit_zero (S := S4x8) hz2 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]

set_option maxHeartbeats 4000000 in
/-- A channel tile's last depth step: the sums take the block's contribution, and the descriptor computed from the
    completed sums is stored into the output's staging buffer. -/
theorem body_last (c : Dev nD) (E : Set ℕ) (i : grid0.Coords)
    (arg2 : Memref sig .tc .vmem S4x8x4x128x128 .f32) (harg2 : arg2.IsWhole) (arg3 : Memref sig .tc .vmem S8x4 .f32) (harg3 : arg3.IsWhole)
    (arg4 : Memref sig .tc .vmem S4x8x128x128 .f32) (harg4 : arg4.IsWhole) (arg5 : Memref sig .tc .vmem S4x8 .f32) (harg5 : arg5.IsWhole)
    (arg6 : Memref sig .tc .vmem S4x8 .f32) (harg6 : arg6.IsWhole)
    (hf : ¬condFirst i) (hl : condLast i)
    (x : Vec F S4x8x4x128x128 .f32) (y : Vec F S8x4 .f32) (a : Acc F) (K : PUnit → sProp 𝕄) :
    iprop(owns (c : Thread nD τ) arg2 fullShare x ∗ owns (c : Thread nD τ) arg3 fullShare y
        ∗ owns (c : Thread nD τ) arg4 fullShare a.1 ∗ owns (c : Thread nD τ) arg5 fullShare a.2.1 ∗ owns (c : Thread nD τ) arg6 fullShare a.2.2
        ∗ (iprop(owns (c : Thread nD τ) arg2 fullShare x ∗ owns (c : Thread nD τ) arg3 fullShare (accDesc (accStep x a))
            ∗ owns (c : Thread nD τ) arg4 fullShare (accStep x a).1 ∗ owns (c : Thread nD τ) arg5 fullShare (accStep x a).2.1
            ∗ owns (c : Thread nD τ) arg6 fullShare (accStep x a).2.2) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg4.eq_unread hf4; obtain rfl := harg5.eq_unread hf5; obtain rfl := harg6.eq_unread hf6
  sl_exec (disch := first | exact hf | exact hl)
  sl_step
  iapply Hk
  isplitl [H2]
  · iexists _; isplitr; · ipureintro; exact harg2.read_unread _
    iexact H2
  isplitl [H3]
  · iexists _; isplitr
    swap; · iexact H3
    ipureintro
    sl_unfold_words
    refine (View.read_writes_eq_canon _ _ _ (fun y => cover_head _ hz2 _ _ _ y)).trans ?_
    refine (View.canon_cons_unit_zero (S := S8x4) hz2 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]
  isplitl [H4]
  · iexists _; isplitr
    swap; · iexact H4
    ipureintro
    sl_unfold_words
    refine (View.read_writes_eq_canon _ _ _ (fun y => cover_head _ hz4 _ _ _ y)).trans ?_
    refine (View.canon_cons_unit_zero (S := S4x8x128x128) hz4 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]
  isplitl [H5]
  · iexists _; isplitr
    swap; · iexact H5
    ipureintro
    sl_unfold_words
    refine (View.read_writes_eq_canon _ _ _ (fun y => cover_head _ hz2 _ _ _ y)).trans ?_
    refine (View.canon_cons_unit_zero (S := S4x8) hz2 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]
  · iexists _; isplitr
    swap; · iexact H6
    ipureintro
    sl_unfold_words
    refine (View.read_writes_eq_canon _ _ _ (fun y => cover_head _ hz2 _ _ _ y)).trans ?_
    refine (View.canon_cons_unit_zero (S := S4x8) hz2 _ _ _).trans ?_
    simp only [View.readAt_eq_ld, harg2.read_unread, harg4.read_unread, harg5.read_unread, harg6.read_unread,
      View.ld_unit_zero (S := S4x8x4x128x128) hz5, View.ld_unit_zero (S := S4x8x128x128) hz4, View.ld_unit_zero (S := S4x8) hz2,
      View.readCov_unit_zero (S := S4x8x128x128) _ hz4, View.readCov_unit_zero (S := S4x8) _ hz2, accStep, accZero, accDesc]

end Cert.KernelIdeal.Frame

end
-- ==== Proof.KernelIdealFrame.Data.lean ====
/-
  The proof data of the two pipelines and the buffer contents between @main's three items.

  Region 0 (the statistics kernel, grid 8 channel tiles × 8 depth steps, point t = 8·tile + step): its input window
  holds at point t the block of X of that tile and step; the three running sums after point t are a recursion
  over the points (`accAt0`): reset at a tile's first step, then each step's update. The invariant between points
  (`Phi0`) holds the three scratch buffers at those sums, beside the core's other scoped buffers at anything and
  its generator register. The output window's staging buffer holds the descriptor of the sums after a tile's
  last step, the only step that writes it back.
  Region 1 (the matrix product, one point): both inputs whole, the output the product.
  Between the items: the launch memory; after region 0 its output array at what the write-backs leave; after the
  host transpose; after region 1 its output array likewise.
-/
import proofs.«100511_j11888469476170_1_alg».proof.Proof.KernelIdealFrame.State
import proofs.«100511_j11888469476170_1_alg».proof.Proof.Gen.KernelIdeal.Launch
import proofs.«100511_j11888469476170_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block at point `t`, at its literal type. -/
abbrev xblk0 (c : Dev nD) (t : Fin cfg0.N) : Vec F S4x8x4x128x128 .f32 := iblk0 V c 0 t

/-- The running sums after the body at position `n`: a channel tile's first depth step (position ≡ 0 mod 8)
    starts from zero, every other step from what the position before left. -/
def accAt0 (c : Dev nD) : (n : ℕ) → n < cfg0.N → Acc F
  | 0, hn => accStep (xblk0 V c ⟨0, hn⟩) (accZero (F := F))
  | n + 1, hn => accStep (xblk0 V c ⟨n + 1, hn⟩) (if (n + 1) % 8 = 0 then accZero (F := F) else accAt0 c n (Nat.lt_of_succ_lt hn))

/-- The three scratch operands, whole scoped buffers of the kernel's own. -/
abbrev scM0 : Memref sig .tc .vmem S4x8x128x128 .f32 := Memref.whole cc0_scratch0
abbrev scM1 : Memref sig .tc .vmem S4x8 .f32 := Memref.whole cc0_scratch1
abbrev scM2 : Memref sig .tc .vmem S4x8 .f32 := Memref.whole cc0_scratch2

/-- The core's scoped buffers that region 0 neither stages through nor uses: region 1's staging buffers, at anything. -/
def otherScoped0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

/-- The region's invariant before position `n`: before the first point whatever the launch hands over (every scoped
    buffer no window stages at anything, the generator register); afterwards the three scratch buffers at the running
    sums the point before left, the other scoped buffers at anything, the generator register. -/
def Phi0 (c : Dev nD) : (n : ℕ) → n ≤ cfg0.N → sProp 𝕄
  | 0, _ => Pipeline.ΦA spec0 c
  | n + 1, hn => iprop(owns (c : Thread nD τ) scM0 fullShare (accAt0 V c n hn).1
      ∗ owns (c : Thread nD τ) scM1 fullShare (accAt0 V c n hn).2.1
      ∗ owns (c : Thread nD τ) scM2 fullShare (accAt0 V c n hn).2.2
      ∗ otherScoped0 c ∗ (∃ r, prngReg c r))

/-- Region 0's proof data on core `c`: the arrays as found; after the body the input's buffer at its block and the
    output's at the descriptor of the running sums (consulted only at a tile's last step, which alone stores it);
    the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accDesc (accAt0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = accDesc (accAt0 V c t.val t.isLt) := by dsimp only [dat0]

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1's proof data on core `c`: the arrays as found; after the body each input's buffer at its block and the
    output's at the product of the two; the invariant the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

end Regions

/-! ## The buffer contents between @main's items -/

variable (m : (ℓ : Loc nD τ sig) → Buf (Elt F) ℓ)

/-- Core `c`'s buffers at launch: region 0's entry (no host operation comes before it). -/
abbrev W1 : Dev nD → Valuation τ sig (Elt F) := fun c b => m ((c : Dev nD), b)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the host transpose: region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b

/-- No pipeline has a prefetched table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

end Cert.KernelIdeal.Frame

end
-- ==== Proof.KernelIdealFrame.Oblig0.lean ====
/-
  Region 0's body obligation. At a grid point t = 8·tile + step the statistics kernel's body finds the input
  window's buffer at the block of X of that tile and step, and the three scratch buffers at the running sums the
  point before left (at the very first point: at anything). Which of the body's three control cases the point is
  in is read off t mod 8: step 0 resets the sums before adding the block, step 7 also stores the descriptor of the
  completed sums into the output's buffer, every other step only adds. The output window is consulted by the
  pipeline only at step 7; at the other steps its buffer is handed back exactly as it was received.
-/
import proofs.«100511_j11888469476170_1_alg».proof.Proof.KernelIdealFrame.Body0
import proofs.«100511_j11888469476170_1_alg».proof.Proof.KernelIdealFrame.Data

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions and the output window's schedule, over the 64 grid points -/

/-- The reset branch is taken exactly at the points whose depth step is 0. -/
theorem hcondFirst : ∀ t : Fin cfg0.N, condFirst (grid0.coords t) ↔ t.val % 8 = 0 :=
  (by decide +kernel : ∀ t : Fin grid0.N, condFirst (grid0.coords t) ↔ t.val % 8 = 0)

/-- The descriptor branch is taken exactly at the points whose depth step is 7. -/
theorem hcondLast : ∀ t : Fin cfg0.N, condLast (grid0.coords t) ↔ t.val % 8 = 7 :=
  (by decide +kernel : ∀ t : Fin grid0.N, condLast (grid0.coords t) ↔ t.val % 8 = 7)

/-- The input window is live at every point. -/
theorem live0_in : ∀ t : Fin cfg0.N, cfg0.idle 0 (grid0.coords t) = false := by decide +kernel
/-- Off a tile's last step the output window is idle, -/
theorem idle0_out : ∀ t : Fin cfg0.N, ¬condLast (grid0.coords t) → cfg0.idle 1 (grid0.coords t) = true := by decide +kernel
/-- and its block is not written back there. -/
theorem noFlush0_out : ∀ t : Fin cfg0.N, ¬condLast (grid0.coords t) → (cfg0.win 1).flush t = false := by decide +kernel
/-- At a tile's last step it is live. -/
theorem live0_out : ∀ t : Fin cfg0.N, condLast (grid0.coords t) → cfg0.idle 1 (grid0.coords t) = false := by decide +kernel

variable (V : (c : Dev nD) → (b : Ref sig .tc) → Buf (Elt F) ((c : Thread nD τ).loc b))

/-! ## What the body finds in the input window -/

/-- The input window is fetched at every point and never stored into, so its current buffer holds the point's block of X. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The running sums, point by point -/

/-- At a tile's first step the sums restart from zero. -/
theorem accAt0_first (c : Dev nD) (t : Fin cfg0.N) (h0 : t.val % 8 = 0) :
    accAt0 V c t.val t.isLt = accStep (xblk0 V c t) (accZero (F := F)) := by
  obtain ⟨n, hn⟩ := t
  cases n with
  | zero => rfl
  | succ n => exact congrArg (accStep (xblk0 V c ⟨n + 1, hn⟩)) (if_pos h0)

/-- At every other step they continue from what the point before left. -/
theorem accAt0_next (c : Dev nD) (t : Fin cfg0.N) (h0 : ¬t.val % 8 = 0) :
    accAt0 V c t.val t.isLt
      = accStep (xblk0 V c t) (accAt0 V c (t.val - 1) (Nat.lt_of_le_of_lt (Nat.sub_le _ _) t.isLt)) := by
  obtain ⟨n, hn⟩ := t
  cases n with
  | zero => exact absurd (Nat.zero_mod _) h0
  | succ n => exact congrArg (accStep (xblk0 V c ⟨n + 1, hn⟩)) (if_neg h0)

/-! ## The invariant at a point's two ends -/

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scM0 fullShare (accAt0 V c n hn).1
      ∗ owns (c : Thread nD τ) scM1 fullShare (accAt0 V c n hn).2.1
      ∗ owns (c : Thread nD τ) scM2 fullShare (accAt0 V c n hn).2.2
      ∗ otherScoped0 c ∗ (∃ r, prngReg c r)) := rfl

theorem Phi0_pos (c : Dev nD) (n : ℕ) (h : n ≤ cfg0.N) (hz : n ≠ 0) :
    Phi0 V c n h = iprop(owns (c : Thread nD τ) scM0 fullShare (accAt0 V c (n - 1) (by omega)).1
      ∗ owns (c : Thread nD τ) scM1 fullShare (accAt0 V c (n - 1) (by omega)).2.1
      ∗ owns (c : Thread nD τ) scM2 fullShare (accAt0 V c (n - 1) (by omega)).2.2
      ∗ otherScoped0 c ∗ (∃ r, prngReg c r)) := by
  cases n with
  | zero => exact absurd rfl hz
  | succ n => rfl

theorem Phi0_castSucc (c : Dev nD) (t : Fin cfg0.N) :
    (dat0 V c).Φ t.castSucc = Phi0 V c t.val (Nat.le_of_lt t.isLt) := by
  dsimp only [dat0]; simp only [Fin.coe_castSucc]

/-- What the launch hands the region, spelled with the three scratch buffers as whole memrefs at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d)
          ∗ (∃ d, owns (c : Thread nD τ) scM2 fullShare d) ∗ otherScoped0 c) ∗ (∃ r, prngReg c r)) := by
  unfold Pipeline.ΦA otherScoped0; rw [scopedRest0_eq]; simp only [scM0, scM1, scM2, owns_whole]; try rfl

/-! ## The body at a generic point -/

/-- The windows' current staging memrefs at point `t`, as the pipeline passes them to the body. -/
abbrev ms0_0 (t : Fin cfg0.N) : Memref sig .tc .vmem S4x8x4x128x128 .f32 := win0_0.stage (cfg0.slots t 0)
abbrev ms0_1 (t : Fin cfg0.N) : Memref sig .tc .vmem S8x4 .f32 := win0_1.stage (cfg0.slots t 1)

/-- What the body is called with at point `t`: the invariant, nothing owed, each window's current buffer, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The depth step t mod 8 selects the control case; the invariant supplies the sums the
    case starts from (at the first point of all, whatever the scratch buffers hold, which the reset overwrites) and
    receives them back updated by the point's block; the input's buffer is returned at its block; the output's
    buffer is returned at the descriptor of the completed sums at a tile's last step and untouched elsewhere. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) t.isLt from rfl, Phi0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [live0_in t], after0_0]
  by_cases h7 : t.val % 8 = 7
  · -- a tile's last step
    have h0 : ¬t.val % 8 = 0 := by omega
    have hz : t.val ≠ 0 := by omega
    rw [show (dat0 V c).leavesExact 1 t = owns (c : Thread nD τ) (ms0_1 t) fullShare ((dat0 V c).after 1 t) from by
      unfold Dat.leavesExact; rw [live0_out t ((hcondLast t).mpr h7)], after0_1]
    rw [accAt0_next V c t h0, Phi0_castSucc V c t, Phi0_pos V c _ _ hz]
    iintro ⟨⟨HS0, HS1, HS2, Hrest, Hg⟩, Ho, ⟨%d0, H0⟩, ⟨%d1, H1⟩⟩
    iapply (body_last c Set.univ (grid0.coords t) _ _ _ _ _ _ _ _ _ _ (fun h => h0 ((hcondFirst t).mp h)) ((hcondLast t).mpr h7)
      (xblk0 V c t) _ (accAt0 V c (t.val - 1) _) _)
    isplitl [H0]; · iexact H0
    isplitl [H1]; · iexact H1
    isplitl [HS0]; · iexact HS0
    isplitl [HS1]; · iexact HS1
    isplitl [HS2]; · iexact HS2
    iintro ⟨H0, H1, HS0, HS1, HS2⟩
    isplitl [HS0 HS1 HS2 Hrest Hg]
    · isplitl [HS0]; · iexact HS0
      isplitl [HS1]; · iexact HS1
      isplitl [HS2]; · iexact HS2
      isplitl [Hrest]; · iexact Hrest
      iexact Hg
    isplitl [Ho]; · iexact Ho
    isplitl [H0]; · iexact H0
    iexact H1
  · have hnl : ¬condLast (grid0.coords t) := fun h => h7 ((hcondLast t).mp h)
    rw [Dat.leavesExact_idle (dat0 V c) 1 t (idle0_out t hnl) (noFlush0_out t hnl)]
    by_cases h0 : t.val % 8 = 0
    · -- a tile's first step
      rw [accAt0_first V c t h0]
      by_cases hz : t.val = 0
      · -- the very first point: the scratch buffers hold anything
        rw [Phi0_castSucc V c t, Phi0_zero V c _ _ hz, PhiA0_eq]
        iintro ⟨⟨⟨⟨%a0, HS0⟩, ⟨%a1, HS1⟩, ⟨%a2, HS2⟩, Hrest⟩, Hg⟩, Ho, ⟨%d0, H0⟩, ⟨%d1, H1⟩⟩
        iapply (body_first c Set.univ (grid0.coords t) _ _ _ _ _ _ _ _ _ _ ((hcondFirst t).mpr h0) hnl
          (xblk0 V c t) _ (a0, a1, a2) _)
        isplitl [H0]; · iexact H0
        isplitl [H1]; · iexact H1
        isplitl [HS0]; · iexact HS0
        isplitl [HS1]; · iexact HS1
        isplitl [HS2]; · iexact HS2
        iintro ⟨H0, H1, HS0, HS1, HS2⟩
        isplitl [HS0 HS1 HS2 Hrest Hg]
        · isplitl [HS0]; · iexact HS0
          isplitl [HS1]; · iexact HS1
          isplitl [HS2]; · iexact HS2
          isplitl [Hrest]; · iexact Hrest
          iexact Hg
        isplitl [Ho]; · iexact Ho
        isplitl [H0]; · iexact H0
        iexists _; iexact H1
      · -- the first step of a later tile: the scratch buffers hold the previous tile's completed sums
        rw [Phi0_castSucc V c t, Phi0_pos V c _ _ hz]
        iintro ⟨⟨HS0, HS1, HS2, Hrest, Hg⟩, Ho, ⟨%d0, H0⟩, ⟨%d1, H1⟩⟩
        iapply (body_first c Set.univ (grid0.coords t) _ _ _ _ _ _ _ _ _ _ ((hcondFirst t).mpr h0) hnl
          (xblk0 V c t) _ (accAt0 V c (t.val - 1) _) _)
        isplitl [H0]; · iexact H0
        isplitl [H1]; · iexact H1
        isplitl [HS0]; · iexact HS0
        isplitl [HS1]; · iexact HS1
        isplitl [HS2]; · iexact HS2
        iintro ⟨H0, H1, HS0, HS1, HS2⟩
        isplitl [HS0 HS1 HS2 Hrest Hg]
        · isplitl [HS0]; · iexact HS0
          isplitl [HS1]; · iexact HS1
          isplitl [HS2]; · iexact HS2
          isplitl [Hrest]; · iexact Hrest
          iexact Hg
        isplitl [Ho]; · iexact Ho
        isplitl [H0]; · iexact H0
        iexists _; iexact H1
    · -- a step strictly inside a tile
      have hz : t.val ≠ 0 := fun h => h0 (by rw [h])
      rw [accAt0_next V c t h0, Phi0_castSucc V c t, Phi0_pos V c _ _ hz]
      iintro ⟨⟨HS0, HS1, HS2, Hrest, Hg⟩, Ho, ⟨%d0, H0⟩, ⟨%d1, H1⟩⟩
      iapply (body_mid c Set.univ (grid0.coords t) _ _ _ _ _ _ _ _ _ _ (fun h => h0 ((hcondFirst t).mp h)) hnl
        (xblk0 V c t) _ (accAt0 V c (t.val - 1) _) _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hrest Hg]
      · isplitl [HS0]; · iexact HS0
        isplitl [HS1]; · iexact HS1
        isplitl [HS2]; · iexact HS2
        isplitl [Hrest]; · iexact Hrest
        iexact Hg
      isplitl [Ho]; · iexact Ho
      isplitl [H0]; · iexact H0
      iexists _; iexact H1

/-! ## The three facts the region's run takes -/

theorem hin0 (c : Dev nD) : (Pipeline.ΦA spec0 c : sProp 𝕄) ⊢ (dat0 (F := F) V c).Φ 0 := by
  rw [show (dat0 V c).Φ 0 = Phi0 V c 0 (Nat.zero_le _) from rfl, Phi0_zero V c 0 _ rfl]

/-- After any point the invariant gives the launch's form back: what the scratch buffers hold is forgotten. -/
theorem Phi0_out (c : Dev nD) (t : Fin (cfg0.N + 1)) (ht : t.val ≠ 0) :
    (dat0 (F := F) V c).Φ t ⊢ (Pipeline.ΦA spec0 c : sProp 𝕄) := by
  rw [show (dat0 V c).Φ t = Phi0 V c t.val (Nat.le_of_lt_succ t.isLt) from rfl, Phi0_pos V c _ _ ht, PhiA0_eq]
  iintro ⟨HS0, HS1, HS2, Hrest, Hg⟩
  isplitr [Hg]
  · isplitl [HS0]; · iexists _; iexact HS0
    isplitl [HS1]; · iexists _; iexact HS1
    isplitl [HS2]; · iexists _; iexact HS2
    iexact Hrest
  iexact Hg

theorem hout0 (c : Dev nD) : (dat0 (F := F) V c).Φ (Fin.last cfg0.N) ⊢ (Pipeline.ΦA spec0 c : sProp 𝕄) :=
  Phi0_out V c _ (by rw [Fin.val_last]; have : cfg0.N = 64 := N_0; omega)

theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KernelIdealFrame.Oblig1.lean ====
/-
  The matrix-product kernel's body at its single grid point. Each of its three windows is a whole array staged in
  one whole buffer. The body reads the left factor (4 by 64) and the right factor (64 by 256) in full, forms their
  product, reads the output's buffer (the value read is not used) and then overwrites that buffer in full with the
  product. So from the two factors' blocks in their buffers and anything in the output's, the body leaves the
  factors' buffers as found and the output's at the product of the two blocks: what the region's proof data say.
-/
import proofs.«100511_j11888469476170_1_alg».proof.Proof.KernelIdealFrame.Data
import proofs.«100511_j11888469476170_1_alg».proof.Proof.KernelIdealFrame.Body0
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The kernel on whole buffers: with the left factor's buffer reading x0, the right factor's reading x1 and the
    output's holding anything, it runs to a state where the factors' buffers read as before and the output's reads
    the product of x0 and x1. The final store covers the whole output buffer, so nothing of its earlier contents
    survives, and each load through a whole buffer returns exactly what the buffer reads. -/
theorem sound_kernel1 (c : Dev nD) (E : Set ℕ) (i : grid1.Coords)
    (arg1 : Memref sig .tc .vmem S4x64 .f32) (harg1 : arg1.IsWhole)
    (arg2 : Memref sig .tc .vmem S64x256 .f32) (harg2 : arg2.IsWhole)
    (arg3 : Memref sig .tc .vmem S4x256 .f32) (harg3 : arg3.IsWhole)
    (x0 : Vec F S4x64 .f32) (x1 : Vec F S64x256 .f32) (K : PUnit → sProp 𝕄) :
    iprop(owns (c : Thread nD τ) arg1 fullShare x0 ∗ owns (c : Thread nD τ) arg2 fullShare x1
        ∗ (∃ y, owns (c : Thread nD τ) arg3 fullShare y)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f1, %hf1, H1⟩, ⟨%f2, %hf2, H2⟩, ⟨%y, %f3, -, H3⟩, Hk⟩
  obtain rfl := harg1.eq_unread hf1; obtain rfl := harg2.eq_unread hf2
  sl_exec
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H3
  ipureintro
  sl_unfold_words
  refine (View.read_writes_eq_canon _ _ _ (fun y => cover_head _ hz2 _ _ _ y)).trans ?_
  refine (View.canon_cons_unit_zero (S := S4x256) hz2 _ _ _).trans ?_
  simp only [View.readAt_eq_ld, harg1.read_unread, harg2.read_unread,
    View.ld_unit_zero (S := S4x64) hz2, View.ld_unit_zero (S := S64x256) hz2]

section Point

variable (V : (c : Dev nD) → (b : Ref sig .tc) → Buf (Elt F) ((c : Thread nD τ).loc b))

/-- The left factor's buffer, when the body is handed it, holds the factor's block: the window is fetched at the point. -/
theorem before1_0 (c : Dev nD) (t : Fin cfg1.N) (d) : (dat1 V c).before 0 t d = iblk1 V c 0 t :=
  ((dat1 V c).before_fetched 0 t (fetch1_0 t) d).trans
    (by unfold Dat.fetched Dat.blockOf iblk1; rw [A_eq1]; try rfl)

/-- Likewise the right factor's. -/
theorem before1_1 (c : Dev nD) (t : Fin cfg1.N) (d) : (dat1 V c).before 1 t d = iblk1 V c 1 t :=
  ((dat1 V c).before_fetched 1 t (fetch1_1 t) d).trans
    (by unfold Dat.fetched Dat.blockOf iblk1; rw [A_eq1]; try rfl)

/-- What the body is entered with at the point: the region's invariant, the core's debt, and each window's buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it must return: the same invariant and debt, each buffer at what the proof data name. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at the point: the factors' buffers hold their blocks, so the kernel's triple applies; the invariant
    and the debt do not depend on the point and pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Point

end Cert.KernelIdeal.Frame

end
-- ==== Proof.KernelIdealFrame.Run.lean ====
/-
  The run of the whole program on a core: the statistics kernel's pipeline over its 64 grid points, the host
  transpose, the matrix-product kernel's pipeline at its one point. Between two of these three items the core holds
  every buffer that outlives a kernel at named contents: at launch the memory it was started from; after the first
  pipeline the same with the descriptor array at what the write-backs left; after the transpose; after the second
  pipeline the same with the result array at what its write-back left. Each pipeline takes its arrays out of those
  buffers on entry and puts them back on exit; the first also takes the core's scratch buffers in at anything and
  tracks the three running sums in them from point to point. Read at the end, the two arguments hold what they were
  launched with (no item writes them) and the result array holds what the second pipeline left.
-/
import proofs.«100511_j11888469476170_1_alg».proof.Proof.KernelIdealFrame.Oblig0
import proofs.«100511_j11888469476170_1_alg».proof.Proof.KernelIdealFrame.Oblig1

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

namespace Run

/-! ## The contents between the items, read at one buffer

Each of the four valuations differs from the one before it at few buffers: a region changes only its windows'
arrays, the transpose only its result. So a buffer's contents at the end are found by walking back item by
item, at each asking whether that item touches the buffer. -/

/-- After the statistics region each of its two arrays holds what the region's write-backs leave there, -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
/-- and a buffer that is neither of them what it held at launch. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

/-- The two facts in the shape the exit of the region asks for them: the arrays' final contents are the new
    valuation's at the arrays, and off the arrays the new valuation is the old one. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- The transpose writes `main_v1` and nothing else: every other buffer is after it what it was before. -/
theorem W3_of_ne (c : Dev nD) (b : Ref sig .tc) (hb : b ≠ main_v1) :
    W3 m c (Proc.devRef .tc b) = W2 m c (Proc.devRef .tc b) :=
  StableHlo.after_of_forall_not_mem (b := Proc.devRef .tc b) _ _ fun op hop => by
    rw [List.mem_singleton.mp hop, StableHlo.unary_writes, Finset.mem_singleton]
    exact StableHlo.devRef_ne_of_ne hb

/-- After the product region each of its three arrays holds what the region leaves there, -/
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
/-- and any other buffer what it held when the region was entered. -/
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

end Run

/-! ## What the last valuation holds at the arguments and at the result -/

/-- `X` ends as launched. The product region does not have it among its arrays and the transpose does not write
    it; the statistics region has it as an input window, whose array is at every point what it was at entry;
    and no item precedes that region. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := Run.W4_of_ne m c main_arg0 (by decide)
    _ = W2 m c (Proc.devRef .tc main_arg0) := Run.W3_of_ne m c main_arg0 (by decide)
    _ = W1 m c (Proc.devRef .tc main_arg0) :=
        (Run.W2_arr m c 0).trans (((dat0 (V1 m) c).arrAt_in 0 rfl _).trans (A_eq0 (V1 m) c 0))
    _ = m ((c : Thread nD τ).loc main_arg0) := rfl

/-- `W` ends as launched. It is an input window of the product region, so that region leaves it as entered; the
    transpose does not write it; the statistics region does not have it among its arrays. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) :=
        (Run.W4_arr m c 1).trans (((dat1 (V3 m) c).arrAt_in 1 rfl _).trans (A_eq1 (V3 m) c 1))
    _ = W2 m c (Proc.devRef .tc main_arg1) := Run.W3_of_ne m c main_arg1 (by decide)
    _ = W1 m c (Proc.devRef .tc main_arg1) := Run.W2_of_ne m c main_arg1 (by decide)
    _ = m ((c : Thread nD τ).loc main_arg1) := rfl

/-- The result is the product region's output array: it ends at what that region's one write-back leaves. -/
theorem W4_main_v2 (c : Dev nD) : W4 m c (Proc.devRef .tc main_v2) = (dat1 (V3 m) c).arrAt 2 cfg1.N :=
  Run.W4_arr m c 2

namespace Run

/-! ## What a core holds between the items -/

/-- No body has a variant to decrease, -/
abbrev 𝒱₀ : Variants := Variants.none
/-- no core owes another anything, so no level is assigned. -/
abbrev L : GSem nD τ sig → Finset Unit := fun _ => ∅
abbrev lv : GSem nD τ sig → Unit → ℕ := fun _ _ => 0

/-- Beside its unscoped buffers a core carries from item to item its generator register, at a state nobody
    names (a region takes it into its invariant and returns it), and the fact that it owes nothing. -/
abbrev R (c : Dev nD) : sProp 𝕄 :=
  iprop((∃ r, prngReg c r) ∗ ∃ W, owes (c : Thread nD τ) (0 : CellTallies nD τ sig Unit) W)

/-- Between two items: every unscoped buffer of the core at the valuation `W c`, and `R c`. -/
abbrev T (W : Dev nD → Valuation τ sig (Elt F)) (c : Dev nD) : sProp 𝕄 :=
  iprop(StableHlo.held (c : Thread nD τ) (Pipeline.ucRefs τ sig) (W c) ∗ R (F := F) c)

/-- At the return the owing is stated apart: the buffers at the last valuation and the register. -/
abbrev Tₙ (c : Dev nD) : sProp 𝕄 :=
  iprop(StableHlo.held (c : Thread nD τ) (Pipeline.ucRefs τ sig) (W4 m c) ∗ ∃ r, prngReg c r)

/-- The transpose allocates nothing. -/
theorem hostOps1_fresh : (hostOps1 : List (HloOp τ sig (Elt F))).Forall fun op => op.fresh = ∅ := by
  simp only [List.Forall]; repeat' constructor

/-- An unscoped reference of the TensorCore is one of those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The host stretch as an item: over the unscoped buffers at `W`, it leaves them at `W` rewritten by the
    stretch's operations, `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The two regions as items -/

set_option backward.isDefEq.respectTransparency.types false in
/-- The statistics region, entered from the launch contents and left at `W2`. At entry its two arrays are taken
    out of the unscoped buffers, the rest of them going round the region; the generator register goes into the
    invariant. The invariant is the class's only at the two ends: what the region is handed makes the invariant
    before the first point, and the invariant after the last point — the running sums of the last tile — gives
    the scoped buffers back at contents nobody names. At exit the arrays, at what the write-backs left, rejoin
    the rest as the unscoped buffers at `W2`. The kernel has no semaphore of its own and owes nothing. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre := T (W1 m)
  post := T (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hbufs, Hreg, Howes⟩, -, -⟩
    ihave Hsp := hsplit $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hrest
  hin c := by
    rw [show (pdats m 0 c).Φ 0 = (dat0 (V1 m) c).Φ 0 from rfl]
    refine .trans ?_ (hin0 (V1 m) c)
    unfold Pipeline.ΦA
    iintro ⟨Hreg, -, Hsc⟩
    isplitl [Hsc]; · iexact Hsc
    iexact Hreg
  hout c := by
    rw [Pipeline.ownSems0_none, show (pdats m 0 c).Φ (Fin.last _) = (dat0 (V1 m) c).Φ (Fin.last cfg0.N) from rfl]
    refine (hout0 (V1 m) c).trans ?_
    unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- The product region, entered from the contents after the transpose and left at `W4`, the last valuation. Its
    invariant is the class's at its one point: the scoped buffers it does not stage, at anything, and the
    generator register. Entry and exit sort the three arrays out of the unscoped buffers and back as for the
    statistics region; the exit states the owing apart, as the return wants it. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre := T (W3 m)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hbufs, Hreg, Howes⟩, -, -⟩
    ihave Hsp := hsplit $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hrest
  hin c := by
    rw [show (pdats m 1 c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]; unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Harr, Howes, Hreg, Hrest⟩
    imodintro
    isplitl [Harr Hrest Hreg]
    · isplitl [Harr Hrest]
      · iapply hjoin; isplitl [Harr] <;> iassumption
      iexact Hreg
    unfold Pipeline.Dat.owesAt Pipeline.owesWithin
    icases Howes with ⟨%W, -, Howes⟩; iexists W; iexact Howes

/-! ## @main as its three items -/

/-- The statistics region, the transpose from what that region left, the product region. -/
abbrev segs : List (Pipeline.Seg (pcfgs (F := F)) adm (pdats m) () defs₀ 𝒱₀ L lv) :=
  [ .region (reg0 m),
    .host (hseg hostOps1 hostOps1_sub hostOps1_fresh (W2 m)),
    .region (reg1 m) ]

/-- @main is the run of those three: it is the chain of its three items, and the run of the list unfolds to
    the same chain. -/
theorem main_run (c : Dev nD) : main (F := F) c = Pipeline.Seg.run (segs m) := (main_chain c).trans (by chain_rfl)

end Run

/-! ## The launch -/

set_option backward.isDefEq.respectTransparency.types false in
/-- From any launch memory with zero counters, every weakly fair execution of @main terminates, and in every
    final state each unscoped buffer of each core holds the last valuation's contents. The launch deals each
    core its unscoped buffers at the launch memory, its generator register and an empty debt: the first thread
    state. The three items chain because each is entered from exactly what the one before it left. At the return
    the buffers held at the last valuation, read against the final state, say what its memory holds. -/
theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ Run.𝒱₀ Run.L Run.lv m ρ main (Run.segs m)
    (fun c Q => by rw [Run.main_run m c])
    (by simp only [Run.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Run.T (W1 m)) (Tₙ := Run.Tₙ m)
    (hch := ⟨fun _ => .rfl, fun _ => .rfl, fun _ => .rfl, fun _ => .rfl⟩)
    (hinit := by
      refine Pipeline.initEach Run.L Run.lv fun c => ?_
      rw [show unscopedBufs c (fun b => m ((c : Thread nD τ).loc b)) = StableHlo.held (c : Thread nD τ) (Pipeline.ucRefs τ sig) (W1 m c)
        from Pipeline.unscopedBufs_held c (W1 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W4 m c b)
    (hfin := fun c s' => by
      iintro ⟨⟨Hbufs, -⟩, HSI⟩
      unfold StableHlo.held
      imodintro
      iapply (pointsTo_read_all (Pipeline.ucRefs τ sig) (fun b => (((c : Thread nD τ)).1, b)) (W4 m c) s')
      isplitl [Hbufs] <;> iassumption)
    (hQ := fun s h => h)

/-- The frame: both arguments end as launched. They are unscoped, so the run says what they hold at the end, and
    the last valuation holds the launch contents at each. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (Run.mem_uc main_arg0 (by decide))).trans (W4_main_arg0 m c),
       (h c _ (Run.mem_uc main_arg1 (by decide))).trans (W4_main_arg1 m c)⟩)
    (run_main m ρ)

/-- The run with the result named: the result array ends at what the product region's write-back leaves, and
    both arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v2) = (dat1 (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (Run.mem_uc main_v2 (by decide))).trans (W4_main_v2 m c),
       (h c _ (Run.mem_uc main_arg0 (by decide))).trans (W4_main_arg0 m c),
       (h c _ (Run.mem_uc main_arg1 (by decide))).trans (W4_main_arg1 m c)⟩)
    (run_main m ρ)

end Cert.KernelIdeal.Frame

end
-- ==== Proof.KernelIdealFrame.Fun.lean ====
/-
  The kernel program's result as one function of its two argument arrays. Per channel tile (eight channels) the
  statistics kernel folds the eight depth steps' blocks of X into the three running sums, from zero; the descriptor
  array [64, 4] holds, at channel 8·tile + k and batch n, entry (k, n) of the descriptor block of that tile's completed
  sums; @main transposes it to [4, 64] and the second kernel multiplies it with W.
-/
import proofs.«100511_j11888469476170_1_alg».proof.Proof.KernelIdealFrame.State
import Idealize.ShloMosaic.Lib.ValueIdx

noncomputable section

namespace Cert.KernelIdeal.Frame

open Idealize.ShloMosaic Idealize.ShloMosaic.ValueIdx Cert.KernelIdeal Cert.KernelIdeal.Gen

variable {F : FTy → Type} [FloatOps F]

/-- The block of X the statistics kernel sees at channel tile `ci` and depth step `k`: all four batches, channels
    8·ci … 8·ci + 7, depth slices 4·k … 4·k + 3, the whole plane. -/
def tileBlock (X : Vec F S4x64x32x128x128 .f32) (ci k : Fin 8) : Vec F S4x8x4x128x128 .f32 :=
  fun y => X (ix5 (n0 := 4) (n1 := 64) (n2 := 32) (n3 := 128) (n4 := 128) ⟨(y 0).val, (y 0).isLt⟩
    ⟨8 * ci.val + (y 1).val, by have h : (y 1).val < 8 := (y 1).isLt; have := ci.isLt; omega⟩
    ⟨4 * k.val + (y 2).val, by have h : (y 2).val < 4 := (y 2).isLt; have := k.isLt; omega⟩
    ⟨(y 3).val, (y 3).isLt⟩ ⟨(y 4).val, (y 4).isLt⟩)

/-- The running sums of channel tile `ci` after depth steps 0 … k, from zero. -/
def accUpTo (X : Vec F S4x64x32x128x128 .f32) (ci : Fin 8) : (k : ℕ) → k < 8 → Acc F
  | 0, h => accStep (tileBlock X ci ⟨0, h⟩) (accZero (F := F))
  | k + 1, h => accStep (tileBlock X ci ⟨k + 1, h⟩) (accUpTo X ci k (Nat.lt_of_succ_lt h))

/-- The completed sums of channel tile `ci`. -/
def accTile (X : Vec F S4x64x32x128x128 .f32) (ci : Fin 8) : Acc F := accUpTo X ci 7 (by decide)

/-- The descriptor array [channel, batch] the statistics kernel leaves. -/
def descArr (X : Vec F S4x64x32x128x128 .f32) : Vec F S64x4 .f32 :=
  fun j => accDesc (accTile X ⟨(j 0).val / 8, by have h : (j 0).val < 64 := (j 0).isLt; omega⟩)
    (ix2 (n0 := 8) (n1 := 4) ⟨(j 0).val % 8, Nat.mod_lt _ (by decide)⟩ ⟨(j 1).val, (j 1).isLt⟩)

/-- The program's result: the transposed descriptor times W. -/
def kOut (X : Vec F S4x64x32x128x128 .f32) (W : Vec F S64x256 .f32) : Vec F S4x256 .f32 :=
  k1_pay1 (transpose S4x64 [1, 0] (descArr X) transposes_S64x4_S4x64_1_0) W

end Cert.KernelIdeal.Frame

end
-- ==== Proof.KernelIdealFrame.Final0.lean ====
/-
  What the statistics kernel leaves in the descriptor array [64, 4]. Only a channel tile's last depth step writes
  its 8 × 4 block back, and by then the running sums are the eight depth steps' blocks of X folded from zero: the
  input window's block at point 8·tile + step is the block of X at that tile and step, so by induction over the steps
  the sums after point 8·tile + k are the fold over steps 0 … k. The eight written-back blocks tile the array (row ch
  lies in tile ch / 8 at row ch mod 8), so the array is one function of X, entry by entry.
-/
import proofs.«100511_j11888469476170_1_alg».proof.Proof.KernelIdealFrame.Data
import proofs.«100511_j11888469476170_1_alg».proof.Proof.KernelIdealFrame.Fun
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## From the written-back blocks to the descriptor array

Grid point t = 8·tile + step reads the block of X of channel tile t / 8 and depth step t % 8, and the
running sums restart at step 0; so after point 8·tile + k the sums are the tile's sums over depth steps
0 … k, and after the tile's last step (k = 7) they are the tile's completed sums. Only that last step
writes the output block back, to rows 8·tile … 8·tile + 7 of the [64, 4] array, and row r of the block
is channel 8·tile + r: the block written is exactly that tile's block of `descArr X`. The eight tiles'
blocks fill all 64 rows, so the array ends holding `descArr X`. -/

namespace Final0

/-- Where the two windows' blocks sit at grid point t: the input block at channel tile t / 8 and depth
    step t % 8 (index 0 on the batch axis and on the plane), the output block at row block t / 8. -/
theorem blockIndex_at : ∀ t : Fin cfg0.N,
    win0_0.index t (0 : Fin 5) = 0 ∧ win0_0.index t (1 : Fin 5) = t.val / 8 ∧ win0_0.index t (2 : Fin 5) = t.val % 8
    ∧ win0_0.index t (3 : Fin 5) = 0 ∧ win0_0.index t (4 : Fin 5) = 0
    ∧ win0_1.index t (0 : Fin 2) = t.val / 8 ∧ win0_1.index t (1 : Fin 2) = 0 :=
  (by decide +kernel : ∀ t : Fin grid0.N, _)

/-- The input block at point t is the tile block of X at tile t / 8 and step t % 8: both read X at batch y₀,
    channel 8·(t / 8) + y₁, depth 4·(t % 8) + y₂ and plane position (y₃, y₄). -/
theorem xblk0_eq (c : Dev nD) (t : Fin cfg0.N) :
    xblk0 (V1 m) c t = tileBlock (F := F) (m ((c : Thread nD τ).loc main_arg0))
      ⟨t.val / 8, by have := t.isLt; have h : cfg0.N = 64 := N_0; omega⟩ ⟨t.val % 8, Nat.mod_lt _ (by decide)⟩ := by
  obtain ⟨e0, e1, e2, e3, e4, -, -⟩ := blockIndex_at t
  funext y
  unfold xblk0 iblk0 tileBlock
  rw [View.read_apply]
  show m ((c : Thread nD τ).loc main_arg0) (((cfg0.win 0).blk t).view.emb y) = _
  congr 1
  funext a
  apply Fin.ext
  match a with
  | ⟨0, _⟩ => show win0_0.index t (0 : Fin 5) * 4 + 1 * (y 0).val = (y 0).val; omega
  | ⟨1, _⟩ => show win0_0.index t (1 : Fin 5) * 8 + 1 * (y 1).val = 8 * (t.val / 8) + (y 1).val; omega
  | ⟨2, _⟩ => show win0_0.index t (2 : Fin 5) * 4 + 1 * (y 2).val = 4 * (t.val % 8) + (y 2).val; omega
  | ⟨3, _⟩ => show win0_0.index t (3 : Fin 5) * 128 + 1 * (y 3).val = (y 3).val; omega
  | ⟨4, _⟩ => show win0_0.index t (4 : Fin 5) * 128 + 1 * (y 4).val = (y 4).val; omega

/-- The input block at position 8·ci + k is channel tile ci's block of depth step k. -/
theorem xblk0_tile (c : Dev nD) (ci k : Fin 8) (n : ℕ) (hn : n < cfg0.N) (h : n = 8 * ci.val + k.val) :
    xblk0 (V1 m) c ⟨n, hn⟩ = tileBlock (F := F) (m ((c : Thread nD τ).loc main_arg0)) ci k := by
  rw [xblk0_eq]
  have hk := k.isLt
  congr 1 <;> apply Fin.ext <;> dsimp only <;> omega

/-- A position that starts a channel tile (a multiple of eight) restarts the sums from zero. -/
theorem accAt0_reset (V : (c : Dev nD) → (b : Ref sig .tc) → Buf (Elt F) ((c : Thread nD τ).loc b)) (c : Dev nD) :
    ∀ (n : ℕ) (hn : n < cfg0.N), n % 8 = 0 → accAt0 V c n hn = accStep (xblk0 V c ⟨n, hn⟩) (accZero (F := F))
  | 0, hn, _ => rfl
  | n + 1, hn, h => by rw [accAt0, if_pos h]

/-- Any other position continues from the sums the position before left. -/
theorem accAt0_cont (V : (c : Dev nD) → (b : Ref sig .tc) → Buf (Elt F) ((c : Thread nD τ).loc b)) (c : Dev nD)
    (n : ℕ) (hn : n + 1 < cfg0.N) (h : ¬(n + 1) % 8 = 0) :
    accAt0 V c (n + 1) hn = accStep (xblk0 V c ⟨n + 1, hn⟩) (accAt0 V c n (Nat.lt_of_succ_lt hn)) := by
  rw [accAt0, if_neg h]

/-- The running sums at position 8·ci + k are channel tile ci's sums over depth steps 0 … k: by induction on k,
    step 0 restarting from zero and every later step adding its block to what the step before left. -/
theorem accAt0_eq (c : Dev nD) (ci : Fin 8) : ∀ (k : ℕ) (hk : k < 8) (n : ℕ) (hn : n < cfg0.N), n = 8 * ci.val + k →
    accAt0 (V1 m) c n hn = accUpTo (F := F) (m ((c : Thread nD τ).loc main_arg0)) ci k hk
  | 0, hk, n, hn, h => by
    rw [accAt0_reset (V1 m) c n hn (by omega), xblk0_tile m c ci ⟨0, hk⟩ n hn h]
    rfl
  | k + 1, hk, n, hn, h => by
    subst h
    show accAt0 (V1 m) c ((8 * ci.val + k) + 1) hn = _
    rw [accAt0_cont (V1 m) c (8 * ci.val + k) hn (by omega),
      accAt0_eq c ci k (Nat.lt_of_succ_lt hk) (8 * ci.val + k) (Nat.lt_of_succ_lt hn) rfl,
      xblk0_tile m c ci ⟨k + 1, hk⟩ (8 * ci.val + k + 1) hn rfl]
    rfl

/-- The descriptor array at channel 8·ci + r and batch n is entry (r, n) of tile ci's descriptor block:
    (8·ci + r) / 8 = ci and (8·ci + r) % 8 = r. -/
theorem descArr_apply (X : Vec F S4x64x32x128x128 .f32) (ci : Fin 8) (i : S64x4.Idx) (r : Fin 8) (n : Fin 4)
    (h0 : (i 0).val = 8 * ci.val + r.val) (h1 : (i 1).val = n.val) :
    descArr X i = accDesc (accTile X ci) (ValueIdx.ix2 r n) := by
  have hr := r.isLt
  have e1 : (⟨(i 0).val / 8, by have h : (i 0).val < 64 := (i 0).isLt; omega⟩ : Fin 8) = ci := Fin.ext (by dsimp only; omega)
  have e2 : (⟨(i 0).val % 8, Nat.mod_lt _ (by decide)⟩ : Fin 8) = r := Fin.ext (by dsimp only; omega)
  have e3 : (⟨(i 1).val, (i 1).isLt⟩ : Fin 4) = n := Fin.ext h1
  show accDesc (accTile X ⟨(i 0).val / 8, _⟩) (ValueIdx.ix2 (n0 := 8) (n1 := 4) ⟨(i 0).val % 8, _⟩ ⟨(i 1).val, _⟩) = _
  rw [e1, e2, e3]

/-- What a tile's last depth step writes back is that tile's block of the descriptor array: the sums there are
    the tile's completed sums, and entry (r, n) of the block lands at channel 8·tile + r, batch n. -/
theorem writeBack_eq (c : Dev nD) (t : Fin cfg0.N) (hf : (cfg0.win 1).flush t = true) :
    (dat0 (V1 m) c).flushed 1 t
      = ((cfg0.win 1).blk t).view.read (Elt F) (descArr (F := F) (m ((c : Thread nD τ).loc main_arg0))) := by
  have h7 : t.val % 8 = 7 := (flush0_1 t).mp hf
  have hN : cfg0.N = 64 := N_0
  have ht := t.isLt
  obtain ⟨-, -, -, -, -, e5, e6⟩ := blockIndex_at t
  show (cfg0.win 1).cut (grid0.coords t) ((dat0 (V1 m) c).after 1 t) = _
  rw [after0_1, accAt0_eq m c ⟨t.val / 8, by omega⟩ 7 (by decide) t.val t.isLt (by dsimp only; omega)]
  funext j
  rw [View.read_apply]
  have hj0 : (j 0).val < 8 := (j 0).isLt
  have hj1 : (j 1).val < 4 := (j 1).isLt
  show accDesc (accTile (m ((c : Thread nD τ).loc main_arg0)) ⟨t.val / 8, _⟩) ((cfg0.win 1).xinj (grid0.coords t) j)
    = descArr (F := F) (m ((c : Thread nD τ).loc main_arg0)) (((cfg0.win 1).blk t).view.emb j)
  rw [descArr_apply (m ((c : Thread nD τ).loc main_arg0)) ⟨t.val / 8, by omega⟩ (((cfg0.win 1).blk t).view.emb j) ⟨(j 0).val, hj0⟩ ⟨(j 1).val, hj1⟩
    (by show win0_1.index t (0 : Fin 2) * 8 + 1 * (j 0).val = 8 * (t.val / 8) + (j 0).val; omega)
    (by show win0_1.index t (1 : Fin 2) * 4 + 1 * (j 1).val = (j 1).val; omega)]
  congr 1
  funext a
  match a with
  | ⟨0, _⟩ => rfl
  | ⟨1, _⟩ => rfl

/-- An index of the descriptor array lies in point t's block iff each coordinate lies in the block's range on its axis. -/
theorem mem_descBlock (t : Fin cfg0.N) (i : S64x4.Idx) :
    i ∈ ((cfg0.win 1).blk t).view.set ↔ ∀ a : Fin 2, win0_1.index t a * S8x4.size a ≤ (i a).val ∧ (i a).val < win0_1.index t a * S8x4.size a + S8x4.size a := by
  show i ∈ ((View.whole main_v0).slice (win0_1.rect t)).set ↔ _
  rw [View.set_slice_whole, Rect.mem_set_unit]
  exact Iff.rfl

/-- Every channel row ch lies in the block that the last depth step of tile ch / 8 writes back (point 8·(ch / 8) + 7). -/
theorem rows_covered (i : S64x4.Idx) : ∃ t : Fin cfg0.N, (cfg0.win 1).flush t = true ∧ i ∈ ((cfg0.win 1).blk t).view.set := by
  have hN : cfg0.N = 64 := N_0
  have hi0 : (i 0).val < 64 := (i 0).isLt
  have hi1 : (i 1).val < 4 := (i 1).isLt
  let t : Fin cfg0.N := ⟨8 * ((i 0).val / 8) + 7, by omega⟩
  have htv : t.val = 8 * ((i 0).val / 8) + 7 := rfl
  obtain ⟨-, -, -, -, -, e5, e6⟩ := blockIndex_at t
  refine ⟨t, (flush0_1 t).mpr (by omega), ?_⟩
  rw [mem_descBlock]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 4 ≤ (i 1).val ∧ (i 1).val < win0_1.index t (1 : Fin 2) * 4 + 4; omega

end Final0

theorem arr0_final (c : Dev nD) :
    (dat0 (V1 m) c).arrAt 1 cfg0.N = descArr (F := F) (m ((c : Thread nD τ).loc main_arg0)) :=
  (dat0 (V1 m) c).arrAt_eq_of_cover 1 (descArr (F := F) (m ((c : Thread nD τ).loc main_arg0)))
    (fun t hf => Final0.writeBack_eq m c t hf) Final0.rows_covered

end Cert.KernelIdeal.Frame

end
-- ==== Proof.KernelIdealFrame.Final.lean ====
/-
  What the program leaves in its result array [4, 256]. The second kernel runs at one grid point with each of its
  three windows a whole array in one block, so the result array is the block it stored: the product of its two input
  arrays as that kernel finds them. The left one is the host transpose of the descriptor array the first kernel left,
  the right one is the argument W, which nothing before has written. So the result is the transposed descriptor of X
  times W.
-/
import proofs.«100511_j11888469476170_1_alg».proof.Proof.KernelIdealFrame.Final0
import proofs.«100511_j11888469476170_1_alg».proof.Proof.KernelIdealFrame.Fun
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Region 1's result array

Region 1 runs at a single grid point, and each of its three windows is one block that is the whole of its array
(block index 0 on both axes, block size the array's size). So the result array after the region is exactly what
the point writes back, the two input blocks are the arrays themselves, and the result is the product of region 1's
two entry arrays. The first of these is what the host transpose made of region 0's descriptor array; the second is the
launch contents of the weight argument, which nothing before region 1 writes. -/

section Region1

variable (V : (c : Dev nD) → (b : Ref sig .tc) → Buf (Elt F) ((c : Thread nD τ).loc b))

/-- Window 0's block at the one point is the whole of its array: an index inside the block sits at
    0 · size + itself on each axis. -/
theorem final_iblk1_0 (c : Dev nD) : iblk1 V c 0 t1_0 = V c main_v1 := by
  funext y
  show ((cfg1.win 0).blk t1_0).view.read (Elt F) (V c main_v1) y = V c main_v1 y
  rw [View.read_apply]
  show V c main_v1 (((cfg1.win 0).blk t1_0).view.emb y) = V c main_v1 y
  have h : ((cfg1.win 0).blk t1_0).view.emb y = y := by
    funext a; apply Fin.ext
    match a with
    | ⟨0, _⟩ => show 0 * 4 + 1 * (y 0).val = (y 0).val; omega
    | ⟨1, _⟩ => show 0 * 64 + 1 * (y 1).val = (y 1).val; omega
  rw [h]

/-- Window 1's block at the one point is the whole of its array. -/
theorem final_iblk1_1 (c : Dev nD) : iblk1 V c 1 t1_0 = V c main_arg1 := by
  funext y
  show ((cfg1.win 1).blk t1_0).view.read (Elt F) (V c main_arg1) y = V c main_arg1 y
  rw [View.read_apply]
  show V c main_arg1 (((cfg1.win 1).blk t1_0).view.emb y) = V c main_arg1 y
  have h : ((cfg1.win 1).blk t1_0).view.emb y = y := by
    funext a; apply Fin.ext
    match a with
    | ⟨0, _⟩ => show 0 * 64 + 1 * (y 0).val = (y 0).val; omega
    | ⟨1, _⟩ => show 0 * 256 + 1 * (y 1).val = (y 1).val; omega
  rw [h]

/-- What a point writes back to the result array is the product of the two input blocks, read through the
    result's block, which is the whole array: the read is the identity. -/
theorem final_flushed1_2 (c : Dev nD) (t : Fin cfg1.N) :
    (dat1 V c).flushed 2 t
      = ((cfg1.win 2).blk t).view.read (Elt F) (k1_pay1 (iblk1 V c 0 t1_0) (iblk1 V c 1 t1_0)) := by
  rw [fin_N1 t]
  show (cfg1.win 2).cut (grid1.coords t1_0) ((dat1 V c).after 2 t1_0) = _
  rw [after1_2]
  funext y
  rw [View.read_apply]
  show k1_pay1 (iblk1 V c 0 t1_0) (iblk1 V c 1 t1_0) y
    = k1_pay1 (iblk1 V c 0 t1_0) (iblk1 V c 1 t1_0) (((cfg1.win 2).blk t1_0).view.emb y)
  have h : ((cfg1.win 2).blk t1_0).view.emb y = y := by
    funext a; apply Fin.ext
    match a with
    | ⟨0, _⟩ => show 0 * 4 + 1 * (y 0).val = (y 0).val; omega
    | ⟨1, _⟩ => show 0 * 256 + 1 * (y 1).val = (y 1).val; omega
  rw [h]

/-- Every index of the result array lies in the one point's block, and that point writes its block back. -/
theorem final_cover1_2 (c : Dev nD) (i : (View.loc (c : Thread nD τ) (cfg1.win 2).arr.view).2.ty.Idx) :
    ∃ t, (cfg1.win 2).flush t = true ∧ i ∈ ((cfg1.win 2).blk t).view.set := by
  refine ⟨t1_0, flush1_2 t1_0, ?_⟩
  show i ∈ ((View.whole main_v2).slice (win1_2.rect t1_0)).set
  rw [View.set_slice_whole, Rect.mem_set_unit]
  intro a
  match a with
  | ⟨0, _⟩ =>
    show 0 * 4 ≤ (i 0).val ∧ (i 0).val < 0 * 4 + 4
    have h : (i 0).val < 4 := (i 0).isLt
    omega
  | ⟨1, _⟩ =>
    show 0 * 256 ≤ (i 1).val ∧ (i 1).val < 0 * 256 + 256
    have h : (i 1).val < 256 := (i 1).isLt
    omega

/-- The result array after region 1: the product of the region's two entry arrays. -/
theorem final_arr1_2 (c : Dev nD) : (dat1 V c).arrAt 2 cfg1.N = k1_pay1 (V c main_v1) (V c main_arg1) := by
  rw [← final_iblk1_0 V c, ← final_iblk1_1 V c]
  exact (dat1 V c).arrAt_eq_of_cover 2 _ (fun t _ => final_flushed1_2 V c t) (final_cover1_2 c)

end Region1

/-! ## Region 1's entry arrays -/

variable (m : (ℓ : Loc nD τ sig) → Buf (Elt F) ℓ)

/-- At region 1's entry the first input holds the transpose of what region 0 left in its descriptor array:
    the host operation between the regions wrote it so. -/
theorem final_entry_v1 (c : Dev nD) :
    V3 m c main_v1 = transpose S4x64 [1, 0] (W2 m c (Proc.devRef .tc main_v0)) transposes_S64x4_S4x64_1_0 := by
  show StableHlo.after hostOps1 (W2 m c) (Proc.devRef .tc main_v1) = _
  after_results

/-- The weight argument reaches region 1 as launched: the host operation writes another buffer, and it is no
    array of region 0. -/
theorem final_entry_arg1 (c : Dev nD) : V3 m c main_arg1 = m ((c : Thread nD τ).loc main_arg1) := by
  show StableHlo.after hostOps1 (W2 m c) (Proc.devRef .tc main_arg1) = _
  after_results
  unfold W2
  rw [Pipeline.withArrays_of_ne spec0 c _ _ main_arg1 (by decide)]

/-- Region 0's descriptor array at its exit is what its pipeline leaves there. -/
theorem final_exit0_v0 (c : Dev nD) : W2 m c (Proc.devRef .tc main_v0) = (dat0 (V1 m) c).arrAt 1 cfg0.N := by
  unfold W2
  exact Pipeline.withArrays_arr spec0 launch0.win.arr_inj c _ _ 1

theorem final_v2 (c : Dev nD) :
    (dat1 (V3 m) c).arrAt 2 cfg1.N = kOut (F := F) (m ((c : Thread nD τ).loc main_arg0)) (m ((c : Thread nD τ).loc main_arg1)) := by
  rw [final_arr1_2, final_entry_v1, final_entry_arg1, final_exit0_v0, arr0_final]
  rfl

end Cert.KernelIdeal.Frame

end
-- ==== Proof.Spec.Defs.lean ====
/-
  The two programs' results as plain sums over the extended reals, index by index, over the input X read
  as a function of its five coordinates (batch n, channel c, depth d, row h, column w) and the weight W
  of (channel c, feature m).

  Both compute, per (n, c), a descriptor and then its product with W summed over the channels. The
  descriptor is the mean over the reflect-padded 130 × 130 plane of the depth-mean of the instance-
  normalized X. The kernel gets there from three running sums (of X over depth; of X and of X² over
  depth and the plane): the variance as E[X²] − E[X]², the depth-mean of the normalized X as
  invstd · (depth-sum / 32 − mean), and the padded plane's sum as the plane's sum plus rows 1 and 126,
  columns 1 and 126 and the four corners where those cross. The reference follows the definitions:
  the variance as the mean of squared deviations, the depth-mean of (X − mean) · invstd, and the sum over
  the padded plane, whose entry (i, j) is the plane's entry at the reflected indices.
-/
import Idealize.ShloMosaic.PureOps.Ideal

noncomputable section

namespace Cert.Spec

open Idealize.ShloMosaic

/-- X by coordinates: batch, channel, depth, row, column. -/
abbrev Arr5 : Type := Fin 4 → Fin 64 → Fin 32 → Fin 128 → Fin 128 → EReal
/-- W by coordinates: channel, feature. -/
abbrev Arr2 : Type := Fin 64 → Fin 256 → EReal

/-- The number of entries per (n, c): 32 · 128 · 128 = 524288, as the float both programs divide by. -/
def cCount : EReal := Ideal.ofBits .f32 0x49000000#32
/-- The epsilon added to the variance. -/
def cEps : EReal := Ideal.ofBits .f32 0x3727C5AC#32
/-- The depth, 32. -/
def cDepth : EReal := Ideal.ofBits .f32 0x42000000#32
/-- The padded plane's size, 130 · 130 = 16900. -/
def cPlane : EReal := Ideal.ofBits .f32 0x46840800#32

/-- The sum of X over depth and the plane. -/
def total (x : Arr5) (n : Fin 4) (c : Fin 64) : EReal := ∑ d, ∑ h, ∑ w, x n c d h w
/-- The mean of X over depth and the plane. -/
def mean (x : Arr5) (n : Fin 4) (c : Fin 64) : EReal := Ideal.div (total x n c) cCount

/-! ## The kernel's arrangement -/
namespace K

/-- The sum of X² over depth and the plane. -/
def totalSq (x : Arr5) (n : Fin 4) (c : Fin 64) : EReal := ∑ d, ∑ h, ∑ w, x n c d h w * x n c d h w
/-- The variance as the mean square minus the squared mean. -/
def var (x : Arr5) (n : Fin 4) (c : Fin 64) : EReal := Ideal.div (totalSq x n c) cCount - mean x n c * mean x n c
def invStd (x : Arr5) (n : Fin 4) (c : Fin 64) : EReal := Ideal.rsqrt (var x n c + cEps)
/-- The sum of X over depth at a plane position. -/
def depthSum (x : Arr5) (n : Fin 4) (c : Fin 64) (h w : Fin 128) : EReal := ∑ d, x n c d h w
/-- The depth-mean of the normalized X, from the depth-sum. -/
def plane (x : Arr5) (n : Fin 4) (c : Fin 64) (h w : Fin 128) : EReal :=
  invStd x n c * (Ideal.div (depthSum x n c h w) cDepth - mean x n c)
/-- The reflect-padded plane's sum: the plane, rows 1 and 126, columns 1 and 126, and their four crossings. -/
def padSum (f : Fin 128 → Fin 128 → EReal) : EReal :=
  (∑ h, ∑ w, f h w) + (∑ w, f 1 w) + (∑ w, f 126 w) + (∑ h, f h 1) + (∑ h, f h 126)
    + f 1 1 + f 1 126 + f 126 1 + f 126 126
def desc (x : Arr5) (n : Fin 4) (c : Fin 64) : EReal := Ideal.div (padSum (plane x n c)) cPlane
def out (x : Arr5) (w : Arr2) (n : Fin 4) (m : Fin 256) : EReal := ∑ c, desc x n c * w c m

end K

/-! ## The reference's arrangement -/
namespace R

/-- The variance as the mean of the squared deviations. -/
def var (x : Arr5) (n : Fin 4) (c : Fin 64) : EReal :=
  Ideal.div (∑ d, ∑ h, ∑ w, (x n c d h w - mean x n c) * (x n c d h w - mean x n c)) cCount
def invStd (x : Arr5) (n : Fin 4) (c : Fin 64) : EReal := Ideal.rsqrt (var x n c + cEps)
/-- The depth-mean of the normalized X, term by term. -/
def plane (x : Arr5) (n : Fin 4) (c : Fin 64) (h w : Fin 128) : EReal :=
  Ideal.div (∑ d, (x n c d h w - mean x n c) * invStd x n c) cDepth
/-- Reflection of a padded index into the plane: 0 ↦ 1, k ↦ k − 1 for 1 ≤ k ≤ 128, 129 ↦ 126. -/
def refl (i : Fin 130) : Fin 128 :=
  if h0 : i.val = 0 then 1 else if h1 : i.val = 129 then 126 else ⟨i.val - 1, by omega⟩
/-- The reflect-padded plane's sum, entry by entry. -/
def padSum (f : Fin 128 → Fin 128 → EReal) : EReal := ∑ i : Fin 130, ∑ j : Fin 130, f (refl i) (refl j)
def desc (x : Arr5) (n : Fin 4) (c : Fin 64) : EReal := Ideal.div (padSum (plane x n c)) cPlane
def out (x : Arr5) (w : Arr2) (n : Fin 4) (m : Fin 256) : EReal := ∑ c, desc x n c * w c m

end R

end Cert.Spec

end
-- ==== Proof.KernelValue.Acc.lean ====
/-
  The statistics kernel's three running sums, completed over a channel tile's eight depth steps, as plain sums on the
  extended reals. Each step adds the step's block summed over its four depth slices (for the plane-wise sum), that
  summed over columns and then rows (for the total), and the block's squares summed likewise; the sums start at zero.
  Eight steps of four slices are the 32 depth slices, and sums over finite index sets may be taken in any order, so at
  channel 8·tile + k the three are the depth-sum at a plane position, the total over depth and the plane, and the
  total of squares.
-/
import proofs.«100511_j11888469476170_1_alg».proof.Proof.KernelIdealFrame.Fun
import proofs.«100511_j11888469476170_1_alg».proof.Proof.Spec.Defs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Value

open Idealize.ShloMosaic Idealize.ShloMosaic.ValueIdx Cert.KernelIdeal Cert.KernelIdeal.Gen Cert.KernelIdeal.Frame

/-- X by coordinates. -/
abbrev coords5 (X : Vec Ideal S4x64x32x128x128 .f32) : Cert.Spec.Arr5 := fun n c d h w => X (ix5 n c d h w)

/-- Channel 8·ci + cl. -/
abbrev chan (ci cl : Fin 8) : Fin 64 := ⟨8 * ci.val + cl.val, by have := ci.isLt; have := cl.isLt; omega⟩

/-! ## The three reductions read at an index -/

/-- A block summed over its depth axis, at (n, c, h, w): the sum of its four depth slices there. -/
private theorem depthRed_apply (z : Vec Ideal S4x8x4x128x128 .f32) (hr : S4x8x4x128x128.Reduces [2] S4x8x128x128)
    (hφ : FKind.Formats .f32) (hacc : (0x00000000#32 : BitVec 32) = FKind.add.neutral .f32 hφ)
    (n : Fin 4) (cl : Fin 8) (h w : Fin 128) :
    multiReduction (F := Ideal) .add [2] S4x8x128x128 z 0x00000000#32 hr hφ hacc (ix4 n cl h w)
      = ∑ j : Fin 4, z (ix5 n cl j h w) := by
  refine (Ideal.multiReduction_add_single _ _ _ _ _ _).trans ?_
  refine Finset.sum_congr rfl fun j _ => ?_
  congr 1
  funext a
  match a with
  | ⟨0, _⟩ => rfl
  | ⟨1, _⟩ => rfl
  | ⟨2, _⟩ => rfl
  | ⟨3, _⟩ => rfl
  | ⟨4, _⟩ => rfl

/-- A plane array summed over its columns, at (n, c, h). -/
private theorem colRed_apply (y : Vec Ideal S4x8x128x128 .f32) (hr : S4x8x128x128.Reduces [3] S4x8x128)
    (hφ : FKind.Formats .f32) (hacc : (0x00000000#32 : BitVec 32) = FKind.add.neutral .f32 hφ)
    (n : Fin 4) (cl : Fin 8) (h : Fin 128) :
    multiReduction (F := Ideal) .add [3] S4x8x128 y 0x00000000#32 hr hφ hacc (ix3 n cl h)
      = ∑ w : Fin 128, y (ix4 n cl h w) := by
  refine (Ideal.multiReduction_add_single _ _ _ _ _ _).trans ?_
  refine Finset.sum_congr rfl fun w _ => ?_
  congr 1
  funext a
  match a with
  | ⟨0, _⟩ => rfl
  | ⟨1, _⟩ => rfl
  | ⟨2, _⟩ => rfl
  | ⟨3, _⟩ => rfl

/-- An array of row sums summed over the rows, at (n, c). -/
private theorem rowRed_apply (y : Vec Ideal S4x8x128 .f32) (hr : S4x8x128.Reduces [2] S4x8)
    (hφ : FKind.Formats .f32) (hacc : (0x00000000#32 : BitVec 32) = FKind.add.neutral .f32 hφ)
    (n : Fin 4) (cl : Fin 8) :
    multiReduction (F := Ideal) .add [2] S4x8 y 0x00000000#32 hr hφ hacc (ix2 n cl)
      = ∑ h : Fin 128, y (ix3 n cl h) := by
  refine (Ideal.multiReduction_add_single _ _ _ _ _ _).trans ?_
  refine Finset.sum_congr rfl fun h _ => ?_
  congr 1
  funext a
  match a with
  | ⟨0, _⟩ => rfl
  | ⟨1, _⟩ => rfl
  | ⟨2, _⟩ => rfl

/-- Sums over rows, columns and four depth slices, with the depth moved outermost. -/
private theorem sum_plane_depth (f : Fin 4 → Fin 128 → Fin 128 → EReal) :
    ∑ h : Fin 128, ∑ w : Fin 128, ∑ j : Fin 4, f j h w = ∑ j : Fin 4, ∑ h : Fin 128, ∑ w : Fin 128, f j h w := by
  calc ∑ h : Fin 128, ∑ w : Fin 128, ∑ j : Fin 4, f j h w
      = ∑ h : Fin 128, ∑ j : Fin 4, ∑ w : Fin 128, f j h w :=
        Finset.sum_congr rfl fun h _ => Finset.sum_comm
    _ = ∑ j : Fin 4, ∑ h : Fin 128, ∑ w : Fin 128, f j h w := Finset.sum_comm

/-! ## One depth step -/

private theorem accStep_fst (x : Vec Ideal S4x8x4x128x128 .f32) (a : Acc Ideal) (n : Fin 4) (cl : Fin 8) (h w : Fin 128) :
    (accStep x a).1 (ix4 n cl h w) = a.1 (ix4 n cl h w) + ∑ j : Fin 4, x (ix5 n cl j h w) := by
  show k0_pay16 x a.1 (ix4 n cl h w) = _
  unfold k0_pay16 k0_pay15
  rw [shapeCast_self, addf_apply]
  exact congrArg (a.1 (ix4 n cl h w) + ·) (depthRed_apply x _ _ _ n cl h w)

private theorem accStep_snd (x : Vec Ideal S4x8x4x128x128 .f32) (a : Acc Ideal) (n : Fin 4) (cl : Fin 8) :
    (accStep x a).2.1 (ix2 n cl)
      = a.2.1 (ix2 n cl) + ∑ j : Fin 4, ∑ h : Fin 128, ∑ w : Fin 128, x (ix5 n cl j h w) := by
  show k0_pay17 x a.2.1 (ix2 n cl) = _
  unfold k0_pay17 k0_pay15
  rw [shapeCast_self, addf_apply]
  refine congrArg (a.2.1 (ix2 n cl) + ·) ?_
  refine (rowRed_apply _ _ _ _ n cl).trans ?_
  refine Eq.trans ?_ (sum_plane_depth fun j h w => x (ix5 n cl j h w))
  refine Finset.sum_congr rfl fun h _ => ?_
  refine (colRed_apply _ _ _ _ n cl h).trans ?_
  refine Finset.sum_congr rfl fun w _ => ?_
  exact depthRed_apply x _ _ _ n cl h w

private theorem accStep_trd (x : Vec Ideal S4x8x4x128x128 .f32) (a : Acc Ideal) (n : Fin 4) (cl : Fin 8) :
    (accStep x a).2.2 (ix2 n cl)
      = a.2.2 (ix2 n cl)
        + ∑ j : Fin 4, ∑ h : Fin 128, ∑ w : Fin 128, x (ix5 n cl j h w) * x (ix5 n cl j h w) := by
  show k0_pay18 x a.2.2 (ix2 n cl) = _
  unfold k0_pay18
  rw [shapeCast_self, addf_apply]
  refine congrArg (a.2.2 (ix2 n cl) + ·) ?_
  refine (rowRed_apply _ _ _ _ n cl).trans ?_
  refine Eq.trans ?_ (sum_plane_depth fun j h w => x (ix5 n cl j h w) * x (ix5 n cl j h w))
  refine Finset.sum_congr rfl fun h _ => ?_
  refine (colRed_apply _ _ _ _ n cl h).trans ?_
  refine Finset.sum_congr rfl fun w _ => ?_
  exact depthRed_apply (mulf (F := Ideal) (s := S4x8x4x128x128) (φ := .f32) x x) _ _ _ n cl h w

/-- The starting sums are zero at every index. -/
private theorem accZero_fst (j : S4x8x128x128.Idx) : (accZero (F := Ideal)).1 j = 0 := by
  show k0_pay12 (F := Ideal) j = 0
  unfold k0_pay12
  rw [shapeCast_self, broadcast_apply]
  exact Ideal.ofBits_zero_f32

private theorem accZero_snd (j : S4x8.Idx) : (accZero (F := Ideal)).2.1 j = 0 := by
  show k0_pay13 (F := Ideal) j = 0
  unfold k0_pay13
  rw [shapeCast_self, broadcast_apply]
  exact Ideal.ofBits_zero_f32

private theorem accZero_trd (j : S4x8.Idx) : (accZero (F := Ideal)).2.2 j = 0 := by
  show k0_pay14 (F := Ideal) j = 0
  unfold k0_pay14
  rw [shapeCast_self, broadcast_apply]
  exact Ideal.ofBits_zero_f32

/-! ## The eight steps added up -/

/-- X along the depth axis at fixed other coordinates, continued by zero past the last slice. -/
private def depthAt (X : Vec Ideal S4x64x32x128x128 .f32) (n : Fin 4) (c : Fin 64) (h w : Fin 128) (d : ℕ) : EReal :=
  if hd : d < 32 then X (ix5 n c ⟨d, hd⟩ h w) else 0

/-- Depth step k's block holds, in its slice j, slice 4·k + j of X, at channel 8·ci + cl. -/
private theorem tileBlock_apply (X : Vec Ideal S4x64x32x128x128 .f32) (ci k : Fin 8) (n : Fin 4) (cl : Fin 8) (j : Fin 4)
    (h w : Fin 128) :
    tileBlock X ci k (ix5 n cl j h w) = depthAt X n (chan ci cl) h w (4 * k.val + j.val) := by
  have hd : 4 * k.val + j.val < 32 := by have := k.isLt; have := j.isLt; omega
  rw [depthAt, dif_pos hd]
  rfl

/-- Four more consecutive terms appended to a sum over an initial segment of the naturals. -/
private theorem sum_range_four {M : Type} [AddCommMonoid M] (g : ℕ → M) (m : ℕ) :
    ∑ d ∈ Finset.range (4 * m), g d + ∑ j : Fin 4, g (4 * m + j.val) = ∑ d ∈ Finset.range (4 * (m + 1)), g d := by
  have e : 4 * (m + 1) = 4 * m + 1 + 1 + 1 + 1 := by ring
  rw [e]
  simp only [Finset.sum_range_succ, Fin.sum_univ_four]
  simp [add_assoc]

private theorem step_fst (X : Vec Ideal S4x64x32x128x128 .f32) (ci : Fin 8) (n : Fin 4) (cl : Fin 8) (h w : Fin 128)
    (k : ℕ) (hk : k < 8) (a : Acc Ideal)
    (ha : a.1 (ix4 n cl h w) = ∑ d ∈ Finset.range (4 * k), depthAt X n (chan ci cl) h w d) :
    (accStep (tileBlock X ci ⟨k, hk⟩) a).1 (ix4 n cl h w)
      = ∑ d ∈ Finset.range (4 * (k + 1)), depthAt X n (chan ci cl) h w d := by
  rw [accStep_fst, ha]
  simp only [tileBlock_apply]
  exact sum_range_four (depthAt X n (chan ci cl) h w) k

private theorem accUpTo_fst (X : Vec Ideal S4x64x32x128x128 .f32) (ci : Fin 8) (n : Fin 4) (cl : Fin 8) (h w : Fin 128) :
    ∀ (k : ℕ) (hk : k < 8), (accUpTo X ci k hk).1 (ix4 n cl h w)
      = ∑ d ∈ Finset.range (4 * (k + 1)), depthAt X n (chan ci cl) h w d
  | 0, hk => step_fst X ci n cl h w 0 hk accZero ((accZero_fst _).trans (by simp))
  | k + 1, hk => step_fst X ci n cl h w (k + 1) hk _ (accUpTo_fst X ci n cl h w k _)

theorem accTile_depthSum (X : Vec Ideal S4x64x32x128x128 .f32) (ci : Fin 8) (n : Fin 4) (cl : Fin 8) (h w : Fin 128) :
    (accTile (F := Ideal) X ci).1 (ix4 n cl h w) = Cert.Spec.K.depthSum (coords5 X) n (chan ci cl) h w := by
  unfold accTile
  rw [accUpTo_fst X ci n cl h w 7 _]
  show ∑ d ∈ Finset.range 32, _ = ∑ d : Fin 32, X (ix5 n (chan ci cl) d h w)
  rw [Finset.sum_range]
  refine Finset.sum_congr rfl fun d _ => ?_
  rw [depthAt, dif_pos d.isLt]

private theorem step_snd (X : Vec Ideal S4x64x32x128x128 .f32) (ci : Fin 8) (n : Fin 4) (cl : Fin 8)
    (k : ℕ) (hk : k < 8) (a : Acc Ideal)
    (ha : a.2.1 (ix2 n cl)
      = ∑ d ∈ Finset.range (4 * k), ∑ h : Fin 128, ∑ w : Fin 128, depthAt X n (chan ci cl) h w d) :
    (accStep (tileBlock X ci ⟨k, hk⟩) a).2.1 (ix2 n cl)
      = ∑ d ∈ Finset.range (4 * (k + 1)), ∑ h : Fin 128, ∑ w : Fin 128, depthAt X n (chan ci cl) h w d := by
  rw [accStep_snd, ha]
  simp only [tileBlock_apply]
  exact sum_range_four (fun d => ∑ h : Fin 128, ∑ w : Fin 128, depthAt X n (chan ci cl) h w d) k

private theorem accUpTo_snd (X : Vec Ideal S4x64x32x128x128 .f32) (ci : Fin 8) (n : Fin 4) (cl : Fin 8) :
    ∀ (k : ℕ) (hk : k < 8), (accUpTo X ci k hk).2.1 (ix2 n cl)
      = ∑ d ∈ Finset.range (4 * (k + 1)), ∑ h : Fin 128, ∑ w : Fin 128, depthAt X n (chan ci cl) h w d
  | 0, hk => step_snd X ci n cl 0 hk accZero ((accZero_snd _).trans (by simp))
  | k + 1, hk => step_snd X ci n cl (k + 1) hk _ (accUpTo_snd X ci n cl k _)

theorem accTile_total (X : Vec Ideal S4x64x32x128x128 .f32) (ci : Fin 8) (n : Fin 4) (cl : Fin 8) :
    (accTile (F := Ideal) X ci).2.1 (ix2 n cl) = Cert.Spec.total (coords5 X) n (chan ci cl) := by
  unfold accTile
  rw [accUpTo_snd X ci n cl 7 _]
  show ∑ d ∈ Finset.range 32, _ = ∑ d : Fin 32, ∑ h : Fin 128, ∑ w : Fin 128, X (ix5 n (chan ci cl) d h w)
  rw [Finset.sum_range]
  refine Finset.sum_congr rfl fun d _ => ?_
  refine Finset.sum_congr rfl fun h _ => ?_
  refine Finset.sum_congr rfl fun w _ => ?_
  rw [depthAt, dif_pos d.isLt]

private theorem step_trd (X : Vec Ideal S4x64x32x128x128 .f32) (ci : Fin 8) (n : Fin 4) (cl : Fin 8)
    (k : ℕ) (hk : k < 8) (a : Acc Ideal)
    (ha : a.2.2 (ix2 n cl)
      = ∑ d ∈ Finset.range (4 * k), ∑ h : Fin 128, ∑ w : Fin 128,
          depthAt X n (chan ci cl) h w d * depthAt X n (chan ci cl) h w d) :
    (accStep (tileBlock X ci ⟨k, hk⟩) a).2.2 (ix2 n cl)
      = ∑ d ∈ Finset.range (4 * (k + 1)), ∑ h : Fin 128, ∑ w : Fin 128,
          depthAt X n (chan ci cl) h w d * depthAt X n (chan ci cl) h w d := by
  rw [accStep_trd, ha]
  simp only [tileBlock_apply]
  exact sum_range_four
    (fun d => ∑ h : Fin 128, ∑ w : Fin 128, depthAt X n (chan ci cl) h w d * depthAt X n (chan ci cl) h w d) k

private theorem accUpTo_trd (X : Vec Ideal S4x64x32x128x128 .f32) (ci : Fin 8) (n : Fin 4) (cl : Fin 8) :
    ∀ (k : ℕ) (hk : k < 8), (accUpTo X ci k hk).2.2 (ix2 n cl)
      = ∑ d ∈ Finset.range (4 * (k + 1)), ∑ h : Fin 128, ∑ w : Fin 128,
          depthAt X n (chan ci cl) h w d * depthAt X n (chan ci cl) h w d
  | 0, hk => step_trd X ci n cl 0 hk accZero ((accZero_trd _).trans (by simp))
  | k + 1, hk => step_trd X ci n cl (k + 1) hk _ (accUpTo_trd X ci n cl k _)

theorem accTile_totalSq (X : Vec Ideal S4x64x32x128x128 .f32) (ci : Fin 8) (n : Fin 4) (cl : Fin 8) :
    (accTile (F := Ideal) X ci).2.2 (ix2 n cl) = Cert.Spec.K.totalSq (coords5 X) n (chan ci cl) := by
  unfold accTile
  rw [accUpTo_trd X ci n cl 7 _]
  show ∑ d ∈ Finset.range 32, _
    = ∑ d : Fin 32, ∑ h : Fin 128, ∑ w : Fin 128, X (ix5 n (chan ci cl) d h w) * X (ix5 n (chan ci cl) d h w)
  rw [Finset.sum_range]
  refine Finset.sum_congr rfl fun d _ => ?_
  refine Finset.sum_congr rfl fun h _ => ?_
  refine Finset.sum_congr rfl fun w _ => ?_
  rw [depthAt, dif_pos d.isLt]

end Cert.KernelIdeal.Value

end
-- ==== Proof.KernelValue.lean ====
/-
  The kernel program's result read at (n, k). From a channel tile's completed sums the kernel forms, per (n, c), the
  mean and the mean square (divisions by 524288), the variance as their difference of squares, its inverse square root
  after the epsilon, and the plane invstd · (depth-sum / 32 − mean); it then adds the plane's total, the sums of rows
  1 and 126 and of columns 1 and 126, and the four entries where those cross, divides by 16900 and transposes.
  Entry by entry that is the kernel's arrangement of the descriptor; the second kernel's matrix product into a zero
  accumulator is the sum over the 64 channels of descriptor times weight.
-/
import proofs.«100511_j11888469476170_1_alg».proof.Proof.KernelValue.Acc

noncomputable section

namespace Cert.KernelIdeal.Value

open Idealize.ShloMosaic Idealize.ShloMosaic.ValueIdx Cert.KernelIdeal Cert.KernelIdeal.Gen Cert.KernelIdeal.Frame

/-! # The kernel program's result, index by index

At the extended reals every operation is exact, so the result at (n, k) is a closed expression in the entries
of X and W. The statistics kernel's last depth step turns the three completed sums of a channel tile into the
normalized depth-mean plane, adds nine pieces of it (the plane, rows 1 and 126, columns 1 and 126 and their
four crossings: the reflect-padded plane's sum), divides by the padded plane's size and stores the block
transposed; the second kernel multiplies the transposed array with W. Each layer is read at an index given by
its coordinates, innermost first. -/

/-! ## Layout operations read at coordinates

The statistics kernel keeps per-(batch, channel) quantities as [a, b] arrays, lifts them to [a, b, 1, 1]
to combine them with a plane, and cuts single rows, columns and entries out of a plane. Each lemma here
reads one such operation at an index given by its coordinates. -/

section Layout
variable {α : Type}

/-- An [a, b] array cast to [a, b, 1, 1] reads, at (i, j, u, v), the operand at (i, j). -/
theorem shapeCast_ab_ab11_apply {a b : ℕ} (x : (⟨2, ![a, b]⟩ : Shape).Idx → α)
    (h : (⟨2, ![a, b]⟩ : Shape).ShapeCasts ⟨4, ![a, b, 1, 1]⟩) (i : Fin a) (j : Fin b) (u v : Fin 1) :
    shapeCast ⟨4, ![a, b, 1, 1]⟩ x h (ix4 i j u v) = x (ix2 i j) :=
  shapeCast_apply x h _ _ (by
    have hu : u.val = 0 := by omega
    have hv : v.val = 0 := by omega
    rw [Shape.rowMajor_val_four, Shape.rowMajor_val_two]
    show i.val * b + j.val = ((i.val * b + j.val) * 1 + u.val) * 1 + v.val
    rw [hu, hv]; omega)

/-- An [a, b, 1, 1] array cast to [a, b] reads, at (i, j), the operand at (i, j, 0, 0). -/
theorem shapeCast_ab11_ab_apply {a b : ℕ} (x : (⟨4, ![a, b, 1, 1]⟩ : Shape).Idx → α)
    (h : (⟨4, ![a, b, 1, 1]⟩ : Shape).ShapeCasts ⟨2, ![a, b]⟩) (i : Fin a) (j : Fin b) :
    shapeCast ⟨2, ![a, b]⟩ x h (ix2 i j) = x (ix4 i j (0 : Fin 1) (0 : Fin 1)) :=
  shapeCast_apply x h _ _ (by
    rw [Shape.rowMajor_val_four, Shape.rowMajor_val_two]
    show ((i.val * b + j.val) * 1 + 0) * 1 + 0 = i.val * b + j.val
    omega)

/-- An [a, b, 1, d] array cast to [a, b, d] reads, at (i, j, w), the operand at (i, j, 0, w). -/
theorem shapeCast_ab1d_abd_apply {a b d : ℕ} (x : (⟨4, ![a, b, 1, d]⟩ : Shape).Idx → α)
    (h : (⟨4, ![a, b, 1, d]⟩ : Shape).ShapeCasts ⟨3, ![a, b, d]⟩) (i : Fin a) (j : Fin b) (w : Fin d) :
    shapeCast ⟨3, ![a, b, d]⟩ x h (ix3 i j w) = x (ix4 i j (0 : Fin 1) w) :=
  shapeCast_apply x h _ _ (by
    rw [Shape.rowMajor_val_four, Shape.rowMajor_val_three]
    show ((i.val * b + j.val) * 1 + 0) * d + w.val = (i.val * b + j.val) * d + w.val
    rw [Nat.mul_one, Nat.add_zero])

/-- An [a, b, c, 1] array cast to [a, b, c] reads, at (i, j, r), the operand at (i, j, r, 0). -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (r : Fin c) :
    shapeCast ⟨3, ![a, b, c]⟩ x h (ix3 i j r) = x (ix4 i j r (0 : Fin 1)) :=
  shapeCast_apply x h _ _ (by
    rw [Shape.rowMajor_val_four, Shape.rowMajor_val_three]
    show ((i.val * b + j.val) * c + r.val) * 1 + 0 = (i.val * b + j.val) * c + r.val
    omega)

/-- An [a, b, 1, 1] array broadcast to [a, b, c, d] reads, at (i, j, r, w), the operand at (i, j, 0, 0). -/
theorem broadcastTo_ab11_abcd_apply {a b c d : ℕ} (x : (⟨4, ![a, b, 1, 1]⟩ : Shape).Idx → α)
    (h : (⟨4, ![a, b, 1, 1]⟩ : Shape).Broadcasts ⟨4, ![a, b, c, d]⟩) (i : Fin a) (j : Fin b) (r : Fin c) (w : Fin d) :
    broadcastTo ⟨4, ![a, b, c, d]⟩ x h (ix4 i j r w) = x (ix4 i j (0 : Fin 1) (0 : Fin 1)) := by
  refine broadcastTo_apply x h (ix4 i j r w) (ix4 i j (0 : Fin 1) (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl
  | ⟨3, _⟩ => rfl

/-- A rank-4 array cut on its last two axes from (o2, o3) reads, at (i, j, p, q), the source at (i, j, k2, k3)
    with k2 = o2 + p and k3 = o3 + q. -/
theorem slice4_axis23_apply {n0 n1 n2 n3 m2 m3 : ℕ} (o2 o3 : ℕ) (X : (⟨4, ![n0, n1, n2, n3]⟩ : Shape).Idx → α)
    (h : (⟨4, ![n0, n1, n2, n3]⟩ : Shape).Slices ![0, 0, o2, o3] ⟨4, ![n0, n1, m2, m3]⟩)
    (i : Fin n0) (j : Fin n1) (p : Fin m2) (q : Fin m3) (k2 : Fin n2) (k3 : Fin n3)
    (hk2 : k2.val = o2 + p.val) (hk3 : k3.val = o3 + q.val) :
    extractStridedSlice ⟨4, ![n0, n1, m2, m3]⟩ ![0, 0, o2, o3] X h (ix4 i j p q) = X (ix4 i j k2 k3) :=
  extractStridedSlice_apply _ _ _ _ _ (fun ax => by
    match ax with
    | ⟨0, _⟩ => exact (Nat.zero_add _).symm
    | ⟨1, _⟩ => exact (Nat.zero_add _).symm
    | ⟨2, _⟩ => exact hk2
    | ⟨3, _⟩ => exact hk3)

end Layout

/-! ## Lane sums read at coordinates -/

section Sums

/-- The sum over the last axis of a rank-4 array, read at (i, j, r): the sum over the last coordinate. -/
theorem sumAxis3_apply {a b c d : ℕ} (src : FVec Ideal ⟨4, ![a, b, c, d]⟩ .f32)
    (h : (⟨4, ![a, b, c, d]⟩ : Shape).Reduces [3] ⟨3, ![a, b, c]⟩) (hφ : FKind.Formats .f32)
    (hacc : (0x00000000#32 : BitVec 32) = FKind.add.neutral .f32 hφ) (i : Fin a) (j : Fin b) (r : Fin c) :
    multiReduction (F := Ideal) .add [3] ⟨3, ![a, b, c]⟩ src 0x00000000#32 h hφ hacc (ix3 i j r)
      = ∑ w : Fin d, src (ix4 i j r w) := by
  refine (Ideal.multiReduction_add_single src _ h hφ hacc (ix3 i j r)).trans ?_
  refine Finset.sum_congr rfl fun w _ => congrArg src ?_
  funext ax
  match ax with
  | ⟨0, _⟩ => exact Fin.ext rfl
  | ⟨1, _⟩ => exact Fin.ext rfl
  | ⟨2, _⟩ => exact Fin.ext rfl
  | ⟨3, _⟩ => exact Fin.ext rfl

/-- The sum over the last axis of a rank-3 array, read at (i, j). -/
theorem sumAxis2_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction (F := Ideal) .add [2] ⟨2, ![a, b]⟩ src 0x00000000#32 h hφ hacc (ix2 i j)
      = ∑ r : Fin c, src (ix3 i j r) := by
  refine (Ideal.multiReduction_add_single src _ h hφ hacc (ix2 i j)).trans ?_
  refine Finset.sum_congr rfl fun r _ => congrArg src ?_
  funext ax
  match ax with
  | ⟨0, _⟩ => exact Fin.ext rfl
  | ⟨1, _⟩ => exact Fin.ext rfl
  | ⟨2, _⟩ => exact Fin.ext rfl

end Sums

/-! ## The normalized depth-mean plane, from the running sums -/

/-- The normalized depth-mean at one plane position, from the total `s`, the total of squares `q` and the
    depth sum `t` at that position: (t / depth − mean) / sqrt(var + eps) with mean = s / count and
    var = q / count − mean². -/
def planeVal (s q t : EReal) : EReal :=
  Ideal.rsqrt (Ideal.div q Cert.Spec.cCount - Ideal.div s Cert.Spec.cCount * Ideal.div s Cert.Spec.cCount + Cert.Spec.cEps)
    * (Ideal.div t Cert.Spec.cDepth - Ideal.div s Cert.Spec.cCount)

/-- The reciprocal square root of a vector reads elementwise. -/
theorem rsqrt_apply {s : Shape} {φ : FTy} (a : FVec Ideal s φ) (i : s.Idx) : rsqrt a i = Ideal.rsqrt (a i) := rfl

/-- A per-(batch, channel) quantity lifted to [4, 8, 1, 1] and spread over the plane reads, at (n, c, h, w),
    the quantity at (n, c). -/
theorem keep_apply (v : FVec Ideal S4x8 .f32) (n : Fin 4) (cl : Fin 8) (h w : Fin 128) :
    broadcastTo S4x8x128x128 (shapeCast S4x8x1x1 v shapeCasts_S4x8_S4x8x1x1) broadcasts_S4x8x1x1_S4x8x128x128
      (ix4 n cl h w) = v (ix2 n cl) :=
  (broadcastTo_ab11_abcd_apply _ _ n cl h w).trans (shapeCast_ab_ab11_apply v _ n cl 0 0)

/-- The plane the descriptor is computed from, read at (n, c, h, w). -/
theorem pay2_apply (s q : Vec Ideal S4x8 .f32) (p : Vec Ideal S4x8x128x128 .f32) (n : Fin 4) (cl : Fin 8) (h w : Fin 128) :
    k0_pay2 (F := Ideal) s q p (ix4 n cl h w) = planeVal (s (ix2 n cl)) (q (ix2 n cl)) (p (ix4 n cl h w)) := by
  unfold k0_pay2
  simp only [mulf_apply, subf_apply, divf_apply, addf_apply, broadcast_apply]
  rw [keep_apply, keep_apply]
  simp only [rsqrt_apply, addf_apply, subf_apply, mulf_apply, divf_apply, broadcast_apply]
  unfold planeVal Cert.Spec.cCount Cert.Spec.cEps Cert.Spec.cDepth
  rfl

/-! ## The nine pieces of the padded plane's sum

Each is a [4, 8] array computed from one plane `X` of shape [4, 8, 128, 128]: four single entries, the whole
plane's sum, two rows' sums and two columns' sums. -/

section Pieces
variable (n : Fin 4) (cl : Fin 8)

/-- One entry (k2, k3) of the plane, cut out as a [4, 8, 1, 1] block and flattened to [4, 8]. -/
theorem corner_apply (o2 o3 : ℕ) (X : FVec Ideal S4x8x128x128 .f32)
    (hs : S4x8x128x128.Slices ![0, 0, o2, o3] S4x8x1x1) (k2 k3 : Fin 128) (h2 : k2.val = o2) (h3 : k3.val = o3) :
    shapeCast S4x8 (extractStridedSlice S4x8x1x1 ![0, 0, o2, o3] X hs) shapeCasts_S4x8x1x1_S4x8 (ix2 n cl)
      = X (ix4 n cl k2 k3) :=
  (shapeCast_ab11_ab_apply _ _ n cl).trans (slice4_axis23_apply o2 o3 X hs n cl 0 0 k2 k3 h2 h3)

/-- Row r of the plane, summed over the columns. -/
theorem row_apply (o : ℕ) (X : FVec Ideal S4x8x128x128 .f32)
    (hs : S4x8x128x128.Slices ![0, 0, o, 0] S4x8x1x128) (r : Fin 128) (hr : r.val = o) (hφ : FKind.Formats .f32)
    (hacc : (0x00000000#32 : BitVec 32) = FKind.add.neutral .f32 hφ) :
    multiReduction (F := Ideal) .add [2] S4x8
        (shapeCast S4x8x128 (extractStridedSlice S4x8x1x128 ![0, 0, o, 0] X hs) shapeCasts_S4x8x1x128_S4x8x128)
        0x00000000#32 reduces_S4x8x128_S4x8 hφ hacc (ix2 n cl)
      = ∑ w : Fin 128, X (ix4 n cl r w) := by
  refine (sumAxis2_apply _ _ hφ hacc n cl).trans ?_
  refine Finset.sum_congr rfl fun w _ => ?_
  exact (shapeCast_ab1d_abd_apply _ _ n cl w).trans
    (slice4_axis23_apply o 0 X hs n cl 0 w r w hr (Nat.zero_add _).symm)

/-- Column c of the plane, summed over the rows. -/
theorem col_apply (o : ℕ) (X : FVec Ideal S4x8x128x128 .f32)
    (hs : S4x8x128x128.Slices ![0, 0, 0, o] S4x8x128x1) (c : Fin 128) (hc : c.val = o) (hφ : FKind.Formats .f32)
    (hacc : (0x00000000#32 : BitVec 32) = FKind.add.neutral .f32 hφ) :
    multiReduction (F := Ideal) .add [2] S4x8
        (shapeCast S4x8x128 (extractStridedSlice S4x8x128x1 ![0, 0, 0, o] X hs) shapeCasts_S4x8x128x1_S4x8x128)
        0x00000000#32 reduces_S4x8x128_S4x8 hφ hacc (ix2 n cl)
      = ∑ h : Fin 128, X (ix4 n cl h c) := by
  refine (sumAxis2_apply _ _ hφ hacc n cl).trans ?_
  refine Finset.sum_congr rfl fun h _ => ?_
  exact (shapeCast_abc1_abc_apply _ _ n cl h).trans
    (slice4_axis23_apply 0 o X hs n cl h 0 h c (Nat.zero_add _).symm hc)

/-- The whole plane summed: over the columns, then over the rows. -/
theorem total_apply (X : FVec Ideal S4x8x128x128 .f32) (hφ hφ' : FKind.Formats .f32)
    (hacc : (0x00000000#32 : BitVec 32) = FKind.add.neutral .f32 hφ)
    (hacc' : (0x00000000#32 : BitVec 32) = FKind.add.neutral .f32 hφ') :
    multiReduction (F := Ideal) .add [2] S4x8
        (multiReduction (F := Ideal) .add [3] S4x8x128 X 0x00000000#32 reduces_S4x8x128x128_S4x8x128 hφ hacc)
        0x00000000#32 reduces_S4x8x128_S4x8 hφ' hacc' (ix2 n cl)
      = ∑ h : Fin 128, ∑ w : Fin 128, X (ix4 n cl h w) := by
  refine (sumAxis2_apply _ _ hφ' hacc' n cl).trans ?_
  refine Finset.sum_congr rfl fun h _ => ?_
  exact sumAxis3_apply X _ hφ hacc n cl h

variable (s q : Vec Ideal S4x8 .f32) (p : Vec Ideal S4x8x128x128 .f32)

theorem pay3_apply : k0_pay3 (F := Ideal) s q p (ix2 n cl) = k0_pay2 (F := Ideal) s q p (ix4 n cl 1 1) := by
  unfold k0_pay3; exact corner_apply n cl 1 1 _ _ 1 1 rfl rfl
theorem pay4_apply : k0_pay4 (F := Ideal) s q p (ix2 n cl) = k0_pay2 (F := Ideal) s q p (ix4 n cl 1 126) := by
  unfold k0_pay4; exact corner_apply n cl 1 126 _ _ 1 126 rfl rfl
theorem pay5_apply : k0_pay5 (F := Ideal) s q p (ix2 n cl) = k0_pay2 (F := Ideal) s q p (ix4 n cl 126 1) := by
  unfold k0_pay5; exact corner_apply n cl 126 1 _ _ 126 1 rfl rfl
theorem pay6_apply : k0_pay6 (F := Ideal) s q p (ix2 n cl) = k0_pay2 (F := Ideal) s q p (ix4 n cl 126 126) := by
  unfold k0_pay6; exact corner_apply n cl 126 126 _ _ 126 126 rfl rfl
theorem pay7_apply : k0_pay7 (F := Ideal) s q p (ix2 n cl)
    = ∑ h : Fin 128, ∑ w : Fin 128, k0_pay2 (F := Ideal) s q p (ix4 n cl h w) := by
  unfold k0_pay7; exact total_apply n cl _ _ _ _ _
theorem pay8_apply : k0_pay8 (F := Ideal) s q p (ix2 n cl) = ∑ w : Fin 128, k0_pay2 (F := Ideal) s q p (ix4 n cl 1 w) := by
  unfold k0_pay8; exact row_apply n cl 1 _ _ 1 rfl _ _
theorem pay9_apply : k0_pay9 (F := Ideal) s q p (ix2 n cl) = ∑ w : Fin 128, k0_pay2 (F := Ideal) s q p (ix4 n cl 126 w) := by
  unfold k0_pay9; exact row_apply n cl 126 _ _ 126 rfl _ _
theorem pay10_apply : k0_pay10 (F := Ideal) s q p (ix2 n cl) = ∑ h : Fin 128, k0_pay2 (F := Ideal) s q p (ix4 n cl h 1) := by
  unfold k0_pay10; exact col_apply n cl 1 _ _ 1 rfl _ _
theorem pay11_apply : k0_pay11 (F := Ideal) s q p (ix2 n cl) = ∑ h : Fin 128, k0_pay2 (F := Ideal) s q p (ix4 n cl h 126) := by
  unfold k0_pay11; exact col_apply n cl 126 _ _ 126 rfl _ _

end Pieces

/-! ## The descriptor block of a channel tile's completed sums -/

/-- The descriptor block at (channel c, batch n): the padded plane's sum of the normalized depth-mean, over
    the padded plane's size. The nine pieces are added in the order the padded sum is written in. -/
theorem accDesc_apply (a : Acc Ideal) (n : Fin 4) (cl : Fin 8) :
    accDesc (F := Ideal) a (ix2 cl n)
      = Ideal.div (Cert.Spec.K.padSum fun h w =>
          planeVal (a.2.1 (ix2 n cl)) (a.2.2 (ix2 n cl)) (a.1 (ix4 n cl h w))) Cert.Spec.cPlane := by
  unfold accDesc k0_pay1
  refine (transpose_ix2_apply _ _ cl n).trans ?_
  simp only [divf_apply, addf_apply, broadcast_apply]
  rw [pay3_apply, pay4_apply, pay5_apply, pay6_apply, pay7_apply, pay8_apply, pay9_apply, pay10_apply, pay11_apply]
  simp only [pay2_apply]
  unfold Cert.Spec.K.padSum Cert.Spec.cPlane
  rfl

/-! ## The descriptor array -/

/-- The normalized depth-mean of the specification is `planeVal` of the three sums. -/
theorem plane_eq (x : Cert.Spec.Arr5) (n : Fin 4) (c : Fin 64) :
    Cert.Spec.K.plane x n c
      = fun h w => planeVal (Cert.Spec.total x n c) (Cert.Spec.K.totalSq x n c) (Cert.Spec.K.depthSum x n c h w) := rfl

/-- Channel c is channel (c mod 8) of tile (c div 8). -/
theorem chan_div_mod (ch : Fin 64) :
    chan ⟨ch.val / 8, by have := ch.isLt; omega⟩ ⟨ch.val % 8, Nat.mod_lt _ (by decide)⟩ = ch :=
  Fin.ext (by show 8 * (ch.val / 8) + ch.val % 8 = ch.val; omega)

/-- The descriptor array at (channel, batch) is the specification's descriptor. -/
theorem descArr_apply (X : Vec Ideal S4x64x32x128x128 .f32) (ch : Fin 64) (n : Fin 4) :
    descArr (F := Ideal) X (ix2 ch n) = Cert.Spec.K.desc (coords5 X) n ch := by
  show accDesc (F := Ideal) (accTile (F := Ideal) X ⟨ch.val / 8, by have := ch.isLt; omega⟩)
      (ix2 ⟨ch.val % 8, Nat.mod_lt _ (by decide)⟩ n) = _
  rw [accDesc_apply, accTile_total, accTile_totalSq]
  simp only [accTile_depthSum]
  rw [chan_div_mod]
  unfold Cert.Spec.K.desc
  rw [plane_eq]

/-! ## The product with W

The second kernel contracts axis 1 of the [4, 64] descriptor with axis 0 of the [64, 256] weight. Its operand
indices at output index (n, k) and contraction coordinate c are (n, c) and (c, k), axis by axis. -/

section Dot

theorem dot_lhs_0 (j : S4x256.Idx) (c : dot_S4x64_S64x256_S4x256_1_0_0_1_n_n.contr.Idx) :
    (dot_S4x64_S64x256_S4x256_1_0_0_1_n_n.lhsIdx j c 0).val = (j 0).val := by
  simp [DotDims.lhsIdx, dot_S4x64_S64x256_S4x256_1_0_0_1_n_n]; rfl

theorem dot_lhs_1 (j : S4x256.Idx) (c : dot_S4x64_S64x256_S4x256_1_0_0_1_n_n.contr.Idx) :
    (dot_S4x64_S64x256_S4x256_1_0_0_1_n_n.lhsIdx j c 1).val = (c ⟨0, by decide⟩).val :=
  DotDims.lhsIdx_val_of_single (d := dot_S4x64_S64x256_S4x256_1_0_0_1_n_n) (cl := 1) rfl j c

theorem dot_rhs_0 (j : S4x256.Idx) (c : dot_S4x64_S64x256_S4x256_1_0_0_1_n_n.contr.Idx) :
    (dot_S4x64_S64x256_S4x256_1_0_0_1_n_n.rhsIdx j c 0).val = (c ⟨0, by decide⟩).val :=
  DotDims.rhsIdx_val_of_single (d := dot_S4x64_S64x256_S4x256_1_0_0_1_n_n) (cr := 0) rfl j c

theorem dot_rhs_1 (j : S4x256.Idx) (c : dot_S4x64_S64x256_S4x256_1_0_0_1_n_n.contr.Idx) :
    (dot_S4x64_S64x256_S4x256_1_0_0_1_n_n.rhsIdx j c 1).val = (j 1).val := by
  simp [DotDims.rhsIdx, dot_S4x64_S64x256_S4x256_1_0_0_1_n_n]; rfl

/-- The second kernel's product read at (n, k): the sum over the 64 channels. -/
theorem pay1_apply (V : Vec Ideal S4x64 .f32) (W : Vec Ideal S64x256 .f32) (n : Fin 4) (k : Fin 256) :
    k1_pay1 (F := Ideal) V W (ix2 n k) = ∑ c : Fin 64, V (ix2 n c) * W (ix2 c k) := by
  unfold k1_pay1
  rw [shapeCast_self]
  refine (Ideal.matmul_constant_zero_apply dot_S4x64_S64x256_S4x256_1_0_0_1_n_n none V W (ix2 n k)).trans ?_
  rw [← Equiv.sum_comp (contrEquiv1 dot_S4x64_S64x256_S4x256_1_0_0_1_n_n 64 rfl rfl).symm]
  refine Finset.sum_congr rfl fun c _ => ?_
  have hc := contrEquiv1_symm_val dot_S4x64_S64x256_S4x256_1_0_0_1_n_n 64 rfl rfl c
  have hl : dot_S4x64_S64x256_S4x256_1_0_0_1_n_n.lhsIdx (ix2 n k)
      ((contrEquiv1 dot_S4x64_S64x256_S4x256_1_0_0_1_n_n 64 rfl rfl).symm c) = ix2 n c := by
    funext ax; apply Fin.ext
    match ax with
    | ⟨0, _⟩ => exact dot_lhs_0 _ _
    | ⟨1, _⟩ => exact (dot_lhs_1 _ _).trans hc
  have hr : dot_S4x64_S64x256_S4x256_1_0_0_1_n_n.rhsIdx (ix2 n k)
      ((contrEquiv1 dot_S4x64_S64x256_S4x256_1_0_0_1_n_n 64 rfl rfl).symm c) = ix2 c k := by
    funext ax; apply Fin.ext
    match ax with
    | ⟨0, _⟩ => exact (dot_rhs_0 _ _).trans hc
    | ⟨1, _⟩ => exact dot_rhs_1 _ _
  rw [hl, hr]

end Dot

/-! ## The program's result -/

theorem kOut_apply (X : Vec Ideal S4x64x32x128x128 .f32) (W : Vec Ideal S64x256 .f32) (n : Fin 4) (k : Fin 256) :
    kOut (F := Ideal) X W (ix2 n k)
      = Cert.Spec.K.out (fun n c d h w => X (ix5 n c d h w)) (fun c k => W (ix2 c k)) n k := by
  unfold kOut
  rw [pay1_apply]
  unfold Cert.Spec.K.out
  refine Finset.sum_congr rfl fun c _ => ?_
  rw [transpose_ix2_apply, descArr_apply]

end Cert.KernelIdeal.Value

end
-- ==== Proof.Reference.Term.lean ====
/-
  The reference as a pure function of its two argument arrays, stage by stage: the mean of X over depth
  and the plane, X centred, the mean of the squares (the biased variance), its inverse square root after
  the epsilon, the normalized X, its mean over depth, that plane reflect-padded by one on each side, the
  padded plane's mean, and the product with W. Each stage is the host operations of the printed @main
  composed, in @main's order; the run shows @main leaves its result buffer at the last stage, and the value
  lemmas read the stages at an index.
-/
import proofs.«100511_j11888469476170_1_alg».proof.ReferenceIdeal

noncomputable section

namespace Cert.ReferenceIdeal.Stage

open Idealize.ShloMosaic Cert.ReferenceIdeal
open Cert.ReferenceIdeal.Facts₀ Cert.ReferenceIdeal.Facts

variable {F : FTy → Type} [FloatOps F] [Cert.ReferenceIdeal.Facts]

/-- The scalar zero every sum starts from. -/
abbrev zero0 : FVec F S_ .f32 := constant S_ .f32 0x00000000#32

/-- Per (n, c): the mean of X over depth and the plane, kept with unit axes [n, c, 1, 1, 1]. -/
def mean (X : FVec F S4x64x32x128x128 .f32) : FVec F S4x64x1x1x1 .f32 :=
  Host.divf (broadcastInDim S4x64x1x1x1 ![0, 1] bcast_S4x64_S4x64x1x1x1_0_1 (Host.reduceAdd X (zero0 (F := F)) reducesTo_S4x64x32x128x128_S4x64_d2_3_4 h_S_))
    (broadcastInDim S4x64x1x1x1 ![] bcast_S_S4x64x1x1x1 (constant S_ .f32 0x49000000#32))

/-- X minus its per-(n, c) mean. -/
def centred (X : FVec F S4x64x32x128x128 .f32) : FVec F S4x64x32x128x128 .f32 :=
  subf X (broadcastInDim S4x64x32x128x128 ![0, 1, 2, 3, 4] bcast_S4x64x1x1x1_S4x64x32x128x128_0_1_2_3_4 (mean X))

/-- Per (n, c): the mean of the squared deviations. -/
def var (X : FVec F S4x64x32x128x128 .f32) : FVec F S4x64x1x1x1 .f32 :=
  Host.divf (broadcastInDim S4x64x1x1x1 ![0, 1] bcast_S4x64_S4x64x1x1x1_0_1
      (Host.reduceAdd (mulf (centred X) (centred X)) (zero0 (F := F)) reducesTo_S4x64x32x128x128_S4x64_d2_3_4 h_S_))
    (broadcastInDim S4x64x1x1x1 ![] bcast_S_S4x64x1x1x1 (constant S_ .f32 0x49000000#32))

/-- Per (n, c): one over the square root of the variance plus the epsilon. -/
def invStd (X : FVec F S4x64x32x128x128 .f32) : FVec F S4x64x1x1x1 .f32 :=
  Host.rsqrt (addf (var X) (broadcastInDim S4x64x1x1x1 ![] bcast_S_S4x64x1x1x1 (constant S_ .f32 0x3727C5AC#32)))

/-- The instance-normalized X. -/
def normed (X : FVec F S4x64x32x128x128 .f32) : FVec F S4x64x32x128x128 .f32 :=
  mulf (centred X) (broadcastInDim S4x64x32x128x128 ![0, 1, 2, 3, 4] bcast_S4x64x1x1x1_S4x64x32x128x128_0_1_2_3_4 (invStd X))

/-- Its mean over depth: a plane per (n, c). -/
def depthMean (X : FVec F S4x64x32x128x128 .f32) : FVec F S4x64x128x128 .f32 :=
  Host.divf (Host.reduceAdd (normed X) (zero0 (F := F)) reducesTo_S4x64x32x128x128_S4x64x128x128_d2 h_S_)
    (broadcastInDim S4x64x128x128 ![] bcast_S_S4x64x128x128 (constant S_ .f32 0x42000000#32))

/-- The rows padded: row 1 in front, then the plane, then row 126. -/
def padRows (Y : FVec F S4x64x128x128 .f32) : FVec F S4x64x130x128 .f32 :=
  let top : FVec F S4x64x1x128 .f32 := Host.reverse [2] (extractStridedSlice S4x64x1x128 ![0, 0, 1, 0] Y slices_S4x64x128x128_S4x64x1x128_0_0_1_0)
  let v3 : FVec F S4x64x129x128 .f32 := concatenate S4x64x129x128 2 [⟨S4x64x1x128, top⟩, ⟨S4x64x128x128, Y⟩] concatenates_S4x64x1x128_S4x64x128x128_S4x64x129x128_d2
  let bot : FVec F S4x64x1x128 .f32 := Host.reverse [2] (extractStridedSlice S4x64x1x128 ![0, 0, 127, 0] v3 slices_S4x64x129x128_S4x64x1x128_0_0_127_0)
  concatenate S4x64x130x128 2 [⟨S4x64x129x128, v3⟩, ⟨S4x64x1x128, bot⟩] concatenates_S4x64x129x128_S4x64x1x128_S4x64x130x128_d2

/-- The columns padded likewise: column 1 in front, the rows-padded plane, column 126 behind. -/
def padCols (Z : FVec F S4x64x130x128 .f32) : FVec F S4x64x130x130 .f32 :=
  let left : FVec F S4x64x130x1 .f32 := Host.reverse [3] (extractStridedSlice S4x64x130x1 ![0, 0, 0, 1] Z slices_S4x64x130x128_S4x64x130x1_0_0_0_1)
  let v11 : FVec F S4x64x130x129 .f32 := concatenate S4x64x130x129 3 [⟨S4x64x130x1, left⟩, ⟨S4x64x130x128, Z⟩] concatenates_S4x64x130x1_S4x64x130x128_S4x64x130x129_d3
  let right : FVec F S4x64x130x1 .f32 := Host.reverse [3] (extractStridedSlice S4x64x130x1 ![0, 0, 0, 127] v11 slices_S4x64x130x129_S4x64x130x1_0_0_0_127)
  concatenate S4x64x130x130 3 [⟨S4x64x130x129, v11⟩, ⟨S4x64x130x1, right⟩] concatenates_S4x64x130x129_S4x64x130x1_S4x64x130x130_d3

/-- The reflect-padded plane. -/
def padded (Y : FVec F S4x64x128x128 .f32) : FVec F S4x64x130x130 .f32 := padCols (padRows Y)

/-- Per (n, c): the mean of the padded plane. -/
def desc (X : FVec F S4x64x32x128x128 .f32) : FVec F S4x64 .f32 :=
  Host.divf (Host.reduceAdd (padded (depthMean X)) (zero0 (F := F)) reducesTo_S4x64x130x130_S4x64_d2_3 h_S_)
    (broadcastInDim S4x64 ![] bcast_S_S4x64 (constant S_ .f32 0x46840800#32))

/-- The reference's result: the descriptor times W. -/
def out (X : FVec F S4x64x32x128x128 .f32) (W : FVec F S64x256 .f32) : FVec F S4x256 .f32 :=
  Host.dotGeneral dot_S4x64_S64x256_S4x256_1_0_0_1_n_n none (desc X) W

end Cert.ReferenceIdeal.Stage

end
-- ==== Proof.Reference.Run.lean ====
import proofs.«100511_j11888469476170_1_alg».proof.Proof.Reference.Term
import proofs.«100511_j11888469476170_1_alg».proof.Proof.Gen.ReferenceIdeal
import Idealize.ShloMosaic.Lib.StableHlo.Run

noncomputable section

namespace Cert.ReferenceIdeal.Stage

open Idealize.ShloMosaic Idealize.ShloMosaic.TcCoe Idealize.SL.Sem Cert.ReferenceIdeal Cert.ReferenceIdeal.Gen
open Idealize.ShloMosaic.StableHlo

variable {F : FTy → Type} [FloatOps F]

/-- The normalization and the depth mean: the first twenty-nine operations, up to the plane that is padded
    (the last is the integer zero the padding function is handed and never reads). -/
abbrev opsNorm : List (HloOp τ sig (Elt F)) :=
  [ nullary main_cst (constant S_ .f32 0x00000000#32),
    binary main_arg0 main_cst main_v0 (fun x v => Host.reduceAdd x v reducesTo_S4x64x32x128x128_S4x64_d2_3_4 h_S_),
    unary main_v0 main_v1 (broadcastInDim S4x64x1x1x1 ![0, 1] bcast_S4x64_S4x64x1x1x1_0_1),
    nullary main_cst_0 (constant S_ .f32 0x49000000#32),
    unary main_cst_0 main_v2 (broadcastInDim S4x64x1x1x1 ![] bcast_S_S4x64x1x1x1),
    binary main_v1 main_v2 main_v3 Host.divf,
    unary main_v3 main_v4 (broadcastInDim S4x64x32x128x128 ![0, 1, 2, 3, 4] bcast_S4x64x1x1x1_S4x64x32x128x128_0_1_2_3_4),
    binary main_arg0 main_v4 main_v5 subf,
    binary main_v5 main_v5 main_v6 mulf,
    nullary main_cst_1 (constant S_ .f32 0x00000000#32),
    binary main_v6 main_cst_1 main_v7 (fun x v => Host.reduceAdd x v reducesTo_S4x64x32x128x128_S4x64_d2_3_4 h_S_),
    unary main_v7 main_v8 (broadcastInDim S4x64x1x1x1 ![0, 1] bcast_S4x64_S4x64x1x1x1_0_1),
    nullary main_cst_2 (constant S_ .f32 0x49000000#32),
    unary main_cst_2 main_v9 (broadcastInDim S4x64x1x1x1 ![] bcast_S_S4x64x1x1x1),
    binary main_v8 main_v9 main_v10 Host.divf,
    unary main_v3 main_v11 (broadcastInDim S4x64x32x128x128 ![0, 1, 2, 3, 4] bcast_S4x64x1x1x1_S4x64x32x128x128_0_1_2_3_4),
    binary main_arg0 main_v11 main_v12 subf,
    nullary main_cst_3 (constant S_ .f32 0x3727C5AC#32),
    unary main_cst_3 main_v13 (broadcastInDim S4x64x1x1x1 ![] bcast_S_S4x64x1x1x1),
    binary main_v10 main_v13 main_v14 addf,
    unary main_v14 main_v15 Host.rsqrt,
    unary main_v15 main_v16 (broadcastInDim S4x64x32x128x128 ![0, 1, 2, 3, 4] bcast_S4x64x1x1x1_S4x64x32x128x128_0_1_2_3_4),
    binary main_v12 main_v16 main_v17 mulf,
    nullary main_cst_4 (constant S_ .f32 0x00000000#32),
    binary main_v17 main_cst_4 main_v18 (fun x v => Host.reduceAdd x v reducesTo_S4x64x32x128x128_S4x64x128x128_d2 h_S_),
    nullary main_cst_5 (constant S_ .f32 0x42000000#32),
    unary main_cst_5 main_v19 (broadcastInDim S4x64x128x128 ![] bcast_S_S4x64x128x128),
    binary main_v18 main_v19 main_v20 Host.divf,
    nullary main_c (constantI S_ 32 0#32) ]

/-- The reflect padding, sixteen operations written where the call to the padding function stands, over the
    buffers that call names: along the rows two slices, the second reversed and put in front, two slices of
    that, the second reversed and put behind; then the same along the columns. Each reversal is the whole
    body of the flipping function called there. -/
abbrev opsPad : List (HloOp τ sig (Elt F)) :=
  [ TRef.unary (.of main_v20 : TRef sig ⟨S4x64x128x128, .f32⟩) main_call0.v0 (extractStridedSlice S4x64x1x128 ![0, 0, 0, 0] · slices_S4x64x128x128_S4x64x1x128_0_0_0_0),
    TRef.unary (.of main_v20 : TRef sig ⟨S4x64x128x128, .f32⟩) main_call0.v1 (extractStridedSlice S4x64x1x128 ![0, 0, 1, 0] · slices_S4x64x128x128_S4x64x1x128_0_0_1_0),
    TRef.unary main_call0.v1 main_call0.call0.v0 (Host.reverse [2]),
    TRef.binary main_call0.call0.v0 (.of main_v20 : TRef sig ⟨S4x64x128x128, .f32⟩) main_call0.v3 (fun a b => concatenate S4x64x129x128 2 [⟨S4x64x1x128, a⟩, ⟨S4x64x128x128, b⟩] concatenates_S4x64x1x128_S4x64x128x128_S4x64x129x128_d2),
    TRef.unary main_call0.v3 main_call0.v4 (extractStridedSlice S4x64x1x128 ![0, 0, 128, 0] · slices_S4x64x129x128_S4x64x1x128_0_0_128_0),
    TRef.unary main_call0.v3 main_call0.v5 (extractStridedSlice S4x64x1x128 ![0, 0, 127, 0] · slices_S4x64x129x128_S4x64x1x128_0_0_127_0),
    TRef.unary main_call0.v5 main_call0.call1.v0 (Host.reverse [2]),
    TRef.binary main_call0.v3 main_call0.call1.v0 main_call0.v7 (fun a b => concatenate S4x64x130x128 2 [⟨S4x64x129x128, a⟩, ⟨S4x64x1x128, b⟩] concatenates_S4x64x129x128_S4x64x1x128_S4x64x130x128_d2),
    TRef.unary main_call0.v7 main_call0.v8 (extractStridedSlice S4x64x130x1 ![0, 0, 0, 0] · slices_S4x64x130x128_S4x64x130x1_0_0_0_0),
    TRef.unary main_call0.v7 main_call0.v9 (extractStridedSlice S4x64x130x1 ![0, 0, 0, 1] · slices_S4x64x130x128_S4x64x130x1_0_0_0_1),
    TRef.unary main_call0.v9 main_call0.call2.v0 (Host.reverse [3]),
    TRef.binary main_call0.call2.v0 main_call0.v7 main_call0.v11 (fun a b => concatenate S4x64x130x129 3 [⟨S4x64x130x1, a⟩, ⟨S4x64x130x128, b⟩] concatenates_S4x64x130x1_S4x64x130x128_S4x64x130x129_d3),
    TRef.unary main_call0.v11 main_call0.v12 (extractStridedSlice S4x64x130x1 ![0, 0, 0, 128] · slices_S4x64x130x129_S4x64x130x1_0_0_0_128),
    TRef.unary main_call0.v11 main_call0.v13 (extractStridedSlice S4x64x130x1 ![0, 0, 0, 127] · slices_S4x64x130x129_S4x64x130x1_0_0_0_127),
    TRef.unary main_call0.v13 main_call0.call3.v0 (Host.reverse [3]),
    TRef.binary main_call0.v11 main_call0.call3.v0 main_call0.v15 (fun a b => concatenate S4x64x130x130 3 [⟨S4x64x130x129, a⟩, ⟨S4x64x130x1, b⟩] concatenates_S4x64x130x129_S4x64x130x1_S4x64x130x130_d3) ]

/-- The mean of the padded plane and the product with the weights: the last six operations. -/
abbrev opsTail : List (HloOp τ sig (Elt F)) :=
  [ nullary main_cst_6 (constant S_ .f32 0x00000000#32),
    binary main_v21 main_cst_6 main_v22 (fun x v => Host.reduceAdd x v reducesTo_S4x64x130x130_S4x64_d2_3 h_S_),
    nullary main_cst_7 (constant S_ .f32 0x46840800#32),
    unary main_cst_7 main_v23 (broadcastInDim S4x64 ![] bcast_S_S4x64),
    binary main_v22 main_v23 main_v24 Host.divf,
    binary main_v24 main_arg1 main_v25 (fun l r => Host.dotGeneral dot_S4x64_S64x256_S4x256_1_0_0_1_n_n none l r) ]

/-- The host program as one straight line of fifty-one operations. -/
abbrev ops : List (HloOp τ sig (Elt F)) :=
  [ nullary main_cst (constant S_ .f32 0x00000000#32),
    binary main_arg0 main_cst main_v0 (fun x v => Host.reduceAdd x v reducesTo_S4x64x32x128x128_S4x64_d2_3_4 h_S_),
    unary main_v0 main_v1 (broadcastInDim S4x64x1x1x1 ![0, 1] bcast_S4x64_S4x64x1x1x1_0_1),
    nullary main_cst_0 (constant S_ .f32 0x49000000#32),
    unary main_cst_0 main_v2 (broadcastInDim S4x64x1x1x1 ![] bcast_S_S4x64x1x1x1),
    binary main_v1 main_v2 main_v3 Host.divf,
    unary main_v3 main_v4 (broadcastInDim S4x64x32x128x128 ![0, 1, 2, 3, 4] bcast_S4x64x1x1x1_S4x64x32x128x128_0_1_2_3_4),
    binary main_arg0 main_v4 main_v5 subf,
    binary main_v5 main_v5 main_v6 mulf,
    nullary main_cst_1 (constant S_ .f32 0x00000000#32),
    binary main_v6 main_cst_1 main_v7 (fun x v => Host.reduceAdd x v reducesTo_S4x64x32x128x128_S4x64_d2_3_4 h_S_),
    unary main_v7 main_v8 (broadcastInDim S4x64x1x1x1 ![0, 1] bcast_S4x64_S4x64x1x1x1_0_1),
    nullary main_cst_2 (constant S_ .f32 0x49000000#32),
    unary main_cst_2 main_v9 (broadcastInDim S4x64x1x1x1 ![] bcast_S_S4x64x1x1x1),
    binary main_v8 main_v9 main_v10 Host.divf,
    unary main_v3 main_v11 (broadcastInDim S4x64x32x128x128 ![0, 1, 2, 3, 4] bcast_S4x64x1x1x1_S4x64x32x128x128_0_1_2_3_4),
    binary main_arg0 main_v11 main_v12 subf,
    nullary main_cst_3 (constant S_ .f32 0x3727C5AC#32),
    unary main_cst_3 main_v13 (broadcastInDim S4x64x1x1x1 ![] bcast_S_S4x64x1x1x1),
    binary main_v10 main_v13 main_v14 addf,
    unary main_v14 main_v15 Host.rsqrt,
    unary main_v15 main_v16 (broadcastInDim S4x64x32x128x128 ![0, 1, 2, 3, 4] bcast_S4x64x1x1x1_S4x64x32x128x128_0_1_2_3_4),
    binary main_v12 main_v16 main_v17 mulf,
    nullary main_cst_4 (constant S_ .f32 0x00000000#32),
    binary main_v17 main_cst_4 main_v18 (fun x v => Host.reduceAdd x v reducesTo_S4x64x32x128x128_S4x64x128x128_d2 h_S_),
    nullary main_cst_5 (constant S_ .f32 0x42000000#32),
    unary main_cst_5 main_v19 (broadcastInDim S4x64x128x128 ![] bcast_S_S4x64x128x128),
    binary main_v18 main_v19 main_v20 Host.divf,
    nullary main_c (constantI S_ 32 0#32),
    TRef.unary (.of main_v20 : TRef sig ⟨S4x64x128x128, .f32⟩) main_call0.v0 (extractStridedSlice S4x64x1x128 ![0, 0, 0, 0] · slices_S4x64x128x128_S4x64x1x128_0_0_0_0),
    TRef.unary (.of main_v20 : TRef sig ⟨S4x64x128x128, .f32⟩) main_call0.v1 (extractStridedSlice S4x64x1x128 ![0, 0, 1, 0] · slices_S4x64x128x128_S4x64x1x128_0_0_1_0),
    TRef.unary main_call0.v1 main_call0.call0.v0 (Host.reverse [2]),
    TRef.binary main_call0.call0.v0 (.of main_v20 : TRef sig ⟨S4x64x128x128, .f32⟩) main_call0.v3 (fun a b => concatenate S4x64x129x128 2 [⟨S4x64x1x128, a⟩, ⟨S4x64x128x128, b⟩] concatenates_S4x64x1x128_S4x64x128x128_S4x64x129x128_d2),
    TRef.unary main_call0.v3 main_call0.v4 (extractStridedSlice S4x64x1x128 ![0, 0, 128, 0] · slices_S4x64x129x128_S4x64x1x128_0_0_128_0),
    TRef.unary main_call0.v3 main_call0.v5 (extractStridedSlice S4x64x1x128 ![0, 0, 127, 0] · slices_S4x64x129x128_S4x64x1x128_0_0_127_0),
    TRef.unary main_call0.v5 main_call0.call1.v0 (Host.reverse [2]),
    TRef.binary main_call0.v3 main_call0.call1.v0 main_call0.v7 (fun a b => concatenate S4x64x130x128 2 [⟨S4x64x129x128, a⟩, ⟨S4x64x1x128, b⟩] concatenates_S4x64x129x128_S4x64x1x128_S4x64x130x128_d2),
    TRef.unary main_call0.v7 main_call0.v8 (extractStridedSlice S4x64x130x1 ![0, 0, 0, 0] · slices_S4x64x130x128_S4x64x130x1_0_0_0_0),
    TRef.unary main_call0.v7 main_call0.v9 (extractStridedSlice S4x64x130x1 ![0, 0, 0, 1] · slices_S4x64x130x128_S4x64x130x1_0_0_0_1),
    TRef.unary main_call0.v9 main_call0.call2.v0 (Host.reverse [3]),
    TRef.binary main_call0.call2.v0 main_call0.v7 main_call0.v11 (fun a b => concatenate S4x64x130x129 3 [⟨S4x64x130x1, a⟩, ⟨S4x64x130x128, b⟩] concatenates_S4x64x130x1_S4x64x130x128_S4x64x130x129_d3),
    TRef.unary main_call0.v11 main_call0.v12 (extractStridedSlice S4x64x130x1 ![0, 0, 0, 128] · slices_S4x64x130x129_S4x64x130x1_0_0_0_128),
    TRef.unary main_call0.v11 main_call0.v13 (extractStridedSlice S4x64x130x1 ![0, 0, 0, 127] · slices_S4x64x130x129_S4x64x130x1_0_0_0_127),
    TRef.unary main_call0.v13 main_call0.call3.v0 (Host.reverse [3]),
    TRef.binary main_call0.v11 main_call0.call3.v0 main_call0.v15 (fun a b => concatenate S4x64x130x130 3 [⟨S4x64x130x129, a⟩, ⟨S4x64x130x1, b⟩] concatenates_S4x64x130x129_S4x64x130x1_S4x64x130x130_d3),
    nullary main_cst_6 (constant S_ .f32 0x00000000#32),
    binary main_v21 main_cst_6 main_v22 (fun x v => Host.reduceAdd x v reducesTo_S4x64x130x130_S4x64_d2_3 h_S_),
    nullary main_cst_7 (constant S_ .f32 0x46840800#32),
    unary main_cst_7 main_v23 (broadcastInDim S4x64 ![] bcast_S_S4x64),
    binary main_v22 main_v23 main_v24 Host.divf,
    binary main_v24 main_arg1 main_v25 (fun l r => Host.dotGeneral dot_S4x64_S64x256_S4x256_1_0_0_1_n_n none l r) ]

/-- The line is its three stretches one after the other. -/
theorem ops_split : (ops : List (HloOp τ sig (Elt F))) = opsNorm ++ (opsPad ++ opsTail) := rfl

set_option maxRecDepth 1024 in
/-- The printed program is that line: the padding function and the two flipping functions opened where they
    are called, the sequencing re-associated. -/
theorem main_eq (c : Dev nD) : main (F := F) c = seq ops := by
  simp only [main, fn_pad.body, fn_flip.body, fn_flip_0.body, seq, bind_assoc, pure_bind]
  rfl

/-- The contents after two stretches run in turn: the second's from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The signature scopes no buffer. -/
theorem scopedRefs_eq : (Finset.univ.filter fun b : Ref sig .tc => b.isScoped) = ∅ := by decide
/-- It has no semaphore, so none is scoped. -/
theorem scopedSems_eq : (Finset.univ.filter fun sm : SemLoc sig => sm.isScoped .tc) = ∅ := by decide

/-- Every operation of the line touches buffers of the core only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., nullary_bufs_sub ..,
    binary_bufs_sub .., nullary_bufs_sub .., unary_bufs_sub .., binary_bufs_sub .., nullary_bufs_sub ..,
    unary_bufs_sub .., unary_bufs_sub .., unary_bufs_sub .., binary_bufs_sub .., unary_bufs_sub .., unary_bufs_sub ..,
    unary_bufs_sub .., binary_bufs_sub .., unary_bufs_sub .., unary_bufs_sub .., unary_bufs_sub .., binary_bufs_sub ..,
    unary_bufs_sub .., unary_bufs_sub .., unary_bufs_sub .., binary_bufs_sub ..,
    nullary_bufs_sub .., binary_bufs_sub .., nullary_bufs_sub .., unary_bufs_sub .., binary_bufs_sub .., binary_bufs_sub ..⟩

/-! ## What the line leaves in the buffers, stretch by stretch -/

/-- After the first stretch the plane buffer holds the depth mean of the normalized first argument. -/
theorem norm_v20 (V : Valuation τ sig (Elt F)) :
    after opsNorm V (Proc.devRef .tc main_v20) = depthMean (F := F) (V (Proc.devRef .tc main_arg0)) := by
  after_results_simp
  rfl

/-- The first stretch does not write the weights. -/
theorem norm_arg1 (V : Valuation τ sig (Elt F)) :
    after opsNorm V (Proc.devRef .tc main_arg1) = V (Proc.devRef .tc main_arg1) := by
  after_results_simp

-- the slices, reversals and concatenations are compared as they stand, argument by argument, never opened:
-- the two sides differ only in the transport of a value along an equation between a buffer's type and itself
attribute [local irreducible] concatenate extractStridedSlice Host.reverse in
/-- After the padding stretch its result buffer holds the reflect-padded plane: rows first, then columns. -/
theorem pad_v21 (V : Valuation τ sig (Elt F)) :
    after opsPad V (Proc.devRef .tc main_v21) = padded (F := F) (V (Proc.devRef .tc main_v20)) := by
  after_results
  rfl

/-- The padding stretch does not write the weights. -/
theorem pad_arg1 (V : Valuation τ sig (Elt F)) :
    after opsPad V (Proc.devRef .tc main_arg1) = V (Proc.devRef .tc main_arg1) := by
  after_results_simp

/-- After the last stretch the result buffer holds the plane mean of the padded buffer times the weights. -/
theorem tail_v25 (V : Valuation τ sig (Elt F)) :
    after opsTail V (Proc.devRef .tc main_v25)
      = Host.dotGeneral dot_S4x64_S64x256_S4x256_1_0_0_1_n_n none
          (Host.divf (Host.reduceAdd (V (Proc.devRef .tc main_v21)) (zero0 (F := F)) reducesTo_S4x64x130x130_S4x64_d2_3 h_S_)
            (broadcastInDim S4x64 ![] bcast_S_S4x64 (constant S_ .f32 0x46840800#32)))
          (V (Proc.devRef .tc main_arg1)) := by
  after_results_simp

/-- The whole line leaves the result buffer at the composed stages of the two arguments. -/
theorem out_eq (V : Valuation τ sig (Elt F)) :
    after ops V (Proc.devRef .tc main_v25)
      = out (F := F) (V (Proc.devRef .tc main_arg0)) (V (Proc.devRef .tc main_arg1)) := by
  rw [ops_split, after_append, after_append, tail_v25, pad_v21, pad_arg1, norm_v20, norm_arg1]
  rfl

/-- No operation of the line writes the first argument. -/
theorem arg0_eq (V : Valuation τ sig (Elt F)) :
    after ops V (Proc.devRef .tc main_arg0) = V (Proc.devRef .tc main_arg0) := by
  after_results_simp

/-- No operation of the line writes the second argument. -/
theorem arg1_eq (V : Valuation τ sig (Elt F)) :
    after ops V (Proc.devRef .tc main_arg1) = V (Proc.devRef .tc main_arg1) := by
  after_results_simp

/-- From any memory with zero counters every weakly fair execution of the host program terminates; the result
    buffer then holds the stages composed on the two arguments' launch contents, and the arguments are as they were. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v25) = out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun _ h c => ⟨(h c main_v25).trans (out_eq _), (h c main_arg0).trans (arg0_eq _),
      (h c main_arg1).trans (arg1_eq _)⟩)
    (run_seq scopedRefs_eq scopedSems_eq (defs (F := F)) main (fun _ => ops) main_eq (fun _ => ops_sub) m ρ)

end Cert.ReferenceIdeal.Stage

end
-- ==== Proof.Reference.Pad.lean ====
/-
  The reflect-padded plane read entry by entry. The padding is built from slices, reversals and
  joins only, so every entry of the padded plane is one entry of the plane: row i of the padded plane
  is row refl i of the plane, column j is column refl j, where refl sends 0 to 1, k to k - 1 for
  1 ≤ k ≤ 128, and 129 to 126. No arithmetic on the entries is involved, so the statement holds for
  every float instance.

  The rows are padded first. Row 1 (a one-row slice; reversing it along its own axis of extent one
  changes nothing) is put in front of the plane, giving 129 rows whose row k is the plane's row 1 for
  k = 0 and row k - 1 otherwise. Row 127 of that (the plane's row 126) is then put behind, giving 130
  rows. The columns are padded the same way along the last axis.
-/
import proofs.«100511_j11888469476170_1_alg».proof.Proof.Reference.Term
import proofs.«100511_j11888469476170_1_alg».proof.Proof.Gen.ReferenceIdeal
import proofs.«100511_j11888469476170_1_alg».proof.Proof.Spec.Defs
import Idealize.ShloMosaic.Lib.ValueIdx
import Idealize.ShloMosaic.Lib.ValueLayout
import Idealize.ShloMosaic.Lib.Pipeline.Value

noncomputable section

namespace Cert.ReferenceIdeal.StageValue

open Idealize.ShloMosaic Idealize.ShloMosaic.ValueIdx Cert.ReferenceIdeal Cert.ReferenceIdeal.Gen Cert.ReferenceIdeal.Stage

/-! ## The reflection, by values -/

/-- The reflection of 0 is 1. -/
theorem refl_val_first (i : Fin 130) (h : i.val = 0) : (Cert.Spec.R.refl i).val = 1 := by
  unfold Cert.Spec.R.refl
  rw [dif_pos h]
  rfl

/-- The reflection of 129 is 126. -/
theorem refl_val_last (i : Fin 130) (h : i.val = 129) : (Cert.Spec.R.refl i).val = 126 := by
  unfold Cert.Spec.R.refl
  rw [dif_neg (by omega), dif_pos h]
  rfl

/-- Strictly between the two ends the reflection is the predecessor. -/
theorem refl_val_mid (i : Fin 130) (h0 : i.val ≠ 0) (h1 : i.val ≠ 129) : (Cert.Spec.R.refl i).val + 1 = i.val := by
  unfold Cert.Spec.R.refl
  rw [dif_neg h0, dif_neg h1]
  show i.val - 1 + 1 = i.val
  omega

/-! ## Rank-4 slices, reversals and joins at an index given by coordinates -/

section Coordinates
variable {α : Type}

/-- A rank-4 array cut along its last axis from `o` reads, at `(a, b, c, j)`, the source at `(a, b, c, k)`
    with `k = o + j`. -/
theorem slice4_axis3_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) (k : Fin n3) (hk : k.val = o + j.val) :
    extractStridedSlice ⟨4, ![n0, n1, n2, m]⟩ ![0, 0, 0, o] X h (ix4 a b c j) = X (ix4 a b c k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

/-- The only position of an axis of extent one is its own mirror image. -/
theorem rev_unit (z : Fin 1) : z.rev = z := Fin.ext (by rw [Fin.val_rev]; omega)

/-- A reversal along axis 2, of extent one, reads the same entry. -/
theorem reverse4_unit_axis2_apply {n0 n1 n3 : Nat} (X : (⟨4, ![n0, n1, 1, n3]⟩ : Shape).Idx → α)
    (a : Fin n0) (b : Fin n1) (z : Fin 1) (e : Fin n3) :
    Host.reverse [2] X (ix4 a b z e) = X (ix4 a b z e) := by
  unfold Host.reverse
  congr 1
  funext ax
  match ax with
  | ⟨0, _⟩ => rfl
  | ⟨1, _⟩ => rfl
  | ⟨2, _⟩ => exact rev_unit z
  | ⟨3, _⟩ => rfl

/-- A reversal along axis 3, of extent one, reads the same entry. -/
theorem reverse4_unit_axis3_apply {n0 n1 n2 : Nat} (X : (⟨4, ![n0, n1, n2, 1]⟩ : Shape).Idx → α)
    (a : Fin n0) (b : Fin n1) (c : Fin n2) (z : Fin 1) :
    Host.reverse [3] X (ix4 a b c z) = X (ix4 a b c z) := by
  unfold Host.reverse
  congr 1
  funext ax
  match ax with
  | ⟨0, _⟩ => rfl
  | ⟨1, _⟩ => rfl
  | ⟨2, _⟩ => rfl
  | ⟨3, _⟩ => exact rev_unit z

/-- Two arrays joined along axis 2, read inside the first one's span. -/
theorem concat4_axis2_left {n0 n1 p q r n3 : Nat} (X₁ : (⟨4, ![n0, n1, p, n3]⟩ : Shape).Idx → α)
    (X₂ : (⟨4, ![n0, n1, q, n3]⟩ : Shape).Idx → α)
    (h : Shape.Concatenates [⟨4, ![n0, n1, p, n3]⟩, ⟨4, ![n0, n1, q, n3]⟩] ⟨4, ![n0, n1, r, n3]⟩ 2)
    (a : Fin n0) (b : Fin n1) (i : Fin r) (e : Fin n3) (k : Fin p) (hk : k.val = i.val) :
    concatenate ⟨4, ![n0, n1, r, n3]⟩ 2 [⟨_, X₁⟩, ⟨_, X₂⟩] h (ix4 a b i e) = X₁ (ix4 a b k e) :=
  concatenate_pair_apply_left (t := ⟨4, ![n0, n1, r, n3]⟩) (s₁ := ⟨4, ![n0, n1, p, n3]⟩) (s₂ := ⟨4, ![n0, n1, q, n3]⟩)
    2 X₁ X₂ h (ix4 a b i e) rfl (ix4 a b k e) (fun ax => by
    match ax with
    | ⟨0, _⟩ => rfl
    | ⟨1, _⟩ => rfl
    | ⟨2, _⟩ => exact hk
    | ⟨3, _⟩ => rfl)

/-- Two arrays joined along axis 2, read past the first one's span: the second one, the first one's extent less. -/
theorem concat4_axis2_right {n0 n1 p q r n3 : Nat} (X₁ : (⟨4, ![n0, n1, p, n3]⟩ : Shape).Idx → α)
    (X₂ : (⟨4, ![n0, n1, q, n3]⟩ : Shape).Idx → α)
    (h : Shape.Concatenates [⟨4, ![n0, n1, p, n3]⟩, ⟨4, ![n0, n1, q, n3]⟩] ⟨4, ![n0, n1, r, n3]⟩ 2)
    (a : Fin n0) (b : Fin n1) (i : Fin r) (e : Fin n3) (k : Fin q) (hk : k.val + p = i.val) :
    concatenate ⟨4, ![n0, n1, r, n3]⟩ 2 [⟨_, X₁⟩, ⟨_, X₂⟩] h (ix4 a b i e) = X₂ (ix4 a b k e) :=
  concatenate_pair_apply_right (t := ⟨4, ![n0, n1, r, n3]⟩) (s₁ := ⟨4, ![n0, n1, p, n3]⟩) (s₂ := ⟨4, ![n0, n1, q, n3]⟩)
    2 X₁ X₂ h (ix4 a b i e) rfl rfl (ix4 a b k e) (fun ax hne => by
    match ax, hne with
    | ⟨0, _⟩, _ => rfl
    | ⟨1, _⟩, _ => rfl
    | ⟨2, _⟩, hne => exact absurd rfl hne
    | ⟨3, _⟩, _ => rfl) hk

/-- Two arrays joined along axis 3, read inside the first one's span. -/
theorem concat4_axis3_left {n0 n1 n2 p q r : Nat} (X₁ : (⟨4, ![n0, n1, n2, p]⟩ : Shape).Idx → α)
    (X₂ : (⟨4, ![n0, n1, n2, q]⟩ : Shape).Idx → α)
    (h : Shape.Concatenates [⟨4, ![n0, n1, n2, p]⟩, ⟨4, ![n0, n1, n2, q]⟩] ⟨4, ![n0, n1, n2, r]⟩ 3)
    (a : Fin n0) (b : Fin n1) (c : Fin n2) (i : Fin r) (k : Fin p) (hk : k.val = i.val) :
    concatenate ⟨4, ![n0, n1, n2, r]⟩ 3 [⟨_, X₁⟩, ⟨_, X₂⟩] h (ix4 a b c i) = X₁ (ix4 a b c k) :=
  concatenate_pair_apply_left (t := ⟨4, ![n0, n1, n2, r]⟩) (s₁ := ⟨4, ![n0, n1, n2, p]⟩) (s₂ := ⟨4, ![n0, n1, n2, q]⟩)
    3 X₁ X₂ h (ix4 a b c i) rfl (ix4 a b c k) (fun ax => by
    match ax with
    | ⟨0, _⟩ => rfl
    | ⟨1, _⟩ => rfl
    | ⟨2, _⟩ => rfl
    | ⟨3, _⟩ => exact hk)

/-- Two arrays joined along axis 3, read past the first one's span: the second one, the first one's extent less. -/
theorem concat4_axis3_right {n0 n1 n2 p q r : Nat} (X₁ : (⟨4, ![n0, n1, n2, p]⟩ : Shape).Idx → α)
    (X₂ : (⟨4, ![n0, n1, n2, q]⟩ : Shape).Idx → α)
    (h : Shape.Concatenates [⟨4, ![n0, n1, n2, p]⟩, ⟨4, ![n0, n1, n2, q]⟩] ⟨4, ![n0, n1, n2, r]⟩ 3)
    (a : Fin n0) (b : Fin n1) (c : Fin n2) (i : Fin r) (k : Fin q) (hk : k.val + p = i.val) :
    concatenate ⟨4, ![n0, n1, n2, r]⟩ 3 [⟨_, X₁⟩, ⟨_, X₂⟩] h (ix4 a b c i) = X₂ (ix4 a b c k) :=
  concatenate_pair_apply_right (t := ⟨4, ![n0, n1, n2, r]⟩) (s₁ := ⟨4, ![n0, n1, n2, p]⟩) (s₂ := ⟨4, ![n0, n1, n2, q]⟩)
    3 X₁ X₂ h (ix4 a b c i) rfl rfl (ix4 a b c k) (fun ax hne => by
    match ax, hne with
    | ⟨0, _⟩, _ => rfl
    | ⟨1, _⟩, _ => rfl
    | ⟨2, _⟩, _ => rfl
    | ⟨3, _⟩, hne => exact absurd rfl hne) hk

end Coordinates

/-! ## The two paddings read at an index -/

section Padding
variable {F : FTy → Type} [FloatOps F]

/-- The plane with its row 1 put in front: row 0 of the 129 is the plane's row 1, row k > 0 its row k - 1. The row
    read is named by the caller, with the two cases as hypotheses. -/
theorem rowsFront_apply (Y : FVec F S4x64x128x128 .f32) (n : Fin 4) (c : Fin 64) (i : Fin 129) (w : Fin 128) (k : Fin 128)
    (h0 : i.val = 0 → k.val = 1) (h1 : i.val ≠ 0 → k.val + 1 = i.val) :
    concatenate S4x64x129x128 2
      [⟨S4x64x1x128, Host.reverse [2] (extractStridedSlice S4x64x1x128 ![0, 0, 1, 0] Y slices_S4x64x128x128_S4x64x1x128_0_0_1_0)⟩,
        ⟨S4x64x128x128, Y⟩] concatenates_S4x64x1x128_S4x64x128x128_S4x64x129x128_d2 (ix4 n c i w) = Y (ix4 n c k w) := by
  by_cases hi : i.val = 0
  · -- row 0: the one-row slice at row 1, its reversal being the identity
    refine (concat4_axis2_left _ _ _ n c i w (⟨0, Nat.one_pos⟩ : Fin 1) hi.symm).trans ?_
    refine (reverse4_unit_axis2_apply _ n c _ w).trans ?_
    exact slice4_axis2_apply 1 _ _ n c _ w k (h0 hi)
  · -- a later row: the plane, one row up
    exact concat4_axis2_right _ _ _ n c i w k (h1 hi)

/-- The rows padded: row i of the 130 is row refl i of the plane. -/
theorem padRows_apply (Y : FVec F S4x64x128x128 .f32) (n : Fin 4) (c : Fin 64) (i : Fin 130) (w : Fin 128) :
    Stage.padRows (F := F) Y (ix4 n c i w) = Y (ix4 n c (Cert.Spec.R.refl i) w) := by
  by_cases hl : i.val = 129
  · -- the last row: row 127 of the 129, which is the plane's row 126
    refine (concat4_axis2_right _ _ concatenates_S4x64x129x128_S4x64x1x128_S4x64x130x128_d2 n c i w (⟨0, Nat.one_pos⟩ : Fin 1)
      (by show 0 + 129 = i.val; omega)).trans ?_
    refine (reverse4_unit_axis2_apply _ n c _ w).trans ?_
    refine (slice4_axis2_apply 127 _ _ n c _ w (⟨127, by omega⟩ : Fin 129) rfl).trans ?_
    exact rowsFront_apply Y n c _ w _ (fun h => absurd (show (127 : ℕ) = 0 from h) (by decide)) (fun _ => by rw [refl_val_last i hl])
  · -- any other row: the same row of the 129
    refine (concat4_axis2_left _ _ concatenates_S4x64x129x128_S4x64x1x128_S4x64x130x128_d2 n c i w (⟨i.val, by omega⟩ : Fin 129)
      rfl).trans ?_
    exact rowsFront_apply Y n c _ w _ (fun h => refl_val_first i h) (fun h => refl_val_mid i h hl)

/-- The rows-padded plane with its column 1 put in front: column 0 of the 129 is column 1, column k > 0 column k - 1. -/
theorem colsFront_apply (Z : FVec F S4x64x130x128 .f32) (n : Fin 4) (c : Fin 64) (r : Fin 130) (j : Fin 129) (k : Fin 128)
    (h0 : j.val = 0 → k.val = 1) (h1 : j.val ≠ 0 → k.val + 1 = j.val) :
    concatenate S4x64x130x129 3
      [⟨S4x64x130x1, Host.reverse [3] (extractStridedSlice S4x64x130x1 ![0, 0, 0, 1] Z slices_S4x64x130x128_S4x64x130x1_0_0_0_1)⟩,
        ⟨S4x64x130x128, Z⟩] concatenates_S4x64x130x1_S4x64x130x128_S4x64x130x129_d3 (ix4 n c r j) = Z (ix4 n c r k) := by
  by_cases hj : j.val = 0
  · refine (concat4_axis3_left _ _ _ n c r j (⟨0, Nat.one_pos⟩ : Fin 1) hj.symm).trans ?_
    refine (reverse4_unit_axis3_apply _ n c r _).trans ?_
    exact slice4_axis3_apply 1 _ _ n c r _ k (h0 hj)
  · exact concat4_axis3_right _ _ _ n c r j k (h1 hj)

/-- The columns padded: column j of the 130 is column refl j of the rows-padded plane. -/
theorem padCols_apply (Z : FVec F S4x64x130x128 .f32) (n : Fin 4) (c : Fin 64) (r : Fin 130) (j : Fin 130) :
    Stage.padCols (F := F) Z (ix4 n c r j) = Z (ix4 n c r (Cert.Spec.R.refl j)) := by
  by_cases hl : j.val = 129
  · refine (concat4_axis3_right _ _ concatenates_S4x64x130x129_S4x64x130x1_S4x64x130x130_d3 n c r j (⟨0, Nat.one_pos⟩ : Fin 1)
      (by show 0 + 129 = j.val; omega)).trans ?_
    refine (reverse4_unit_axis3_apply _ n c r _).trans ?_
    refine (slice4_axis3_apply 127 _ _ n c r _ (⟨127, by omega⟩ : Fin 129) rfl).trans ?_
    exact colsFront_apply Z n c r _ _ (fun h => absurd (show (127 : ℕ) = 0 from h) (by decide)) (fun _ => by rw [refl_val_last j hl])
  · refine (concat4_axis3_left _ _ concatenates_S4x64x130x129_S4x64x130x1_S4x64x130x130_d3 n c r j (⟨j.val, by omega⟩ : Fin 129)
      rfl).trans ?_
    exact colsFront_apply Z n c r _ _ (fun h => refl_val_first j h) (fun h => refl_val_mid j h hl)

end Padding

/-- The reflect-padded plane at (i, j) is the plane at the reflected row and column. -/
theorem padded_apply {F : FTy → Type} [FloatOps F] (Y : FVec F S4x64x128x128 .f32) (n : Fin 4) (c : Fin 64) (i j : Fin 130) :
    Stage.padded (F := F) Y (ix4 n c i j) = Y (ix4 n c (Cert.Spec.R.refl i) (Cert.Spec.R.refl j)) := by
  exact (padCols_apply (Stage.padRows Y) n c i j).trans (padRows_apply Y n c i (Cert.Spec.R.refl j))

end Cert.ReferenceIdeal.StageValue

end
-- ==== Proof.Reference.Reduce.lean ====
/-
  The reference's three host sums read at an index, on the extended reals: a sum over several trailing axes of an
  array, started from the scalar zero, is at each kept index the iterated sum over the reduced coordinates (the
  indices that drop to a given kept index are exactly those with the kept coordinates fixed and the reduced ones
  free); a sum over one axis likewise.
-/
import proofs.«100511_j11888469476170_1_alg».proof.Proof.Reference.Term
import proofs.«100511_j11888469476170_1_alg».proof.Proof.Gen.ReferenceIdeal
import Idealize.ShloMosaic.Lib.ValueIdx
import Idealize.ShloMosaic.PureOps.Ideal.Laws

noncomputable section

namespace Cert.ReferenceIdeal.StageValue

open Idealize.ShloMosaic Idealize.ShloMosaic.ValueIdx Cert.ReferenceIdeal Cert.ReferenceIdeal.Stage
open Cert.ReferenceIdeal.Facts₀ Cert.ReferenceIdeal.Facts

/-- The scalar every host sum starts from is the extended real 0. -/
private theorem zero0_first : (Stage.zero0 (F := Ideal)) (Shape.Idx.first h_S_) = 0 := Ideal.ofBits_zero_f32

/-! ### Axes 2, 3, 4 of the rank-5 array -/

/-- Dropping axes 2, 3, 4 of a rank-5 index leaves (n, c) exactly when its first two coordinates are n and c. -/
private theorem drop234_iff (h' : S4x64x32x128x128.ReducesTo [2, 3, 4] S4x64) (i : S4x64x32x128x128.Idx)
    (n : Fin 4) (c : Fin 64) :
    h'.drop i = ix2 n c ↔ (i (0 : Fin 5)).val = n.val ∧ (i (1 : Fin 5)).val = c.val := by
  have e0 : (h'.drop i (0 : Fin 2) : Nat) = i (0 : Fin 5) := Shape.ReducesTo.drop_apply_val_of_eq h' i 0 0
  have e1 : (h'.drop i (1 : Fin 2) : Nat) = i (1 : Fin 5) := Shape.ReducesTo.drop_apply_val_of_eq h' i 1 1
  constructor
  · intro e
    rw [e] at e0 e1
    exact ⟨e0.symm, e1.symm⟩
  · rintro ⟨a, b⟩
    funext d
    apply Fin.ext
    match d with
    | ⟨0, _⟩ => exact e0.trans a
    | ⟨1, _⟩ => exact e1.trans b

/-- A rank-5 index whose first two coordinates are n and c is (n, c) followed by its last three. -/
private theorem ix5_tail (i : S4x64x32x128x128.Idx) (n : Fin 4) (c : Fin 64)
    (hi : (i (0 : Fin 5)).val = n.val ∧ (i (1 : Fin 5)).val = c.val) :
    ix5 n c (i (2 : Fin 5)) (i (3 : Fin 5)) (i (4 : Fin 5)) = i := by
  funext d
  apply Fin.ext
  match d with
  | ⟨0, _⟩ => exact hi.1.symm
  | ⟨1, _⟩ => exact hi.2.symm
  | ⟨2, _⟩ => rfl
  | ⟨3, _⟩ => rfl
  | ⟨4, _⟩ => rfl

/-- The host's sum over depth and the plane, from zero, at (n, c): the indices that drop to (n, c) are in
bijection with the triples (d, h, w), and the sum over triples is the iterated sum. -/
theorem reduce234_apply (x : FVec Ideal S4x64x32x128x128 .f32) (n : Fin 4) (c : Fin 64) :
    Host.reduceAdd (F := Ideal) x (Stage.zero0 (F := Ideal)) reducesTo_S4x64x32x128x128_S4x64_d2_3_4 h_S_ (ix2 n c)
      = ∑ d : Fin 32, ∑ h : Fin 128, ∑ w : Fin 128, x (ix5 n c d h w) := by
  show Ideal.hostReduceAdd reducesTo_S4x64x32x128x128_S4x64_d2_3_4 x ((Stage.zero0 (F := Ideal)) (Shape.Idx.first h_S_)) (ix2 n c) = _
  unfold Ideal.hostReduceAdd
  rw [zero0_first, zero_add]
  trans ∑ p : Fin 32 × Fin 128 × Fin 128, x (ix5 n c p.1 p.2.1 p.2.2)
  · refine Finset.sum_nbij' (fun i => (i (2 : Fin 5), i (3 : Fin 5), i (4 : Fin 5))) (fun p => ix5 n c p.1 p.2.1 p.2.2)
      (fun _ _ => Finset.mem_univ _) ?_ ?_ (fun _ _ => rfl) ?_
    · intro p _
      rw [Finset.mem_filter, drop234_iff]
      exact ⟨Finset.mem_univ _, rfl, rfl⟩
    · intro i hi
      rw [Finset.mem_filter, drop234_iff] at hi
      exact ix5_tail i n c hi.2
    · intro i hi
      rw [Finset.mem_filter, drop234_iff] at hi
      exact congrArg x (ix5_tail i n c hi.2).symm
  · rw [Fintype.sum_prod_type]
    refine Finset.sum_congr rfl fun d _ => ?_
    rw [Fintype.sum_prod_type]

/-! ### Axes 2, 3 of the padded rank-4 array -/

/-- Dropping axes 2, 3 of a rank-4 index leaves (n, c) exactly when its first two coordinates are n and c. -/
private theorem drop23_iff (h' : S4x64x130x130.ReducesTo [2, 3] S4x64) (i : S4x64x130x130.Idx)
    (n : Fin 4) (c : Fin 64) :
    h'.drop i = ix2 n c ↔ (i (0 : Fin 4)).val = n.val ∧ (i (1 : Fin 4)).val = c.val := by
  have e0 : (h'.drop i (0 : Fin 2) : Nat) = i (0 : Fin 4) := Shape.ReducesTo.drop_apply_val_of_eq h' i 0 0
  have e1 : (h'.drop i (1 : Fin 2) : Nat) = i (1 : Fin 4) := Shape.ReducesTo.drop_apply_val_of_eq h' i 1 1
  constructor
  · intro e
    rw [e] at e0 e1
    exact ⟨e0.symm, e1.symm⟩
  · rintro ⟨a, b⟩
    funext d
    apply Fin.ext
    match d with
    | ⟨0, _⟩ => exact e0.trans a
    | ⟨1, _⟩ => exact e1.trans b

/-- A rank-4 index whose first two coordinates are n and c is (n, c) followed by its last two. -/
private theorem ix4_tail (i : S4x64x130x130.Idx) (n : Fin 4) (c : Fin 64)
    (hi : (i (0 : Fin 4)).val = n.val ∧ (i (1 : Fin 4)).val = c.val) :
    ix4 n c (i (2 : Fin 4)) (i (3 : Fin 4)) = i := by
  funext d
  apply Fin.ext
  match d with
  | ⟨0, _⟩ => exact hi.1.symm
  | ⟨1, _⟩ => exact hi.2.symm
  | ⟨2, _⟩ => rfl
  | ⟨3, _⟩ => rfl

/-- The host's sum over the padded plane, from zero, at (n, c): the double sum over the plane's coordinates. -/
theorem reduce23_apply (y : FVec Ideal S4x64x130x130 .f32) (n : Fin 4) (c : Fin 64) :
    Host.reduceAdd (F := Ideal) y (Stage.zero0 (F := Ideal)) reducesTo_S4x64x130x130_S4x64_d2_3 h_S_ (ix2 n c)
      = ∑ i : Fin 130, ∑ j : Fin 130, y (ix4 n c i j) := by
  show Ideal.hostReduceAdd reducesTo_S4x64x130x130_S4x64_d2_3 y ((Stage.zero0 (F := Ideal)) (Shape.Idx.first h_S_)) (ix2 n c) = _
  unfold Ideal.hostReduceAdd
  rw [zero0_first, zero_add]
  trans ∑ p : Fin 130 × Fin 130, y (ix4 n c p.1 p.2)
  · refine Finset.sum_nbij' (fun i => (i (2 : Fin 4), i (3 : Fin 4))) (fun p => ix4 n c p.1 p.2)
      (fun _ _ => Finset.mem_univ _) ?_ ?_ (fun _ _ => rfl) ?_
    · intro p _
      rw [Finset.mem_filter, drop23_iff]
      exact ⟨Finset.mem_univ _, rfl, rfl⟩
    · intro i hi
      rw [Finset.mem_filter, drop23_iff] at hi
      exact ix4_tail i n c hi.2
    · intro i hi
      rw [Finset.mem_filter, drop23_iff] at hi
      exact congrArg y (ix4_tail i n c hi.2).symm
  · rw [Fintype.sum_prod_type]

/-! ### Axis 2 alone -/

/-- The host's sum over depth, from zero, at (n, c, h, w): the one-axis form of the host sum, with the
depth coordinate inserted at axis 2 of the result index. -/
theorem reduce2_apply (x : FVec Ideal S4x64x32x128x128 .f32) (n : Fin 4) (c : Fin 64) (h w : Fin 128) :
    Host.reduceAdd (F := Ideal) x (Stage.zero0 (F := Ideal)) reducesTo_S4x64x32x128x128_S4x64x128x128_d2 h_S_ (ix4 n c h w)
      = ∑ d : Fin 32, x (ix5 n c d h w) := by
  have hr : S4x64x32x128x128.Reduces [2] S4x64x128x128 := by decide
  show Ideal.hostReduceAdd reducesTo_S4x64x32x128x128_S4x64x128x128_d2 x ((Stage.zero0 (F := Ideal)) (Shape.Idx.first h_S_)) (ix4 n c h w) = _
  rw [Ideal.hostReduceAdd_single _ hr, zero0_first, zero_add]
  refine Finset.sum_congr rfl fun d _ => congrArg x ?_
  funext a
  apply Fin.ext
  match a with
  | ⟨0, _⟩ => rfl
  | ⟨1, _⟩ => rfl
  | ⟨2, _⟩ => rfl
  | ⟨3, _⟩ => rfl
  | ⟨4, _⟩ => rfl

end Cert.ReferenceIdeal.StageValue

end
-- ==== Proof.Reference.Value.lean ====
/-
  The reference's result read at (n, k), stage by stage: the mean, the variance as the mean of squared deviations,
  its inverse square root after the epsilon, the depth-mean of the normalized input, the reflect-padded plane's mean
  (each padded entry is the plane's entry at the reflected indices), and the product with W as the sum over the 64
  channels. Entry by entry that is the reference's arrangement of the specification.
-/
import proofs.«100511_j11888469476170_1_alg».proof.Proof.Reference.Pad
import proofs.«100511_j11888469476170_1_alg».proof.Proof.Reference.Reduce
import proofs.«100511_j11888469476170_1_alg».proof.Proof.Gen.ReferenceIdeal
import proofs.«100511_j11888469476170_1_alg».proof.Proof.Spec.Defs
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.StackMember

noncomputable section

namespace Cert.ReferenceIdeal.StageValue

open Idealize.ShloMosaic Idealize.ShloMosaic.ValueIdx Cert.ReferenceIdeal Cert.ReferenceIdeal.Stage

/-- X read by its five coordinates: batch, channel, depth, row, column. -/
abbrev byCoords (X : FVec Ideal S4x64x32x128x128 .f32) : Cert.Spec.Arr5 := fun n c d h w => X (ix5 n c d h w)

/-! ## The broadcasts and the inverse square root, read at an index -/

/-- A per-(n, c) value given unit axes for depth, row and column reads the value at (n, c). -/
theorem bcast_nc_units {α : Type}
    (hb : S4x64.BroadcastsInDim S4x64x1x1x1 (![0, 1] : Fin 2 → Fin S4x64x1x1x1.rank))
    (v : S4x64.Idx → α) (n : Fin 4) (c : Fin 64) (a b e : Fin 1) :
    broadcastInDim S4x64x1x1x1 (![0, 1] : Fin 2 → Fin S4x64x1x1x1.rank) hb v (ix5 n c a b e) = v (ix2 n c) :=
  broadcastInDim_apply _ hb v _ _ fun ax => match ax with
    | ⟨0, _⟩ => rfl
    | ⟨1, _⟩ => rfl

/-- A per-(n, c) value with unit axes spread over depth, row and column reads the value at (n, c, 0, 0, 0). -/
theorem bcast_units_full {α : Type}
    (hb : S4x64x1x1x1.BroadcastsInDim S4x64x32x128x128 (![0, 1, 2, 3, 4] : Fin 5 → Fin S4x64x32x128x128.rank))
    (v : S4x64x1x1x1.Idx → α) (n : Fin 4) (c : Fin 64) (d : Fin 32) (h w : Fin 128) :
    broadcastInDim S4x64x32x128x128 (![0, 1, 2, 3, 4] : Fin 5 → Fin S4x64x32x128x128.rank) hb v (ix5 n c d h w)
      = v (ix5 n c 0 0 0) :=
  broadcastInDim_apply _ hb v _ _ fun ax => match ax with
    | ⟨0, _⟩ => rfl
    | ⟨1, _⟩ => rfl
    | ⟨2, _⟩ => rfl
    | ⟨3, _⟩ => rfl
    | ⟨4, _⟩ => rfl

/-- The host's inverse square root at an index is the extended reals' one of the element. -/
theorem hostRsqrt_apply {s : Shape} {φ : FTy} (a : FVec Ideal s φ) (i : s.Idx) :
    Host.rsqrt a i = Ideal.rsqrt (a i) := rfl

/-! ## The stages, read at an index -/

/-- The mean at (n, c): the total over depth and the plane divided by the count. -/
theorem mean_apply (X : FVec Ideal S4x64x32x128x128 .f32) (n : Fin 4) (c : Fin 64) :
    Stage.mean (F := Ideal) X (ix5 n c 0 0 0) = Cert.Spec.mean (byCoords X) n c := by
  unfold Stage.mean
  rw [hostDivf_apply, bcast_nc_units, broadcastInDim_scalar_apply, reduce234_apply]
  rfl

/-- X centred at (n, c, d, h, w): the entry minus the mean of its (n, c). -/
theorem centred_apply (X : FVec Ideal S4x64x32x128x128 .f32) (n : Fin 4) (c : Fin 64) (d : Fin 32) (h w : Fin 128) :
    Stage.centred (F := Ideal) X (ix5 n c d h w) = X (ix5 n c d h w) - Cert.Spec.mean (byCoords X) n c := by
  unfold Stage.centred
  rw [subf_apply, bcast_units_full, mean_apply]

/-- The variance at (n, c): the mean of the squared deviations. -/
theorem var_apply (X : FVec Ideal S4x64x32x128x128 .f32) (n : Fin 4) (c : Fin 64) :
    Stage.var (F := Ideal) X (ix5 n c 0 0 0) = Cert.Spec.R.var (byCoords X) n c := by
  unfold Stage.var
  rw [hostDivf_apply, bcast_nc_units, broadcastInDim_scalar_apply, reduce234_apply]
  unfold Cert.Spec.R.var
  refine congrArg₂ Ideal.div ?_ rfl
  refine Finset.sum_congr rfl fun d _ => Finset.sum_congr rfl fun h _ => Finset.sum_congr rfl fun w _ => ?_
  rw [mulf_apply, centred_apply]

/-- The inverse standard deviation at (n, c). -/
theorem invStd_apply (X : FVec Ideal S4x64x32x128x128 .f32) (n : Fin 4) (c : Fin 64) :
    Stage.invStd (F := Ideal) X (ix5 n c 0 0 0) = Cert.Spec.R.invStd (byCoords X) n c := by
  unfold Stage.invStd
  rw [hostRsqrt_apply, addf_apply, var_apply, broadcastInDim_scalar_apply]
  rfl

/-- The normalized X at (n, c, d, h, w): the deviation times the inverse standard deviation of its (n, c). -/
theorem normed_apply (X : FVec Ideal S4x64x32x128x128 .f32) (n : Fin 4) (c : Fin 64) (d : Fin 32) (h w : Fin 128) :
    Stage.normed (F := Ideal) X (ix5 n c d h w)
      = (X (ix5 n c d h w) - Cert.Spec.mean (byCoords X) n c) * Cert.Spec.R.invStd (byCoords X) n c := by
  unfold Stage.normed
  rw [mulf_apply, centred_apply, bcast_units_full, invStd_apply]

/-- The depth-mean at (n, c, h, w): the sum over depth of the normalized entries, divided by the depth. -/
theorem depthMean_apply (X : FVec Ideal S4x64x32x128x128 .f32) (n : Fin 4) (c : Fin 64) (h w : Fin 128) :
    Stage.depthMean (F := Ideal) X (ix4 n c h w) = Cert.Spec.R.plane (byCoords X) n c h w := by
  unfold Stage.depthMean
  rw [hostDivf_apply, reduce2_apply, broadcastInDim_scalar_apply]
  unfold Cert.Spec.R.plane
  refine congrArg₂ Ideal.div (Finset.sum_congr rfl fun d _ => ?_) rfl
  exact normed_apply X n c d h w

/-- The descriptor at (n, c): the sum over the reflect-padded plane, entry by entry, divided by its size. -/
theorem desc_apply (X : FVec Ideal S4x64x32x128x128 .f32) (n : Fin 4) (c : Fin 64) :
    Stage.desc (F := Ideal) X (ix2 n c) = Cert.Spec.R.desc (byCoords X) n c := by
  unfold Stage.desc
  rw [hostDivf_apply, reduce23_apply, broadcastInDim_scalar_apply]
  unfold Cert.Spec.R.desc Cert.Spec.R.padSum
  refine congrArg₂ Ideal.div (Finset.sum_congr rfl fun i _ => Finset.sum_congr rfl fun j _ => ?_) rfl
  rw [padded_apply, depthMean_apply]

/-- The result at (n, k): the descriptors of batch n times column k of W, summed over the channels. -/
theorem out_apply (X : FVec Ideal S4x64x32x128x128 .f32) (W : FVec Ideal S64x256 .f32) (n : Fin 4) (k : Fin 256) :
    Stage.out (F := Ideal) X W (ix2 n k)
      = Cert.Spec.R.out (fun n c d h w => X (ix5 n c d h w)) (fun c k => W (ix2 c k)) n k := by
  unfold Stage.out
  show Host.dotGeneral (DotDims.plain 4 64 256) none (Stage.desc (F := Ideal) X) W (ix2 n k) = _
  rw [StackMember.dotGeneral_plain_apply]
  unfold Cert.Spec.R.out
  refine Finset.sum_congr rfl fun c _ => ?_
  rw [desc_apply]

end Cert.ReferenceIdeal.StageValue

end
-- ==== Proof.Spec.PadSum.lean ====
/-
  Summing a plane over its reflect-padded index set. Along one axis the padded indices 0 … 129 reflect to
  1, 0, 1, …, 127, 126: every plane index once, and 1 and 126 once more. So a sum over a padded axis is the sum over
  the axis plus the terms at 1 and at 126; done along both axes, the padded plane's sum is the plane's sum plus rows 1
  and 126, columns 1 and 126, and the four entries where those cross. Only commutativity and associativity of
  addition are used.
-/
import proofs.«100511_j11888469476170_1_alg».proof.Proof.Spec.Defs

noncomputable section

namespace Cert.Spec

/-- The reflection sends the first padded index to 1. -/
private theorem refl_first : R.refl 0 = 1 := by
  simp [R.refl]

/-- The reflection sends the padded index k + 1 (0 ≤ k < 128) to k. -/
private theorem refl_mid (k : Fin 128) : R.refl (Fin.castSucc k).succ = k := by
  have hk := k.isLt
  unfold R.refl
  rw [dif_neg (by simp), dif_neg (by simp only [Fin.val_succ, Fin.coe_castSucc]; omega)]
  apply Fin.ext
  simp

/-- The reflection sends the last padded index, 129, to 126. -/
private theorem refl_last : R.refl (Fin.last 128).succ = 126 := by
  simp [R.refl]

/-- One axis: a sum over the 130 padded indices of a function of the reflected index is the sum over
the 128 plane indices plus the values at 1 and at 126. The padded range is split as its first index, the
128 middle ones and its last; the reflection is the identity shift on the middle and lands on 1 and 126
at the two ends. -/
theorem sum_refl {M : Type*} [AddCommMonoid M] (g : Fin 128 → M) :
    ∑ i : Fin 130, g (R.refl i) = (∑ h, g h) + g 1 + g 126 := by
  rw [Fin.sum_univ_succ, Fin.sum_univ_castSucc]
  simp only [refl_first, refl_mid, refl_last]
  abel

/-- Both axes: apply the one-axis identity to the inner sum, distribute the outer sum over the three
summands, apply the identity again to each, and reorder. -/
theorem padSum_eq (f : Fin 128 → Fin 128 → EReal) : R.padSum f = K.padSum f := by
  unfold R.padSum K.padSum
  have inner : ∀ i : Fin 130, ∑ j : Fin 130, f (R.refl i) (R.refl j)
      = (∑ w, f (R.refl i) w) + f (R.refl i) 1 + f (R.refl i) 126 :=
    fun i => sum_refl (fun w => f (R.refl i) w)
  simp only [inner, Finset.sum_add_distrib]
  rw [sum_refl (fun h => ∑ w, f h w), sum_refl (fun h => f h 1), sum_refl (fun h => f h 126)]
  abel

end Cert.Spec

end
-- ==== Proof.Spec.Algebra.lean ====
import proofs.«100511_j11888469476170_1_alg».proof.Proof.Spec.PadSum

/-!
  The two arrangements agree on an input all of whose entries are real numbers.

  Per (n, c) write N = 524288 for the number of entries y (over depth, rows and columns), T = Σ y,
  Q = Σ y², μ = T / N. Expanding the square, Σ (y − μ)² = Q − 2 μ T + N μ² = Q − N μ², so the mean
  of the squared deviations is Q / N − μ²: the two variances agree, and so do the two inverse
  standard deviations, the reciprocal square root of one and the same number v + ε. That number is a
  positive real (v ≥ 0 as a mean of squares, ε > 0), so the reciprocal square root s is a real
  number, and a real factor may be moved through a finite sum:
  (Σ_d (y_d − μ) · s) / 32 = s · ((Σ_d y_d) / 32 − μ), the 32 copies of μ in the sum being 32 μ.
  The planes being equal entry by entry, the padded sums, the descriptors and the products with the
  weight agree.
-/

noncomputable section

namespace Cert.Spec

open Idealize.ShloMosaic

namespace Alg

/-! ### The constants as real numbers -/

/-- The count's pattern denotes 2¹⁹ = 524288. -/
theorem cCount_eq : cCount = ((524288 : ℝ) : EReal) := by
  unfold cCount
  simp [Ideal.ofBits, Ideal.ieee, -EReal.coe_mul]; norm_num

/-- The depth's pattern denotes 32. -/
theorem cDepth_eq : cDepth = ((32 : ℝ) : EReal) := by
  unfold cDepth
  simp [Ideal.ofBits, Ideal.ieee, -EReal.coe_mul]; norm_num

/-- The epsilon's pattern denotes 10995116 · 2⁻⁴⁰, a positive real. -/
theorem cEps_eq : cEps = ((10995116 / 1099511627776 : ℝ) : EReal) := by
  unfold cEps
  simp [Ideal.ofBits, Ideal.ieee, -EReal.coe_mul]; norm_num

/-! ### Finite sums of reals inside the extended reals -/

/-- A finite sum of real numbers, taken in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ### The two identities over the reals -/

/-- The mean of the squared deviations from the mean is the mean square minus the squared mean. -/
theorem real_var (y : Fin 32 → Fin 128 → Fin 128 → ℝ) (μ : ℝ)
    (hμ : μ = (∑ d, ∑ h, ∑ w, y d h w) / 524288) :
    (∑ d, ∑ h, ∑ w, (y d h w - μ) * (y d h w - μ)) / 524288
      = (∑ d, ∑ h, ∑ w, y d h w * y d h w) / 524288 - μ * μ := by
  have hT : (∑ d, ∑ h, ∑ w, y d h w) = 524288 * μ := by rw [hμ]; ring
  have h1 : ∀ d h w, (y d h w - μ) * (y d h w - μ)
      = y d h w * y d h w - 2 * μ * y d h w + μ * μ := by intros; ring
  simp only [h1, Finset.sum_add_distrib, Finset.sum_sub_distrib, ← Finset.mul_sum, hT,
    Finset.sum_const, Finset.card_univ, Fintype.card_fin, nsmul_eq_mul]
  push_cast
  ring

/-- A factor s moves through the sum over depth, and the 32 copies of μ make 32 μ. -/
theorem real_plane (y : Fin 32 → ℝ) (μ s : ℝ) :
    s * ((∑ d, y d) * (1 / 32) - μ) = (∑ d, (y d - μ) * s) * (1 / 32) := by
  rw [← Finset.sum_mul, Finset.sum_sub_distrib, Finset.sum_const, Finset.card_univ,
    Fintype.card_fin, nsmul_eq_mul]
  push_cast
  ring

/-! ### The definitions at a real input -/

/-- The real mean over depth and the plane. -/
def rMean (xr : Fin 4 → Fin 64 → Fin 32 → Fin 128 → Fin 128 → ℝ) (n : Fin 4) (c : Fin 64) : ℝ :=
  (∑ d, ∑ h, ∑ w, xr n c d h w) / 524288

/-- The real mean of the squared deviations from the mean. -/
def rVar (xr : Fin 4 → Fin 64 → Fin 32 → Fin 128 → Fin 128 → ℝ) (n : Fin 4) (c : Fin 64) : ℝ :=
  (∑ d, ∑ h, ∑ w, (xr n c d h w - rMean xr n c) * (xr n c d h w - rMean xr n c)) / 524288

theorem rVar_nonneg (xr : Fin 4 → Fin 64 → Fin 32 → Fin 128 → Fin 128 → ℝ) (n : Fin 4) (c : Fin 64) :
    0 ≤ rVar xr n c := by
  unfold rVar
  refine div_nonneg ?_ (by norm_num)
  exact Finset.sum_nonneg fun d _ => Finset.sum_nonneg fun h _ => Finset.sum_nonneg fun w _ =>
    mul_self_nonneg _

section
variable {x : Arr5} {xr : Fin 4 → Fin 64 → Fin 32 → Fin 128 → Fin 128 → ℝ}
  (hxr : ∀ n c d h w, x n c d h w = ((xr n c d h w : ℝ) : EReal))
include hxr

theorem total_coe (n : Fin 4) (c : Fin 64) :
    total x n c = ((∑ d, ∑ h, ∑ w, xr n c d h w : ℝ) : EReal) := by
  unfold total
  simp only [hxr, coe_sum]

theorem mean_coe (n : Fin 4) (c : Fin 64) : mean x n c = ((rMean xr n c : ℝ) : EReal) := by
  unfold mean rMean
  rw [total_coe hxr, cCount_eq, Ideal.div_coe (by norm_num : (524288 : ℝ) ≠ 0), ← EReal.coe_mul]
  congr 1
  ring

theorem totalSq_coe (n : Fin 4) (c : Fin 64) :
    K.totalSq x n c = ((∑ d, ∑ h, ∑ w, xr n c d h w * xr n c d h w : ℝ) : EReal) := by
  unfold K.totalSq
  simp only [hxr, ← EReal.coe_mul, coe_sum]

theorem Kvar_coe (n : Fin 4) (c : Fin 64) :
    K.var x n c = (((∑ d, ∑ h, ∑ w, xr n c d h w * xr n c d h w) / 524288
      - rMean xr n c * rMean xr n c : ℝ) : EReal) := by
  unfold K.var
  rw [totalSq_coe hxr, mean_coe hxr, cCount_eq, Ideal.div_coe (by norm_num : (524288 : ℝ) ≠ 0),
    ← EReal.coe_mul, ← EReal.coe_mul, ← EReal.coe_sub]
  congr 1
  ring

theorem Rvar_coe (n : Fin 4) (c : Fin 64) : R.var x n c = ((rVar xr n c : ℝ) : EReal) := by
  unfold R.var rVar
  simp only [hxr, mean_coe hxr, ← EReal.coe_sub, ← EReal.coe_mul, coe_sum]
  rw [cCount_eq, Ideal.div_coe (by norm_num : (524288 : ℝ) ≠ 0), ← EReal.coe_mul]
  congr 1
  ring

/-- The two variances agree. -/
theorem var_eq (n : Fin 4) (c : Fin 64) : K.var x n c = R.var x n c := by
  rw [Kvar_coe hxr, Rvar_coe hxr]
  exact congrArg _ (real_var (xr n c) (rMean xr n c) rfl).symm

/-- So do the two inverse standard deviations. -/
theorem invStd_eq (n : Fin 4) (c : Fin 64) : K.invStd x n c = R.invStd x n c := by
  unfold K.invStd R.invStd
  rw [var_eq hxr]

/-- The inverse standard deviation is a real number: its argument is a positive real. -/
theorem invStd_real (n : Fin 4) (c : Fin 64) : ∃ s : ℝ, R.invStd x n c = ((s : ℝ) : EReal) := by
  have hpos : 0 < rVar xr n c + 10995116 / 1099511627776 :=
    add_pos_of_nonneg_of_pos (rVar_nonneg xr n c) (by norm_num)
  refine ⟨(Real.sqrt (rVar xr n c + 10995116 / 1099511627776))⁻¹, ?_⟩
  unfold R.invStd
  rw [Rvar_coe hxr, cEps_eq, ← EReal.coe_add, Ideal.rsqrt_coe, if_neg (not_lt.mpr hpos.le),
    if_neg hpos.ne']

theorem depthSum_coe (n : Fin 4) (c : Fin 64) (h w : Fin 128) :
    K.depthSum x n c h w = ((∑ d, xr n c d h w : ℝ) : EReal) := by
  unfold K.depthSum
  simp only [hxr, coe_sum]

/-- The two planes agree entry by entry. -/
theorem plane_eq (n : Fin 4) (c : Fin 64) (h w : Fin 128) :
    K.plane x n c h w = R.plane x n c h w := by
  obtain ⟨s, hs⟩ := invStd_real hxr n c
  have h32 : (32 : ℝ) ≠ 0 := by norm_num
  unfold K.plane R.plane
  rw [invStd_eq hxr n c, hs, cDepth_eq, Ideal.div_coe h32, Ideal.div_coe h32,
    depthSum_coe hxr, mean_coe hxr n c]
  simp only [hxr, ← EReal.coe_sub, ← EReal.coe_mul, coe_sum]
  exact congrArg _ (real_plane (fun d => xr n c d h w) (rMean xr n c) s)

theorem desc_eq (n : Fin 4) (c : Fin 64) : K.desc x n c = R.desc x n c := by
  have hp : K.plane x n c = R.plane x n c := funext fun h => funext fun w => plane_eq hxr n c h w
  unfold K.desc R.desc
  rw [padSum_eq, hp]

end

end Alg

theorem out_eq (x : Arr5) (w : Arr2) (hx : ∀ n c d h w', ∃ r : ℝ, x n c d h w' = (r : EReal)) (n : Fin 4) (k : Fin 256) :
    K.out x w n k = R.out x w n k := by
  choose xr hxr using hx
  unfold K.out R.out
  simp only [Alg.desc_eq hxr]

end Cert.Spec

end
-- ==== Proof.Finite.lean ====
/-
  Under the precondition every entry of X is a real number: the precondition says that |x| is below +∞ at every
  entry of both arguments, and an extended real whose absolute value is below +∞ is neither infinity.
-/
import proofs.«100511_j11888469476170_1_alg».proof.Defs
import proofs.«100511_j11888469476170_1_alg».proof.Proof.Gen.KernelIdeal
import proofs.«100511_j11888469476170_1_alg».proof.Proof.Gen.Pre_finite_inputs
import Idealize.ShloMosaic.Lib.ReduceAll
import Idealize.ShloMosaic.Lib.ValueIdx

noncomputable section

namespace Cert.Finite

open Idealize.ShloMosaic Idealize.ShloMosaic.TcCoe Idealize.SL.Sem

/-- A shape of rank zero has exactly one index. -/
instance : Subsingleton Cert.Pre_finite_inputs.S_.Idx := ⟨fun a b => funext fun d => d.elim0⟩

/-- An extended real whose absolute value, max x (−x), lies strictly below the f32 pattern of +∞ is a
real number: at ⊥ and at ⊤ that maximum is ⊤, which is not below ⊤. -/
private theorem real_of_abs_lt (x : EReal)
    (hx : Ideal.cmp .olt (max x (-x)) (Ideal.ofBits .f32 0x7F800000#32) = 1#1) : ∃ r : ℝ, x = (r : EReal) := by
  have e : Ideal.ofBits .f32 0x7F800000#32 = (⊤ : EReal) := by simp [Ideal.ofBits, Ideal.ieee]
  rw [e] at hx
  induction x using EReal.rec with
  | bot => simp [Ideal.cmp] at hx
  | coe r => exact ⟨r, rfl⟩
  | top => simp [Ideal.cmp] at hx

/-- Under the precondition every entry of the first argument is a real number. The precondition is the
conjunction of two "all entries satisfy |·| < +∞" bits; the first conjunct is an and-reduction over all
five axes of the entrywise comparison, so it being 1 gives the comparison at each index, and the scalar
fact above reads that comparison as realness. -/
theorem arg0_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S4x64x32x128x128.Idx) :
    ∃ r : ℝ, m ((c.tc : Thread Cert.KernelIdeal.nD Cert.KernelIdeal.τ).loc Cert.KernelIdeal.main_arg0) i = (r : EReal) := by
  have h0 := congrFun (h c) ValueIdx.ix0
  dsimp only [Cert.Pre_finite_inputs.fn] at h0
  have hX := (IntOp.andi_eq_one.1 h0).1
  have hi := Host.reduce_andi_all _ _ _ _ _ hX i
  simp only [cmpf, Host.absf, broadcastInDim, constant] at hi
  exact real_of_abs_lt _ hi

end Cert.Finite

end
-- ==== Proof.lean ====
/-
  The certificate's claim, assembled.

  The kernel program is two pallas_calls around a host transpose: a statistics kernel that streams X once, keeping
  per (n, c) the running sums of X over depth (per plane position), of X and of X² over depth and the plane, and at
  a channel tile's last depth step turns them into the descriptor — the mean over the reflect-padded plane of the
  depth-mean of the instance-normalized X, by the variance as E[X²] − E[X]², the depth-mean as
  invstd · (depth-sum / 32 − mean) and the padded sum as the plane's sum plus two rows, two columns and their four
  crossings —, and a matrix product of the descriptor with W. The reference follows the definitions operation by
  operation. On finite inputs the two are one function of (X, W) on the extended reals.

  The three frames: the kernel program's, at either float instance, is the launch of its three items over proof
  data that track the three scratch sums point by point; the reference's is its run with the result dropped.
  The idealization rewrote nothing. The equivalence: both runs' results are named as functions of the argument
  arrays; read at an index they are the two arrangements of the specification, which agree on real inputs.
-/
import proofs.«100511_j11888469476170_1_alg».proof.Defs
import proofs.«100511_j11888469476170_1_alg».proof.Proof.Gen.Kernel
import proofs.«100511_j11888469476170_1_alg».proof.Proof.Gen.KernelIdeal
import proofs.«100511_j11888469476170_1_alg».proof.Proof.Gen.ReferenceIdeal
import proofs.«100511_j11888469476170_1_alg».proof.Proof.Gen.Pre_finite_inputs
import proofs.«100511_j11888469476170_1_alg».proof.Proof.KernelFrame.Run
import proofs.«100511_j11888469476170_1_alg».proof.Proof.KernelIdealFrame.Run
import proofs.«100511_j11888469476170_1_alg».proof.Proof.KernelIdealFrame.Final
import proofs.«100511_j11888469476170_1_alg».proof.Proof.KernelValue
import proofs.«100511_j11888469476170_1_alg».proof.Proof.Reference.Run
import proofs.«100511_j11888469476170_1_alg».proof.Proof.Reference.Value
import proofs.«100511_j11888469476170_1_alg».proof.Proof.Spec.Algebra
import proofs.«100511_j11888469476170_1_alg».proof.Proof.Finite
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Frame.frame (F := Bits) m ρ

theorem frame_ki : Cert.frame_KernelIdeal := fun m ρ _ => Cert.KernelIdeal.Frame.frame (F := Ideal) m ρ

theorem frame_ri : Cert.frame_ReferenceIdeal := fun m ρ _ =>
  (θ_run Cert.ReferenceIdeal.defs _ _).mono (fun _ h c => (h c).2) (Cert.ReferenceIdeal.Stage.run (F := Ideal) m ρ)

/-- On real inputs the reference's result and the kernel program's are one array: index by index, the two
    arrangements of the specification. -/
theorem results_eq (X : FVec Ideal Cert.KernelIdeal.S4x64x32x128x128 .f32) (W : FVec Ideal Cert.KernelIdeal.S64x256 .f32)
    (hX : ∀ i, ∃ r : ℝ, X i = (r : EReal)) :
    Cert.ReferenceIdeal.Stage.out (F := Ideal) X W = Cert.KernelIdeal.Frame.kOut (F := Ideal) X W := by
  funext j
  obtain ⟨n, k, rfl⟩ : ∃ (n : Fin 4) (k : Fin 256), j = ix2 n k := ⟨j 0, j 1, eq_ix2 j⟩
  refine (Cert.ReferenceIdeal.StageValue.out_apply X W n k).trans ?_
  refine Eq.trans ?_ (Cert.KernelIdeal.Value.kOut_apply X W n k).symm
  exact (Cert.Spec.out_eq _ _ (fun n c d h w => hX _) n k).symm

theorem algebraic : Cert.algebraic_KernelIdeal_ReferenceIdeal := by
  intro m ρ m' ρ' hpre hagree
  refine ⟨fun c => Cert.KernelIdeal.Frame.kOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Frame.final_v2 m c), (h c).2.1, (h c).2.2⟩)
      (Cert.KernelIdeal.Frame.run_result (F := Ideal) m ρ)
  · refine (θ_run Cert.ReferenceIdeal.defs _ _).mono (fun r h c => ⟨(h c).1.trans ?_, (h c).2.1, (h c).2.2⟩)
      (Cert.ReferenceIdeal.Stage.run (F := Ideal) m' ρ')
    rw [(hagree c).1, (hagree c).2]
    exact results_eq _ _ (fun i => Cert.Finite.arg0_real m hpre c i)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
